-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S256 .f32) (main_arg7 : FVec F S256x128 .f32) (main_arg8 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x256 .f32) (main_arg6 : FVec F S256 .f32) (main_arg7 : FVec F S256x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x256 : Shape := ⟨2, ![50000, 256]⟩
abbrev S5000x128 : Shape := ⟨2, ![5000, 128]⟩
abbrev S5000x1 : Shape := ⟨2, ![5000, 1]⟩
abbrev S5000x256 : Shape := ⟨2, ![5000, 256]⟩
abbrev S850000x256 : Shape := ⟨2, ![850000, 256]⟩
abbrev S1x256 : Shape := ⟨2, ![1, 256]⟩
abbrev S2000x256 : Shape := ⟨2, ![2000, 256]⟩
abbrev S2000x1 : Shape := ⟨2, ![2000, 1]⟩
abbrev S1x128 : Shape := ⟨2, ![1, 128]⟩
abbrev S2000x128 : Shape := ⟨2, ![2000, 128]⟩
abbrev S128x128 : Shape := ⟨2, ![128, 128]⟩
abbrev S128x1 : Shape := ⟨2, ![128, 1]⟩

abbrev nBuf : Space → Nat
  | .hbm => 83
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x256, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000x256, .f32⟩
  | .hbm, ⟨41, _⟩ => ⟨S_, .f32⟩
  | .hbm, ⟨42, _⟩ => ⟨S50000x256, .f32⟩
  | .hbm, ⟨43, _⟩ => ⟨S850000x1, .i32⟩
  | .hbm, ⟨44, _⟩ => ⟨S50000x256, .f32⟩
  | .hbm, ⟨45, _⟩ => ⟨S1x256, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S_, .f32⟩
  | .hbm, ⟨57, _⟩ => ⟨S50000x256, .f32⟩
  | .hbm, ⟨58, _⟩ => ⟨S850000x1, .i32⟩
  | .hbm, ⟨59, _⟩ => ⟨S50000x256, .f32⟩
  | .hbm, ⟨60, _⟩ => ⟨S1x256, .f32⟩
  | .hbm, ⟨61, _⟩ => ⟨S50000x256, .bf16⟩
  | .hbm, ⟨62, _⟩ => ⟨S50000x1, .i32⟩
  | .hbm, ⟨63, _⟩ => ⟨S1x128, .i32⟩
  | .hbm, ⟨64, _⟩ => ⟨S50000x128, .i32⟩
  | .hbm, ⟨65, _⟩ => ⟨S50000x128, .i32⟩
  | .hbm, ⟨66, _⟩ => ⟨S50000x128, .i1⟩
  | .hbm, ⟨67, _⟩ => ⟨S50000x128, .bf16⟩
  | .hbm, ⟨68, _⟩ => ⟨S128x256, .f32⟩
  | .hbm, ⟨69, _⟩ => ⟨S_, .f32⟩
  | .hbm, ⟨70, _⟩ => ⟨S50000, .f32⟩
  | .hbm, ⟨71, _⟩ => ⟨S_, .f32⟩
  | .hbm, ⟨72, _⟩ => ⟨S128, .f32⟩
  | .hbm, ⟨73, _⟩ => ⟨S50000x1, .i32⟩
  | .hbm, ⟨74, _⟩ => ⟨S128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S128x1, .f32⟩
  | .hbm, ⟨79, _⟩ => ⟨S128x256, .f32⟩
  | .hbm, ⟨80, _⟩ => ⟨S128x256, .f32⟩
  | .hbm, ⟨81, _⟩ => ⟨S1x128, .f32⟩
  | .hbm, ⟨82, _⟩ => ⟨S128x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x1, .f32⟩
  | .local _ .vmem, ⟨4, _⟩ => ⟨S5000x1, .f32⟩
  | .local _ .vmem, ⟨5, _⟩ => ⟨S5000x256, .f32⟩
  | .local _ .vmem, ⟨6, _⟩ => ⟨S5000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S5000x256, .f32⟩
  | .local _ .vmem, ⟨16, _⟩ => ⟨S5000x256, .f32⟩
  | .local _ .vmem, ⟨17, _⟩ => ⟨S5000x1, .f32⟩
  | .local _ .vmem, ⟨18, _⟩ => ⟨S5000x1, .f32⟩
  | .local _ .vmem, ⟨19, _⟩ => ⟨S1x256, .f32⟩
  | .local _ .vmem, ⟨20, _⟩ => ⟨S5000x256, .bf16⟩
  | .local _ .vmem, ⟨21, _⟩ => ⟨S5000x256, .bf16⟩
  | .local _ .vmem, ⟨22, _⟩ => ⟨S2000x128, .bf16⟩
  | .local _ .vmem, ⟨23, _⟩ => ⟨S2000x128, .bf16⟩
  | .local _ .vmem, ⟨24, _⟩ => ⟨S2000x128, .bf16⟩
  | .local _ .vmem, ⟨25, _⟩ => ⟨S2000x128, .bf16⟩
  | .local _ .vmem, ⟨26, _⟩ => ⟨S128x128, .f32⟩
  | .local _ .vmem, ⟨27, _⟩ => ⟨S128x128, .f32⟩
  | .local _ .vmem, ⟨28, _⟩ => ⟨S128x256, .f32⟩
  | .local _ .vmem, ⟨29, _⟩ => ⟨S256x128, .f32⟩
  | .local _ .vmem, ⟨30, _⟩ => ⟨S1x128, .f32⟩
  | .local _ .vmem, ⟨31, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem1_0 : DmaSem sig := 29
abbrev cc4_sem2_0 : DmaSem sig := 30
abbrev cc4_sem3_0 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 25], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S2000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S2000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S128x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S128x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S5000x256_S5000x256 : S5000x256.ShapeCasts S5000x256
  broadcasts_S1x256_S5000x256 : S1x256.Broadcasts S5000x256
  packedbf16_S5000x256_S5000x256_0_0 : (Rect.unit (s := S5000x256) ![0, 0] S5000x256.size inb_S5000x256_S5000x256_0_0).PackedRows (EltTy.packing .bf16)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  shapeCasts_S128x128_S128x128 : S128x128.ShapeCasts S128x128
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  shapeCasts_S128_S1x128 : S128.ShapeCasts S1x128
  shapeCasts_S128x256_S128x256 : S128x256.ShapeCasts S128x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  scatter_S50000_S850000x1_S850000_n_0_0_1_wf : ScatterDims.WF S50000 S850000x1 S850000 [] [0] [0] 1
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  dot_S2000x128_S2000x128_S128x128_0_0_1_1_n_n_wf : DotDims.WF S2000x128 S2000x128 S128x128 [0] [0] [1] [1] [] []
  scatter_S128_S50000x1_S50000_n_0_0_1_wf : ScatterDims.WF S128 S50000x1 S50000 [] [0] [0] 1
  dot_S128x256_S256x128_S128x128_1_0_0_1_n_n_wf : DotDims.WF S128x256 S256x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x256.size a ≤ S50000x256.size a
  hwx2_3 : ∀ i : grid2.Coords, EltTy.bits .bf16 = 32 ∨ (Rect.block (s := S50000x256) S5000x256.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .bf16 = 32 ∨ (Rect.block (s := S50000x128) S2000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x256.size a
  hwx3_1 : ∀ i : grid3.Coords, EltTy.bits .bf16 = 32 ∨ (Rect.block (s := S50000x256) S2000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x256.size a
  hwx3_2 : ∀ i : grid3.Coords, EltTy.bits .f32 = 32 ∨ (Rect.block (s := S128x256) S128x128.size (cc3_transform_2 i) (hinb3_2 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S128x256.size a ≤ S128x256.size a
  hwx4_0 : ∀ i : grid4.Coords, EltTy.bits .f32 = 32 ∨ (Rect.block (s := S128x256) S128x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x128_S2000x128_S128x128_0_0_1_1_n_n : DotDims S2000x128 S2000x128 S128x128 where
  lhsContracting := [0]
  rhsContracting := [0]
  lhsNonContracting := [1]
  rhsNonContracting := [1]
  lhsBatch := []
  rhsBatch := []
  wf := dot_S2000x128_S2000x128_S128x128_0_0_1_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S128x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v51) S128x256.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v52) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v53) S128x128.size cc4_transform_3 reads4_3 true false 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S50000x256 : Shape := ⟨2, ![50000, 256]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x1 : Shape := ⟨2, ![50000, 1]⟩
abbrev S128x1 : Shape := ⟨2, ![128, 1]⟩
abbrev S128x128 : Shape := ⟨2, ![128, 128]⟩
abbrev S1x128 : Shape := ⟨2, ![1, 128]⟩

abbrev nBuf : Space → Nat
  | .hbm => 148
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256x128, .f32⟩
  | 8 => ⟨S128, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S50000x256, .f32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x256, .f32⟩
  | 59 => ⟨S850000x1, .f32⟩
  | 60 => ⟨S850000x256, .f32⟩
  | 61 => ⟨S850000x256, .f32⟩
  | 62 => ⟨S_, .f32⟩
  | 63 => ⟨S50000x256, .f32⟩
  | 64 => ⟨S850000x1, .i32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S50000x256, .f32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S50000, .f32⟩
  | 83 => ⟨S_, .f32⟩
  | 84 => ⟨S_, .f32⟩
  | 85 => ⟨S50000, .f32⟩
  | 86 => ⟨S50000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S850000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x256, .f32⟩
  | 115 => ⟨S850000x1, .f32⟩
  | 116 => ⟨S850000x256, .f32⟩
  | 117 => ⟨S850000x256, .f32⟩
  | 118 => ⟨S_, .f32⟩
  | 119 => ⟨S50000x256, .f32⟩
  | 120 => ⟨S850000x1, .i32⟩
  | 121 => ⟨S50000x256, .f32⟩
  | 122 => ⟨S1x256, .f32⟩
  | 123 => ⟨S50000x256, .f32⟩
  | 124 => ⟨S50000x256, .f32⟩
  | 125 => ⟨S_, .f32⟩
  | 126 => ⟨S50000x256, .f32⟩
  | 127 => ⟨S50000x256, .f32⟩
  | _ => ⟨S50000x128, .f32⟩

abbrev hbmTy0_1 (i : Nat) : BufTy := match i % 128 with
  | 0 => ⟨S_, .f32⟩
  | 1 => ⟨S128x256, .f32⟩
  | 2 => ⟨S50000x1, .i32⟩
  | 3 => ⟨S128x256, .f32⟩
  | 4 => ⟨S_, .f32⟩
  | 5 => ⟨S50000, .f32⟩
  | 6 => ⟨S_, .f32⟩
  | 7 => ⟨S128, .f32⟩
  | 8 => ⟨S50000x1, .i32⟩
  | 9 => ⟨S128, .f32⟩
  | 10 => ⟨S_, .f32⟩
  | 11 => ⟨S128, .f32⟩
  | 12 => ⟨S128, .f32⟩
  | 13 => ⟨S128x1, .f32⟩
  | 14 => ⟨S128x256, .f32⟩
  | 15 => ⟨S128x256, .f32⟩
  | 16 => ⟨S128x128, .f32⟩
  | 17 => ⟨S1x128, .f32⟩
  | 18 => ⟨S128x128, .f32⟩
  | 19 => ⟨S128x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v56 : Ref sig .tc := ⟨.hbm, 86, rfl⟩
abbrev main_c_13 : Ref sig .tc := ⟨.hbm, 87, rfl⟩
abbrev main_v57 : Ref sig .tc := ⟨.hbm, 88, rfl⟩
abbrev main_v58 : Ref sig .tc := ⟨.hbm, 89, rfl⟩
abbrev main_c_14 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_15 : Ref sig .tc := ⟨.hbm, 96, rfl⟩
abbrev main_v64 : Ref sig .tc := ⟨.hbm, 97, rfl⟩
abbrev main_v65 : Ref sig .tc := ⟨.hbm, 98, rfl⟩
abbrev main_c_16 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_17 : Ref sig .tc := ⟨.hbm, 106, rfl⟩
abbrev main_v72 : Ref sig .tc := ⟨.hbm, 107, rfl⟩
abbrev main_v73 : Ref sig .tc := ⟨.hbm, 108, rfl⟩
abbrev main_c_18 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_19 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_call3_cst : Ref sig .tc := ⟨.hbm, 125, rfl⟩
abbrev main_call3_v0 : Ref sig .tc := ⟨.hbm, 126, rfl⟩
abbrev main_v88 : Ref sig .tc := ⟨.hbm, 127, rfl⟩
abbrev main_cst_20 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_21 : Ref sig .tc := ⟨.hbm, 132, rfl⟩
abbrev main_v92 : Ref sig .tc := ⟨.hbm, 133, rfl⟩
abbrev main_cst_22 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_23 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S128x256 : S_.BroadcastsInDim S128x256 (![] : Fin 0 → Fin S128x256.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  dot_S50000x128_S128x256_S50000x256_1_0_0_1_n_n_wf : DotDims.WF S50000x128 S128x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  scatter_S128x256_S50000x1_S50000x256_1_0_0_1_wf : ScatterDims.WF S128x256 S50000x1 S50000x256 [1] [0] [0] 1
  scatter_S128_S50000x1_S50000_n_0_0_1_wf : ScatterDims.WF S128 S50000x1 S50000 [] [0] [0] 1
  dot_S128x256_S256x128_S128x128_1_0_0_1_n_n_wf : DotDims.WF S128x256 S256x128 S128x128 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-! # Two graph-convolution layers, a mean pool and a linear layer, as functions of the argument arrays

Nodes `0 … 49999`, edges `0 … 849999`: the first 800000 edges are the columns of the edge array (row 0 the source
word, row 1 the destination word), the last 50000 are the self loops `(n, n)`. An edge lands on node `d` when its
destination word, read signed, is `d` (words outside `[0, 50000)` land nowhere); a row is read at a word after the
word is wrapped once (a negative word gains 50000) and clamped into `[0, 49999]`. With `deg d` the number of edges
landing on `d` and `dinv d = 1/√(deg d)` (zero where `deg d` is not positive), a layer sends `H` to

    out (d, f) = ∑ over edges e landing on d of  H (row (src e), f) · (dinv (row (src e)) · dinv (row (dst e))),

followed by a bias and a maximum with zero. Two spellings of the layer are compared: the one above, and the one
that scales `H`'s rows by `dinv` first, sums, and scales the sum by `dinv d`. They agree because an edge landing on
`d` has `row (dst e) = d` and because `dinv d` is a non-negative real number, across which a finite sum of extended
reals may be multiplied term by term. The pool sums the rows of a graph (a 0/1 weight per node and graph against a
sum over the nodes of the graph), divides by the graph's size (at least one) and the linear layer follows. -/

open scoped BigOperators

noncomputable section

namespace Cert.Spec

open Idealize.ShloMosaic Idealize.ShloMosaic.ValueIdx

/-- Float arrays of rank 2 and 1, and 32-bit integer arrays, at the ideal values. -/
abbrev A2 (a b : Nat) : Type := (⟨2, ![a, b]⟩ : Shape).Idx → EReal
abbrev A1 (a : Nat) : Type := (⟨1, ![a]⟩ : Shape).Idx → EReal
abbrev I2 (a b : Nat) : Type := (⟨2, ![a, b]⟩ : Shape).Idx → BitVec 32
abbrev I1 (a : Nat) : Type := (⟨1, ![a]⟩ : Shape).Idx → BitVec 32

/-! ## Edges -/

/-- The source word of edge `e`: row 0 of the edge array, then the self loops. -/
def srcW (ei : I2 2 800000) (e : Fin 850000) : BitVec 32 :=
  if h : e.val < 800000 then ei (ix2 (0 : Fin 2) ⟨e.val, h⟩) else BitVec.ofNat 32 (e.val - 800000)

/-- The destination word of edge `e`: row 1 of the edge array, then the self loops. -/
def dstW (ei : I2 2 800000) (e : Fin 850000) : BitVec 32 :=
  if h : e.val < 800000 then ei (ix2 (1 : Fin 2) ⟨e.val, h⟩) else BitVec.ofNat 32 (e.val - 800000)

/-- A negative word gains 50000 (two's complement addition). -/
def wrapW (v : BitVec 32) : BitVec 32 := if v.toInt < 0 then v + 50000#32 else v

/-- The row a word reads: wrapped, read signed, clamped into `[0, 49999]`. -/
def rowOf (v : BitVec 32) : Fin 50000 := ⟨min (wrapW v).toInt.toNat 49999, by omega⟩

/-- The edges that land on node `d`. -/
def lands (ei : I2 2 800000) (d : Fin 50000) : Finset (Fin 850000) :=
  Finset.univ.filter fun e => (dstW ei e).toInt = (d.val : Int)

/-- An edge that lands on `d` reads row `d` at its destination word. -/
theorem rowOf_of_lands {ei : I2 2 800000} {d : Fin 50000} {e : Fin 850000} (h : e ∈ lands ei d) :
    rowOf (dstW ei e) = d := by
  have hd : (dstW ei e).toInt = (d.val : Int) := (Finset.mem_filter.mp h).2
  have hlt : d.val < 50000 := d.isLt
  apply Fin.ext
  show min (wrapW (dstW ei e)).toInt.toNat 49999 = d.val
  have hw : wrapW (dstW ei e) = dstW ei e := by
    unfold wrapW; rw [if_neg (by omega)]
  rw [hw, hd]; omega

/-! ## The normalisation -/

/-- The float one, as the programs spell it. -/
def one32 : EReal := Ideal.ofBits .f32 0x3F800000#32

/-- The number of edges landing on a node. -/
def deg (ei : I2 2 800000) (d : Fin 50000) : EReal := ∑ _e ∈ lands ei d, one32

/-- `1/√x` where `x` is positive, zero elsewhere. -/
def dinvOf (x : EReal) : EReal := if 0 < x then Ideal.rsqrt x else 0

def dinv (ei : I2 2 800000) (d : Fin 50000) : EReal := dinvOf (deg ei d)

theorem dinvOf_nonneg (x : EReal) : 0 ≤ dinvOf x := by
  unfold dinvOf
  split
  · rename_i h
    induction x using EReal.rec with
    | bot => exact absurd h (by simp)
    | top => simp
    | coe r =>
      have hr : 0 < r := by exact_mod_cast h
      rw [Ideal.rsqrt_coe, if_neg (by linarith), if_neg (by linarith)]
      exact_mod_cast inv_nonneg.mpr (Real.sqrt_nonneg r)
  · exact le_refl 0

theorem dinvOf_ne_top (x : EReal) : dinvOf x ≠ ⊤ := by
  unfold dinvOf
  split
  · rename_i h
    induction x using EReal.rec with
    | bot => exact absurd h (by simp)
    | top => simp
    | coe r =>
      have hr : 0 < r := by exact_mod_cast h
      rw [Ideal.rsqrt_coe, if_neg (by linarith), if_neg (by linarith)]
      exact EReal.coe_ne_top _
  · exact EReal.zero_ne_top

theorem dinv_nonneg (ei : I2 2 800000) (d : Fin 50000) : 0 ≤ dinv ei d := dinvOf_nonneg _

theorem dinv_ne_top (ei : I2 2 800000) (d : Fin 50000) : dinv ei d ≠ ⊤ := dinvOf_ne_top _

/-- A finite sum of extended reals times a non-negative real is the sum of the products. -/
theorem sum_mul_of_nonneg_ne_top {ι : Type*} (s : Finset ι) (f : ι → EReal) {c : EReal} (h0 : 0 ≤ c) (ht : c ≠ ⊤) :
    (∑ e ∈ s, f e) * c = ∑ e ∈ s, f e * c := by
  classical
  induction s using Finset.induction_on with
  | empty => simp
  | insert a s ha ih =>
    rw [Finset.sum_insert ha, Finset.sum_insert ha, EReal.right_distrib_of_nonneg_of_ne_top h0 ht, ih]

/-! ## A layer's aggregation, in its two spellings -/

section
variable (ei : I2 2 800000)

/-- Rows gathered at the source words and summed over the edges landing on `d`. -/
def aggK (H : Fin 50000 → Fin 256 → EReal) (d : Fin 50000) (f : Fin 256) : EReal :=
  ∑ e ∈ lands ei d, H (rowOf (srcW ei e)) f

/-- The same with each edge's message scaled by the product of the two ends' normalisations. -/
def aggR (H : Fin 50000 → Fin 256 → EReal) (d : Fin 50000) (f : Fin 256) : EReal :=
  ∑ e ∈ lands ei d, H (rowOf (srcW ei e)) f * (dinv ei (rowOf (srcW ei e)) * dinv ei (rowOf (dstW ei e)))

/-- Scaling the rows before the sum and the sum after it is scaling each message by both ends. -/
theorem aggK_scaled (H : Fin 50000 → Fin 256 → EReal) (d : Fin 50000) (f : Fin 256) :
    aggK ei (fun i f => H i f * dinv ei i) d f * dinv ei d = aggR ei H d f := by
  unfold aggK aggR
  rw [sum_mul_of_nonneg_ne_top _ _ (dinv_nonneg ei d) (dinv_ne_top ei d)]
  refine Finset.sum_congr rfl fun e he => ?_
  beta_reduce
  rw [rowOf_of_lands he, mul_assoc]

end

/-! ## The two programs' results -/

section
variable (X : A2 50000 128) (ei : I2 2 800000) (bt : I1 50000) (W1 : A2 128 256) (b1 : A1 256) (W2 : A2 256 256)
  (b2 : A1 256) (Wfc : A2 256 128) (bfc : A1 128)

/-- The first projection `X · W1`. -/
def mm1 (i : Fin 50000) (f : Fin 256) : EReal := ∑ k : Fin 128, X (ix2 i k) * W1 (ix2 k f)

/-- A projection of hidden rows by a 256 × 256 weight. -/
def mm2 (h : Fin 50000 → Fin 256 → EReal) (W : A2 256 256) (i : Fin 50000) (f : Fin 256) : EReal :=
  ∑ k : Fin 256, h i k * W (ix2 k f)

/-- The first layer, rows scaled before and after the aggregation. -/
def h1K (i : Fin 50000) (k : Fin 256) : EReal :=
  max (aggK ei (fun i f => mm1 X W1 i f * dinv ei i) i k * dinv ei i + b1 (ix1 k)) 0

/-- The first layer, each message scaled by both ends. -/
def h1R (i : Fin 50000) (k : Fin 256) : EReal := max (aggR ei (mm1 X W1) i k + b1 (ix1 k)) 0

theorem h1K_eq_h1R : h1K X ei W1 b1 = h1R X ei W1 b1 := by
  funext i k
  unfold h1K h1R
  rw [aggK_scaled]

/-- The second layer, rows scaled before and after the aggregation. -/
def h2K (i : Fin 50000) (f : Fin 256) : EReal :=
  max (aggK ei (fun i f => mm2 (h1K X ei W1 b1) W2 i f * dinv ei i) i f * dinv ei i + b2 (ix1 f)) 0

/-- The second layer, each message scaled by both ends. -/
def h2R (i : Fin 50000) (f : Fin 256) : EReal := max (aggR ei (mm2 (h1R X ei W1 b1) W2) i f + b2 (ix1 f)) 0

theorem h2K_eq_h2R : h2K X ei W1 b1 W2 b2 = h2R X ei W1 b1 W2 b2 := by
  funext i f
  unfold h2K h2R
  rw [aggK_scaled, h1K_eq_h1R]

/-- The nodes of graph `g`. -/
def members (g : Fin 128) : Finset (Fin 50000) :=
  Finset.univ.filter fun i : Fin 50000 => (bt (ix1 i)).toInt = (g.val : Int)

/-- The 0/1 weight of node `i` in graph `g`. -/
def hot (i : Fin 50000) (g : Fin 128) : EReal := if (bt (ix1 i)).toInt = (g.val : Int) then 1 else 0

/-- A graph's sum as a weighted sum over all nodes. -/
def sumsK (h : Fin 50000 → Fin 256 → EReal) (g : Fin 128) (f : Fin 256) : EReal := ∑ i : Fin 50000, hot bt i g * h i f

/-- A graph's sum over its nodes. -/
def sumsR (h : Fin 50000 → Fin 256 → EReal) (g : Fin 128) (f : Fin 256) : EReal := ∑ i ∈ members bt g, h i f

theorem sumsK_eq_sumsR (h : Fin 50000 → Fin 256 → EReal) : sumsK bt h = sumsR bt h := by
  funext g f
  unfold sumsK sumsR members hot
  rw [Finset.sum_filter]
  refine Finset.sum_congr rfl fun i _ => ?_
  by_cases hi : (bt (ix1 i)).toInt = (g.val : Int)
  · rw [if_pos hi, if_pos hi, one_mul]
  · rw [if_neg hi, if_neg hi, zero_mul]

/-- A graph's size, at least one. -/
def den (g : Fin 128) : EReal := max (∑ _i ∈ members bt g, one32) one32

/-- The mean of each graph's rows, then the linear layer. -/
def outOf (sums : Fin 128 → Fin 256 → EReal) (g : Fin 128) (o : Fin 128) : EReal :=
  (∑ k : Fin 256, Ideal.div (sums g k) (den bt g) * Wfc (ix2 k o)) + bfc (ix1 o)

/-- The result in the spelling that scales rows around each aggregation and pools by a weighted sum. -/
def outK : Fin 128 → Fin 128 → EReal := outOf bt Wfc bfc (sumsK bt (h2K X ei W1 b1 W2 b2))

/-- The result in the spelling that scales each message by both ends and pools over each graph's nodes. -/
def outR : Fin 128 → Fin 128 → EReal := outOf bt Wfc bfc (sumsR bt (h2R X ei W1 b1 W2 b2))

theorem outK_eq_outR : outK X ei bt W1 b1 W2 b2 Wfc bfc = outR X ei bt W1 b1 W2 b2 Wfc bfc := by
  unfold outK outR
  rw [sumsK_eq_sumsR, h2K_eq_h2R]

end

end Cert.Spec

end
-- ==== Proof.KDefs.lean ====
import proofs.«404828_j12489764896775_3_alg».proof.Proof.Gen.KernelIdeal.Frame
import proofs.«404828_j12489764896775_3_alg».proof.Proof.Spec
import Idealize.ShloMosaic.Lib.ValueIdx

/-! # The idealized kernel's buffers, read at their literal array types

At the ideal values a float buffer is an array of extended reals and an integer buffer an array of words. The
names below read one buffer of the TensorCore's contents `V` (the contents when a region is entered) at its literal
shape, so that arithmetic on the entries is arithmetic on extended reals; `arrK` is what region `K` leaves in its
result array, and `mArgK` an argument array as launched. -/

noncomputable section

namespace Cert.KV

open Idealize.ShloMosaic Idealize.ShloMosaic.TcCoe Idealize.SL.Sem
open Cert.KernelIdeal Cert.KernelIdeal.Gen

/-- The TensorCore's buffer contents at some boundary of the program. -/
abbrev Contents : Type := (c : Dev nD) → (b : Ref sig .tc) → Buf (Elt Ideal) ((c : Thread nD τ).loc b)

/-- The launch memory. -/
abbrev Mem : Type := (ℓ : Loc nD τ sig) → Buf (Elt Ideal) ℓ

section
variable (V : Contents) (c : Dev nD)

abbrev vArg0 : FVec Ideal S50000x128 .f32 := V c main_arg0
abbrev vArg3 : FVec Ideal S128x256 .f32 := V c main_arg3
abbrev vArg5 : FVec Ideal S256x256 .f32 := V c main_arg5
abbrev vArg7 : FVec Ideal S256x128 .f32 := V c main_arg7
/-- The node normalisation as a column. -/
abbrev vV15 : FVec Ideal S50000x1 .f32 := V c main_v15
/-- Region 0's result array. -/
abbrev vV16 : FVec Ideal S50000x256 .f32 := V c main_v16
/-- The first aggregation. -/
abbrev vV26 : FVec Ideal S50000x256 .f32 := V c main_v26
/-- The first bias as a row. -/
abbrev vV27 : FVec Ideal S1x256 .f32 := V c main_v27
/-- Region 1's result array. -/
abbrev vV28 : FVec Ideal S50000x256 .f32 := V c main_v28
/-- The second aggregation. -/
abbrev vV38 : FVec Ideal S50000x256 .f32 := V c main_v38
/-- The second bias as a row. -/
abbrev vV39 : FVec Ideal S1x256 .f32 := V c main_v39
/-- Region 2's result array. -/
abbrev vV40 : FVec Ideal S50000x256 .bf16 := V c main_v40
/-- The 0/1 weights of nodes in graphs. -/
abbrev vV41 : FVec Ideal S50000x128 .bf16 := V c main_v41
/-- Region 3's result array. -/
abbrev vV42 : FVec Ideal S128x256 .f32 := V c main_v42
/-- The graphs' means. -/
abbrev vV51 : FVec Ideal S128x256 .f32 := V c main_v51
/-- The last bias as a row. -/
abbrev vV52 : FVec Ideal S1x128 .f32 := V c main_v52

/-- What region 0 leaves in its result array. -/
abbrev arr0 : FVec Ideal S50000x256 .f32 := (dat0 (F := Ideal) V c).arrAt 3 cfg0.N
/-- What region 1 leaves in its result array. -/
abbrev arr1 : FVec Ideal S50000x256 .f32 := (dat1 (F := Ideal) V c).arrAt 4 cfg1.N
/-- What region 2 leaves in its result array. -/
abbrev arr2 : FVec Ideal S50000x256 .bf16 := (dat2 (F := Ideal) V c).arrAt 3 cfg2.N
/-- What region 3 leaves in its result array. -/
abbrev arr3 : FVec Ideal S128x256 .f32 := (dat3 (F := Ideal) V c).arrAt 2 cfg3.N
/-- What region 4 leaves in its result array. -/
abbrev arr4 : FVec Ideal S128x128 .f32 := (dat4 (F := Ideal) V c).arrAt 3 cfg4.N

end

section
variable (m : Mem) (c : Dev nD)

abbrev mArg0 : Cert.Spec.A2 50000 128 := m ((c.tc : Thread nD τ).loc main_arg0)
abbrev mArg1 : Cert.Spec.I2 2 800000 := m ((c.tc : Thread nD τ).loc main_arg1)
abbrev mArg2 : Cert.Spec.I1 50000 := m ((c.tc : Thread nD τ).loc main_arg2)
abbrev mArg3 : Cert.Spec.A2 128 256 := m ((c.tc : Thread nD τ).loc main_arg3)
abbrev mArg4 : Cert.Spec.A1 256 := m ((c.tc : Thread nD τ).loc main_arg4)
abbrev mArg5 : Cert.Spec.A2 256 256 := m ((c.tc : Thread nD τ).loc main_arg5)
abbrev mArg6 : Cert.Spec.A1 256 := m ((c.tc : Thread nD τ).loc main_arg6)
abbrev mArg7 : Cert.Spec.A2 256 128 := m ((c.tc : Thread nD τ).loc main_arg7)
abbrev mArg8 : Cert.Spec.A1 128 := m ((c.tc : Thread nD τ).loc main_arg8)

end

end Cert.KV

end
-- ==== Proof.LibMeanAggregate.lean ====
/-
  One mean-aggregate layer of a graph network at the ideal values: for a diffusion matrix `D` [M × S], gathered source
  rows `src` [S × 128], gathered destination rows `dst` [M × 128] and weights `w` [256 × 128],

      layer D src dst w (r, c) = max (∑ j < 256, cat (r, j) · w (j, c)) 0,
      cat (r, j) = ∑ k < S, D (r, k) · src (k, j)   for j < 128,      cat (r, j) = dst (r, j − 128)   for j ≥ 128.

  Both spellings of it are read here at an index, for any sizes M and S: the host's (two `dot_general`s around a
  `concatenate`, then a maximum against a broadcast zero) and a TensorCore body's (two `tpu.matmul`s into zero
  accumulators around a `tpu.concatenate`, format changes and shape casts that are the identity at the ideal values,
  then `arith.maximumf` against a splat zero). Row `r` of the layer reads only row `r` of `D` and of `dst`
  (`layer_row_congr`), so a block of rows of the result is the layer of the blocks of rows.
-/
import Idealize.ShloMosaic.Lib.ValueIdx
import Idealize.ShloMosaic.Lib.Pipeline.Value
import Idealize.ShloMosaic.PureOps.Ideal.Laws

noncomputable section

open scoped BigOperators

namespace Idealize.ShloMosaic.MeanAggregate

open Idealize.ShloMosaic Idealize.ShloMosaic.ValueIdx

private theorem plain_lhs_0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
private theorem plain_lhs_1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
private theorem plain_rhs_0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
private theorem plain_rhs_1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain dot at (r, c), re-indexed by the one contracted coordinate. -/
private theorem plain_contr_sum {φ₁ φ₂ : FTy} (M K N : Nat)
    (lhs : FVec Ideal ⟨2, ![M, K]⟩ φ₁) (rhs : FVec Ideal ⟨2, ![K, N]⟩ φ₂) (r : Fin M) (c : Fin N) :
    ∑ k : (DotDims.plain M K N).contr.Idx,
        lhs ((DotDims.plain M K N).lhsIdx (ix2 r c) k) * rhs ((DotDims.plain M K N).rhsIdx (ix2 r c) k)
      = ∑ k : Fin K, lhs (ix2 r k) * rhs (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_0 M K N _ _
      | ⟨1, _⟩ => exact (plain_lhs_1 M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_0 M K N _ _).trans hk
      | ⟨1, _⟩ => exact plain_rhs_1 M K N _ _)
  rw [el, er]

/-- A plain [M × K] by [K × N] `tpu.matmul` into the zero accumulator, at the ideal values, read at (r, c). -/
theorem plain_matmul_zero_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant ⟨2, ![M, N]⟩ .f32 0x00000000#32) (ix2 r c)
      = ∑ k : Fin K, lhs (ix2 r k) * rhs (ix2 k c) := by
  simp only [matmul]
  rw [Ideal.matmul_constant_zero_apply]
  exact plain_contr_sum M K N lhs rhs r c

/-- The host's plain [M × K] by [K × N] `dot_general`, at the ideal values, read at (r, c). -/
theorem plain_dotGeneral_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  simp only [Host.dotGeneral]
  rw [Ideal.dotGeneral_apply]
  exact plain_contr_sum M K N lhs rhs r c

/-- Two pieces [M × A] and [M × B] joined along the columns into [M × C], C = A + B, read at (r, j). -/
theorem concat_cols_apply {α : Type} (M A B C : Nat) (hC : C = A + B) (x : (⟨2, ![M, A]⟩ : Shape).Idx → α)
    (y : (⟨2, ![M, B]⟩ : Shape).Idx → α)
    (h : Shape.Concatenates (([⟨⟨2, ![M, A]⟩, x⟩, ⟨⟨2, ![M, B]⟩, y⟩] : List ((s : Shape) × (s.Idx → α))).map (·.1)) ⟨2, ![M, C]⟩ 1)
    (r : Fin M) (j : Fin C) :
    concatenate ⟨2, ![M, C]⟩ 1 [⟨⟨2, ![M, A]⟩, x⟩, ⟨⟨2, ![M, B]⟩, y⟩] h (ix2 r j)
      = if hj : j.val < A then x (ix2 r ⟨j.val, hj⟩) else y (ix2 r ⟨j.val - A, by omega⟩) := by
  by_cases hj : j.val < A
  · rw [dif_pos hj]
    exact concatenate_apply_piece (t := ⟨2, ![M, C]⟩) 1 _ h (ix2 r j) 0 (by simp) ⟨2, ![M, A]⟩ x rfl rfl 0 rfl
      (ix2 r ⟨j.val, hj⟩)
      (fun b hb => by
        match b with
        | ⟨0, _⟩ => rfl
        | ⟨1, _⟩ => exact absurd rfl hb)
      (by show 0 + j.val = j.val; omega)
  · rw [dif_neg hj]
    exact concatenate_apply_piece (t := ⟨2, ![M, C]⟩) 1 _ h (ix2 r j) 1 (by simp) ⟨2, ![M, B]⟩ y rfl rfl A rfl
      (ix2 r ⟨j.val - A, by omega⟩)
      (fun b hb => by
        match b with
        | ⟨0, _⟩ => rfl
        | ⟨1, _⟩ => exact absurd rfl hb)
      (by show A + (j.val - A) = j.val; omega)

/-- The layer at row `r`, column `c`. -/
def layerAt (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) (r : Fin M) (c : Fin 128) : EReal :=
  max (∑ j : Fin 256, (if hj : j.val < 128 then ∑ k : Fin S, D (ix2 r k) * src (ix2 k (⟨j.val, hj⟩ : Fin 128))
      else dst (ix2 r (⟨j.val - 128, by omega⟩ : Fin 128))) * w (ix2 j c)) 0

/-- The layer as an array. -/
def layer (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) :
    (⟨2, ![M, 128]⟩ : Shape).Idx → EReal :=
  fun i => layerAt M S D src dst w (i 0) (i 1)

theorem layer_apply (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) (r : Fin M) (c : Fin 128) :
    layer M S D src dst w (ix2 r c) = layerAt M S D src dst w r c := rfl

/-- Row `r` of the layer reads only row `r` of `D` and of `dst`. -/
theorem layer_row_congr (M M' S : Nat) (D : (⟨2, ![M, S]⟩ : Shape).Idx → EReal) (D' : (⟨2, ![M', S]⟩ : Shape).Idx → EReal)
    (src : (⟨2, ![S, 128]⟩ : Shape).Idx → EReal) (dst : (⟨2, ![M, 128]⟩ : Shape).Idx → EReal)
    (dst' : (⟨2, ![M', 128]⟩ : Shape).Idx → EReal) (w : (⟨2, ![256, 128]⟩ : Shape).Idx → EReal) (r : Fin M) (r' : Fin M') (c : Fin 128)
    (hD : ∀ k : Fin S, D (ix2 r k) = D' (ix2 r' k)) (hdst : ∀ q : Fin 128, dst (ix2 r q) = dst' (ix2 r' q)) :
    layer M S D src dst w (ix2 r c) = layer M' S D' src dst' w (ix2 r' c) := by
  show layerAt M S D src dst w r c = layerAt M' S D' src dst' w r' c
  unfold layerAt
  congr 1
  refine Finset.sum_congr rfl fun j _ => ?_
  congr 1
  by_cases hj : j.val < 128
  · rw [dif_pos hj, dif_pos hj]
    exact Finset.sum_congr rfl fun k _ => by rw [hD k]
  · rw [dif_neg hj, dif_neg hj]
    exact hdst _

/-- The host's spelling is the layer. -/
theorem host_layer_eq (M S : Nat) (D : FVec Ideal ⟨2, ![M, S]⟩ .f32) (src : FVec Ideal ⟨2, ![S, 128]⟩ .f32)
    (dst : FVec Ideal ⟨2, ![M, 128]⟩ .f32) (w : FVec Ideal ⟨2, ![256, 128]⟩ .f32)
    (hcat : Shape.Concatenates (([⟨⟨2, ![M, 128]⟩, Host.dotGeneral (DotDims.plain M S 128) none D src⟩, ⟨⟨2, ![M, 128]⟩, dst⟩] :
      List ((s : Shape) × (s.Idx → EReal))).map (·.1)) ⟨2, ![M, 256]⟩ 1)
    (hb : (⟨0, ![]⟩ : Shape).BroadcastsInDim ⟨2, ![M, 128]⟩ (![] : Fin 0 → Fin 2)) :
    maximumf (Host.dotGeneral (DotDims.plain M 256 128) none
        (concatenate ⟨2, ![M, 256]⟩ 1 [⟨⟨2, ![M, 128]⟩, Host.dotGeneral (DotDims.plain M S 128) none D src⟩, ⟨⟨2, ![M, 128]⟩, dst⟩] hcat) w)
      (broadcastInDim ⟨2, ![M, 128]⟩ ![] hb (constant (F := Ideal) ⟨0, ![]⟩ .f32 0x00000000#32))
      = layer M S D src dst w := by
  funext i
  obtain ⟨r, c, rfl⟩ : ∃ (r : Fin M) (c : Fin 128), i = ix2 r c := ⟨i 0, i 1, eq_ix2 i⟩
  rw [maximumf_apply, plain_dotGeneral_apply, layer_apply]
  unfold layerAt
  congr 1
  · refine Finset.sum_congr rfl fun j _ => ?_
    congr 1
    rw [concat_cols_apply M 128 128 256 rfl]
    by_cases hj : j.val < 128
    · rw [dif_pos hj, dif_pos hj, plain_dotGeneral_apply]
    · rw [dif_neg hj, dif_neg hj]
  · rw [broadcastInDim_apply ![] hb _ (ix2 r c) ix0 (fun a => a.elim0), constant_apply, Ideal.ofBits_zero_f32]

/-- A TensorCore body's spelling is the layer (the bf16 narrowing and the two shape casts to the same shape are the identity
    at the ideal values). -/
theorem kernel_layer_eq (M S : Nat) (x0 : FVec Ideal ⟨2, ![M, S]⟩ .f32) (x1 : FVec Ideal ⟨2, ![S, 128]⟩ .bf16)
    (x2 : FVec Ideal ⟨2, ![M, 128]⟩ .f32) (x3 : FVec Ideal ⟨2, ![256, 128]⟩ .f32) (hlt : FTy.bf16.bits < FTy.f32.bits)
    (hc1 : (⟨2, ![S, 128]⟩ : Shape).ShapeCasts ⟨2, ![S, 128]⟩) (hc2 : (⟨2, ![M, 128]⟩ : Shape).ShapeCasts ⟨2, ![M, 128]⟩)
    (hcat : Shape.Concatenates (([⟨⟨2, ![M, 128]⟩, matmul (DotDims.plain M S 128) none (truncf .bf16 x0 hlt) (shapeCast ⟨2, ![S, 128]⟩ x1 hc1)
        (constant ⟨2, ![M, 128]⟩ .f32 0x00000000#32)⟩, ⟨⟨2, ![M, 128]⟩, shapeCast ⟨2, ![M, 128]⟩ x2 hc2⟩] :
      List ((s : Shape) × (s.Idx → EReal))).map (·.1)) ⟨2, ![M, 256]⟩ 1) :
    maximumf (matmul (DotDims.plain M 256 128) (some .fp32)
        (concatenate ⟨2, ![M, 256]⟩ 1 [⟨⟨2, ![M, 128]⟩, matmul (DotDims.plain M S 128) none (truncf .bf16 x0 hlt) (shapeCast ⟨2, ![S, 128]⟩ x1 hc1)
          (constant ⟨2, ![M, 128]⟩ .f32 0x00000000#32)⟩, ⟨⟨2, ![M, 128]⟩, shapeCast ⟨2, ![M, 128]⟩ x2 hc2⟩] hcat)
        x3 (constant ⟨2, ![M, 128]⟩ .f32 0x00000000#32))
      (broadcast ⟨2, ![M, 128]⟩ (Scalar.ofBits (F := Ideal) .f32 0x00000000#32))
      = layer M S x0 x1 x2 x3 := by
  funext i
  obtain ⟨r, c, rfl⟩ : ∃ (r : Fin M) (c : Fin 128), i = ix2 r c := ⟨i 0, i 1, eq_ix2 i⟩
  rw [maximumf_apply, plain_matmul_zero_apply, layer_apply, broadcast_apply]
  unfold layerAt
  congr 1
  · refine Finset.sum_congr rfl fun j _ => ?_
    congr 1
    rw [concat_cols_apply M 128 128 256 rfl]
    by_cases hj : j.val < 128
    · rw [dif_pos hj, dif_pos hj, plain_matmul_zero_apply]
      refine Finset.sum_congr rfl fun k _ => ?_
      rw [truncf_apply, shapeCast_self]
    · rw [dif_neg hj, dif_neg hj, shapeCast_self]
  · exact Ideal.ofBits_zero_f32

end Idealize.ShloMosaic.MeanAggregate

end
-- ==== Proof.KReg0.lean ====
import proofs.«404828_j12489764896775_3_alg».proof.Proof.KDefs
import proofs.«404828_j12489764896775_3_alg».proof.Proof.LibMeanAggregate
import Idealize.ShloMosaic.Lib.Pipeline.Value
import Idealize.ShloMosaic.Lib.ValueLayout

/-! # Region 0: the first projection, its rows scaled by the node normalisation -/

open scoped BigOperators

noncomputable section

namespace Cert.KV

open Idealize.ShloMosaic Idealize.ShloMosaic.TcCoe Idealize.ShloMosaic.ValueIdx Idealize.SL.Sem
open Cert.KernelIdeal Cert.KernelIdeal.Gen

/-- A column `[a, 1]` broadcast to `[a, b]` reads, at `(p, q)`, the column's entry `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's arithmetic at an entry `(p, q)` of a block: the product of the two operand blocks there, times the
    scaling column's entry `p`. -/
private theorem pay0_apply (x0 : FVec Ideal S5000x128 .f32) (x1 : FVec Ideal S128x256 .f32) (x2 : FVec Ideal S5000x1 .f32)
    (p : Fin 5000) (q : Fin 256) :
    k0_pay1 (F := Ideal) x0 x1 x2 (ix2 p q)
      = (∑ k : Fin 128, x0 (ix2 p k) * x1 (ix2 k q)) * x2 (ix2 p (0 : Fin 1)) := by
  unfold k0_pay1
  rw [mulf_apply, shapeCast_self, broadcastTo_a1_ab_apply]
  refine congrArg (· * x2 (ix2 p (0 : Fin 1))) ?_
  exact MeanAggregate.plain_matmul_zero_apply 5000 128 256 none (truncf .bf16 x0 bitsLt_bf16_f32)
    (truncf .bf16 x1 bitsLt_bf16_f32) p q

private theorem zero_off2 : (![0, 0] : Fin 2 → Nat) = fun _ => 0 := funext fun a => by fin_cases a <;> rfl

/-- The printed index maps over the grid: the row blocks of the first operand, of the scaling column and of the result
    move together, one block per point; the second operand is one block. -/
private theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The whole result array as one function of the operands, entry by entry. -/
private abbrev G0 (V : Contents) (c : Dev nD) : FVec Ideal S50000x256 .f32 := fun i =>
  (∑ k : Fin 128, vArg0 V c (ix2 (i 0) k) * vArg3 V c (ix2 k (i 1))) * vV15 V c (ix2 (i 0) (0 : Fin 1))

/-- The first operand's block at point `t` is its rows `5000 t … 5000 t + 4999`. -/
private theorem blk0_arg0 (V : Contents) (c : Dev nD) (t : Fin cfg0.N) (p : Fin 5000) (k : Fin 128) (i : Fin 50000)
    (hi : i.val = t.val * 5000 + p.val) :
    (iblk0 (F := Ideal) V c 0 t : FVec Ideal S5000x128 .f32) (ix2 p k) = vArg0 V c (ix2 i k) := by
  obtain ⟨e0, e1, -⟩ := idx_facts0 t
  show V c main_arg0 (((cfg0.win 0).blk t).view.emb (ix2 p k)) = V c main_arg0 (ix2 i k)
  refine congrArg (V c main_arg0) (funext fun a => Fin.ext ?_)
  match a with
  | ⟨0, _⟩ => show win0_0.index t (0 : Fin 2) * 5000 + 1 * p.val = i.val; omega
  | ⟨1, _⟩ => show win0_0.index t (1 : Fin 2) * 128 + 1 * k.val = k.val; omega

/-- The second operand's block at every point is the whole of it. -/
private theorem blk0_arg3 (V : Contents) (c : Dev nD) (t : Fin cfg0.N) (k : Fin 128) (q : Fin 256) :
    (iblk0 (F := Ideal) V c 1 t : FVec Ideal S128x256 .f32) (ix2 k q) = vArg3 V c (ix2 k q) := by
  obtain ⟨-, -, e0, e1, -⟩ := idx_facts0 t
  show V c main_arg3 (((cfg0.win 1).blk t).view.emb (ix2 k q)) = V c main_arg3 (ix2 k q)
  refine congrArg (V c main_arg3) (funext fun a => Fin.ext ?_)
  match a with
  | ⟨0, _⟩ => show win0_1.index t (0 : Fin 2) * 128 + 1 * k.val = k.val; omega
  | ⟨1, _⟩ => show win0_1.index t (1 : Fin 2) * 256 + 1 * q.val = q.val; omega

/-- The scaling column's block at point `t` is its rows `5000 t … 5000 t + 4999`. -/
private theorem blk0_v15 (V : Contents) (c : Dev nD) (t : Fin cfg0.N) (p : Fin 5000) (i : Fin 50000)
    (hi : i.val = t.val * 5000 + p.val) :
    (iblk0 (F := Ideal) V c 2 t : FVec Ideal S5000x1 .f32) (ix2 p (0 : Fin 1)) = vV15 V c (ix2 i (0 : Fin 1)) := by
  obtain ⟨-, -, -, -, e0, e1, -⟩ := idx_facts0 t
  show V c main_v15 (((cfg0.win 2).blk t).view.emb (ix2 p (0 : Fin 1))) = V c main_v15 (ix2 i (0 : Fin 1))
  refine congrArg (V c main_v15) (funext fun a => Fin.ext ?_)
  match a with
  | ⟨0, _⟩ => show win0_2.index t (0 : Fin 2) * 5000 + 1 * p.val = i.val; omega
  | ⟨1, _⟩ => show win0_2.index t (1 : Fin 2) * 1 + 1 * (0 : Fin 1).val = (0 : Fin 1).val; omega

/-- What point `t` writes back is block `t` of the whole-array function. -/
private theorem flushed0_eq (V : Contents) (c : Dev nD) (t : Fin cfg0.N) :
    (dat0 (F := Ideal) V c).flushed 3 t = ((cfg0.win 3).blk t).view.read (Elt Ideal) (G0 V c) := by
  show (cfg0.win 3).cut (grid0.coords t) ((dat0 (F := Ideal) V c).after 3 t) = _
  rw [after0_3]
  unfold out0_3
  rw [View.canon_unit_zero zero_off2]
  simp only [View.ld_unit_zero (S := S5000x128) zero_off2, View.ld_unit_zero (S := S128x256) zero_off2,
    View.ld_unit_zero (S := S5000x1) zero_off2]
  funext j
  obtain ⟨p, q, rfl⟩ : ∃ (p : Fin 5000) (q : Fin 256), j = ix2 p q := ⟨j 0, j 1, eq_ix2 j⟩
  obtain ⟨-, -, -, -, -, -, e0, e1⟩ := idx_facts0 t
  have hlt : t.val < 10 := Nat.lt_of_lt_of_eq t.isLt (show cfg0.N = 10 from N_0)
  obtain ⟨i, hi⟩ : ∃ i : Fin 50000, i.val = t.val * 5000 + p.val := ⟨⟨t.val * 5000 + p.val, by omega⟩, rfl⟩
  have hemb : ((cfg0.win 3).blk t).view.emb (ix2 p q) = ix2 i q := funext fun a => Fin.ext (by
    match a with
    | ⟨0, _⟩ => show win0_3.index t (0 : Fin 2) * 5000 + 1 * p.val = i.val; omega
    | ⟨1, _⟩ => show win0_3.index t (1 : Fin 2) * 256 + 1 * q.val = q.val; omega)
  show k0_pay1 (F := Ideal) (iblk0 V c 0 t) (iblk0 V c 1 t) (iblk0 V c 2 t) (ix2 p q)
    = G0 V c (((cfg0.win 3).blk t).view.emb (ix2 p q))
  rw [hemb]
  refine (pay0_apply (iblk0 V c 0 t) (iblk0 V c 1 t) (iblk0 V c 2 t) p q).trans ?_
  exact congrArg₂ (· * ·)
    (Finset.sum_congr rfl fun k _ => congrArg₂ (· * ·) (blk0_arg0 V c t p k i hi) (blk0_arg3 V c t k q))
    (blk0_v15 V c t p i hi)

/-- An index of the result array lies in point `t`'s block iff each coordinate lies in the block's range. -/
private theorem mem_blk0 (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v16).slice (win0_3.rect t)).set ↔ _
  rw [View.set_slice_whole, Rect.mem_set_unit]
  exact Iff.rfl

/-- The ten row blocks cover the result array, so it ends as the whole-array function. -/
private theorem arr0_eq (V : Contents) (c : Dev nD) : arr0 V c = G0 V c :=
  (dat0 (F := Ideal) V c).arrAt_eq_of_cover 3 (G0 V c) (fun t _ => flushed0_eq V c t) fun i => by
    have hi0 : (i 0).val < 50000 := (i 0).isLt
    have hi1 : (i 1).val < 256 := (i 1).isLt
    obtain ⟨t, ht⟩ : ∃ t : Fin cfg0.N, t.val = (i 0).val / 5000 :=
      ⟨⟨(i 0).val / 5000, by rw [show cfg0.N = 10 from N_0]; omega⟩, rfl⟩
    obtain ⟨-, -, -, -, -, -, e0, e1⟩ := idx_facts0 t
    refine ⟨t, flush0_3 t, ?_⟩
    rw [mem_blk0]
    intro a
    match a with
    | ⟨0, _⟩ =>
      show win0_3.index t (0 : Fin 2) * 5000 ≤ (i 0).val ∧ (i 0).val < win0_3.index t (0 : Fin 2) * 5000 + 5000
      omega
    | ⟨1, _⟩ =>
      show win0_3.index t (1 : Fin 2) * 256 ≤ (i 1).val ∧ (i 1).val < win0_3.index t (1 : Fin 2) * 256 + 256
      omega

/-- Entry `(i, f)` of what region 0 leaves: row `i` of the first operand against column `f` of the second, times the
    third operand's entry `(i, 0)`. -/
theorem reg0_val (V : Contents) (c : Dev nD) (i : Fin 50000) (f : Fin 256) :
    arr0 V c (ix2 i f)
      = (∑ k : Fin 128, vArg0 V c (ix2 i k) * vArg3 V c (ix2 k f)) * vV15 V c (ix2 i (0 : Fin 1)) := by
  exact congrFun (arr0_eq V c) (ix2 i f)

end Cert.KV

end
-- ==== Proof.KReg1.lean ====
import proofs.«404828_j12489764896775_3_alg».proof.Proof.KDefs
import proofs.«404828_j12489764896775_3_alg».proof.Proof.LibMeanAggregate
import Idealize.ShloMosaic.Lib.Pipeline.Value
import Idealize.ShloMosaic.Lib.ValueLayout
import Idealize.ShloMosaic.PureOps.Ideal.Laws

/-! # Region 1: the first layer's activation fused with the second projection -/

set_option maxRecDepth 16384

open scoped BigOperators

noncomputable section

namespace Cert.KV

open Idealize.ShloMosaic Idealize.ShloMosaic.TcCoe Idealize.ShloMosaic.ValueIdx Idealize.SL.Sem
open Cert.KernelIdeal Cert.KernelIdeal.Gen

/-- The zero offset of a whole-buffer access, as a constant function. -/
private theorem zero_offset1 : (![0, 0] : Fin 2 → Nat) = fun _ => 0 := funext fun a => by fin_cases a <;> rfl

/-- A column `[a, 1]` broadcast along the lanes to `[a, b]` reads, at `(p, c)`, the column at `(p, 0)`. -/
private theorem colBroadcast1_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's product contracts the activation's columns with the weight's rows and nothing else. -/
private theorem dot1_plain : dot_S2000x256_S256x256_S2000x256_1_0_0_1_n_n = DotDims.plain 2000 256 256 := rfl

/-- The body's stored value at an entry of the block: the activated row times the weight's column, scaled by the
    row's normalisation. -/
private theorem proj1_block_apply (x0 : FVec Ideal S2000x256 .f32) (x1 : FVec Ideal S2000x1 .f32) (x2 : FVec Ideal S1x256 .f32)
    (x3 : FVec Ideal S256x256 .f32) (x4 : FVec Ideal S2000x1 .f32) (p : Fin 2000) (q : Fin 256) :
    k1_pay1 (F := Ideal) x0 x1 x2 x3 x4 (ix2 p q)
      = (∑ k : Fin 256, max (x0 (ix2 p k) * x1 (ix2 p (0 : Fin 1)) + x2 (ix2 (0 : Fin 1) k)) 0 * x3 (ix2 k q))
          * x4 (ix2 p (0 : Fin 1)) := by
  have hzero : (FloatOps.ofBits (F := Ideal) FTy.f32 0x00000000#32) = 0 := Ideal.ofBits_zero_f32
  unfold k1_pay1
  rw [mulf_apply, shapeCast_self x4, colBroadcast1_apply x4 broadcasts_S2000x1_S2000x256 p q, dot1_plain,
    Idealize.ShloMosaic.MeanAggregate.plain_matmul_zero_apply]
  congr 1
  refine Finset.sum_congr rfl fun k _ => ?_
  rw [truncf_apply, truncf_apply, maximumf_apply, addf_apply, mulf_apply, broadcast_apply, hzero,
    shapeCast_self, shapeCast_self, shapeCast_self]
  rw [colBroadcast1_apply x1 broadcasts_S2000x1_S2000x256 p k,
    broadcastTo_1b_ab_apply x2 broadcasts_S1x256_S2000x256 p k]

/-- The projected activation of the whole arrays: entry `j` is the sum over the hidden features of the activated
    first-layer aggregate of `j`'s row times the weight, scaled by the row's normalisation. -/
private abbrev proj1 (V : Contents) (c : Dev nD) : S50000x256.Idx → Elt Ideal .f32 := fun j =>
  (∑ k : Fin 256, max (vV26 V c (ix2 (j 0) k) * vV15 V c (ix2 (j 0) (0 : Fin 1)) + vV27 V c (ix2 (0 : Fin 1) k)) 0
      * vArg5 V c (ix2 k (j 1))) * vV15 V c (ix2 (j 0) (0 : Fin 1))

/-- The printed index maps over the grid: the aggregate's, the normalisation's and the result's row blocks move
    together, one per point, in column block zero; the bias row and the weight stay at their only block. -/
private theorem block_indices1 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 24 ∧ win1_4.index t (1 : Fin 2) = 0 :=
  (by decide +kernel : ∀ t : Fin grid1.N, _)

/-- Every row block of the result is some point's. -/
private theorem block_onto1 : ∀ b : Fin 25, ∃ t : Fin cfg1.N, win1_4.index t = ![b.val, 0] :=
  (by decide +kernel : ∀ b : Fin 25, ∃ t : Fin grid1.N, win1_4.index t = ![b.val, 0])

/-- What point `t` writes back is block `t` of the projected activation of the whole arrays. -/
private theorem flushed1_eq (V : Contents) (c : Dev nD) (t : Fin cfg1.N) :
    (dat1 (F := Ideal) V c).flushed 4 t = ((cfg1.win 4).blk t).view.read (Elt Ideal) (proj1 V c) := by
  show (cfg1.win 4).cut (grid1.coords t) ((dat1 (F := Ideal) V c).after 4 t) = _
  rw [after1_4]
  unfold out1_4
  rw [View.canon_unit_zero zero_offset1]
  simp only [View.ld_unit_zero (S := S2000x256) zero_offset1, View.ld_unit_zero (S := S2000x1) zero_offset1,
    View.ld_unit_zero (S := S1x256) zero_offset1, View.ld_unit_zero (S := S256x256) zero_offset1]
  obtain ⟨e0, e1, e2, e3, e4, e5, e6, e7, e8, e9⟩ := block_indices1 t
  funext j
  obtain ⟨p, q, rfl⟩ : ∃ (p : Fin 2000) (q : Fin 256), j = ix2 p q := ⟨j 0, j 1, eq_ix2 j⟩
  show k1_pay1 (F := Ideal) (iblk1 V c 0 t) (iblk1 V c 1 t) (iblk1 V c 2 t) (iblk1 V c 3 t) (iblk1 V c 1 t) (ix2 p q) = _
  refine (proj1_block_apply (iblk1 V c 0 t) (iblk1 V c 1 t) (iblk1 V c 2 t) (iblk1 V c 3 t) (iblk1 V c 1 t) p q).trans ?_
  have hp : p.val < 2000 := p.isLt
  have hq : q.val < 256 := q.isLt
  have hr : win1_4.index t (0 : Fin 2) * 2000 + p.val < 50000 := by omega
  -- a block's coordinate is its block index times the block's extent plus the coordinate inside the block
  have h4 : ((cfg1.win 4).blk t).view.emb (ix2 p q)
      = ix2 (⟨win1_4.index t (0 : Fin 2) * 2000 + p.val, hr⟩ : Fin 50000) q := by
    funext a; apply Fin.ext
    match a with
    | ⟨0, _⟩ => show win1_4.index t (0 : Fin 2) * 2000 + 1 * p.val = win1_4.index t (0 : Fin 2) * 2000 + p.val; omega
    | ⟨1, _⟩ => show win1_4.index t (1 : Fin 2) * 256 + 1 * q.val = q.val; omega
  have h0 : ∀ k : Fin 256, ((cfg1.win 0).blk t).view.emb (ix2 p k)
      = ix2 (⟨win1_4.index t (0 : Fin 2) * 2000 + p.val, hr⟩ : Fin 50000) k := by
    intro k
    have hk : k.val < 256 := k.isLt
    funext a; apply Fin.ext
    match a with
    | ⟨0, _⟩ => show win1_0.index t (0 : Fin 2) * 2000 + 1 * p.val = win1_4.index t (0 : Fin 2) * 2000 + p.val; omega
    | ⟨1, _⟩ => show win1_0.index t (1 : Fin 2) * 256 + 1 * k.val = k.val; omega
  have h1 : ((cfg1.win 1).blk t).view.emb (ix2 p (0 : Fin 1))
      = ix2 (⟨win1_4.index t (0 : Fin 2) * 2000 + p.val, hr⟩ : Fin 50000) (0 : Fin 1) := by
    funext a; apply Fin.ext
    match a with
    | ⟨0, _⟩ => show win1_1.index t (0 : Fin 2) * 2000 + 1 * p.val = win1_4.index t (0 : Fin 2) * 2000 + p.val; omega
    | ⟨1, _⟩ => show win1_1.index t (1 : Fin 2) * 1 + 1 * 0 = 0; omega
  have h2 : ∀ k : Fin 256, ((cfg1.win 2).blk t).view.emb (ix2 (0 : Fin 1) k) = ix2 (0 : Fin 1) k := by
    intro k
    funext a; apply Fin.ext
    match a with
    | ⟨0, _⟩ => show win1_2.index t (0 : Fin 2) * 1 + 1 * 0 = 0; omega
    | ⟨1, _⟩ => show win1_2.index t (1 : Fin 2) * 256 + 1 * k.val = k.val; omega
  have h3 : ∀ k : Fin 256, ((cfg1.win 3).blk t).view.emb (ix2 k q) = ix2 k q := by
    intro k
    funext a; apply Fin.ext
    match a with
    | ⟨0, _⟩ => show win1_3.index t (0 : Fin 2) * 256 + 1 * k.val = k.val; omega
    | ⟨1, _⟩ => show win1_3.index t (1 : Fin 2) * 256 + 1 * q.val = q.val; omega
  show (∑ k : Fin 256, max (vV26 V c (((cfg1.win 0).blk t).view.emb (ix2 p k))
          * vV15 V c (((cfg1.win 1).blk t).view.emb (ix2 p (0 : Fin 1)))
          + vV27 V c (((cfg1.win 2).blk t).view.emb (ix2 (0 : Fin 1) k))) 0
        * vArg5 V c (((cfg1.win 3).blk t).view.emb (ix2 k q)))
        * vV15 V c (((cfg1.win 1).blk t).view.emb (ix2 p (0 : Fin 1)))
      = proj1 V c (((cfg1.win 4).blk t).view.emb (ix2 p q))
  rw [h1, h4]
  simp only [h0, h2, h3]

/-- An index of the result array is in point `t`'s block iff each coordinate is in the block's range on its axis. -/
private theorem mem_block1 (t : Fin cfg1.N) (i : S50000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v28).slice (win1_4.rect t)).set ↔ _
  rw [View.set_slice_whole, Rect.mem_set_unit]
  exact Iff.rfl

/-- Every entry of the result array is in the block of the point its row falls in: row `r` in block `r / 2000`. -/
private theorem covered1 (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  obtain ⟨t, ht⟩ := block_onto1 ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_block1]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 256 ≤ (i 1).val ∧ (i 1).val < win1_4.index t (1 : Fin 2) * 256 + 256
    omega

/-- Entry `(i, f)` of what region 1 leaves. -/
theorem reg1_val (V : Contents) (c : Dev nD) (i : Fin 50000) (f : Fin 256) :
    arr1 V c (ix2 i f)
      = (∑ k : Fin 256, max (vV26 V c (ix2 i k) * vV15 V c (ix2 i (0 : Fin 1)) + vV27 V c (ix2 (0 : Fin 1) k)) 0
            * vArg5 V c (ix2 k f)) * vV15 V c (ix2 i (0 : Fin 1)) := by
  have h := (dat1 (F := Ideal) V c).arrAt_eq_of_cover 4 (proj1 V c) (fun t _ => flushed1_eq V c t) covered1
  exact congrFun h (ix2 i f)

end Cert.KV

end
-- ==== Proof.KReg2.lean ====
import proofs.«404828_j12489764896775_3_alg».proof.Proof.KDefs
import Idealize.ShloMosaic.Lib.Pipeline.Value
import Idealize.ShloMosaic.Lib.ValueLayout
import Idealize.ShloMosaic.PureOps.Ideal.Laws

/-! # Region 2: the second layer's activation -/

set_option maxRecDepth 16384

open scoped BigOperators

noncomputable section

namespace Cert.KV

open Idealize.ShloMosaic Idealize.ShloMosaic.TcCoe Idealize.ShloMosaic.ValueIdx Idealize.SL.Sem
open Cert.KernelIdeal Cert.KernelIdeal.Gen

/-- The zero offset of a whole-buffer access, as a constant function. -/
private theorem zero_offset2 : (![0, 0] : Fin 2 → Nat) = fun _ => 0 := funext fun a => by fin_cases a <;> rfl

/-- A column `[a, 1]` broadcast along the lanes to `[a, b]` reads, at `(p, c)`, the column at `(p, 0)`. -/
private theorem colBroadcast2_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's stored value at an entry of the block: the scaled row plus the bias, clamped below at zero. -/
private theorem act2_block_apply (x0 : FVec Ideal S5000x256 .f32) (x1 : FVec Ideal S5000x1 .f32) (x2 : FVec Ideal S1x256 .f32)
    (p : Fin 5000) (q : Fin 256) :
    k2_pay1 (F := Ideal) x0 x1 x2 (ix2 p q) = max (x0 (ix2 p q) * x1 (ix2 p (0 : Fin 1)) + x2 (ix2 (0 : Fin 1) q)) 0 := by
  have hzero : (FloatOps.ofBits (F := Ideal) FTy.f32 0x00000000#32) = 0 := Ideal.ofBits_zero_f32
  unfold k2_pay1
  rw [truncf_apply, maximumf_apply, addf_apply, mulf_apply, broadcast_apply, hzero,
    shapeCast_self, shapeCast_self, shapeCast_self]
  rw [colBroadcast2_apply x1 broadcasts_S5000x1_S5000x256 p q,
    broadcastTo_1b_ab_apply x2 broadcasts_S1x256_S5000x256 p q]

/-- The activation of the whole arrays: entry `j` is the aggregate there times its row's normalisation, plus its
    column's bias, clamped below at zero. -/
private abbrev act2 (V : Contents) (c : Dev nD) : S50000x256.Idx → Elt Ideal .bf16 := fun j =>
  max (vV38 V c j * vV15 V c (ix2 (j 0) (0 : Fin 1)) + vV39 V c (ix2 (0 : Fin 1) (j 1))) 0

/-- The printed index maps over the grid: the aggregate's, the normalisation's and the result's row blocks move
    together, one per point, in column block zero; the bias row stays at its only block. -/
private theorem block_indices2 : ∀ t : Fin cfg2.N,
    win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 2) = 0 ∧ win2_2.index t (1 : Fin 2) = 0
    ∧ win2_3.index t (0 : Fin 2) ≤ 9 ∧ win2_3.index t (1 : Fin 2) = 0 :=
  (by decide +kernel : ∀ t : Fin grid2.N, _)

/-- Every row block of the result is some point's. -/
private theorem block_onto2 : ∀ b : Fin 10, ∃ t : Fin cfg2.N, win2_3.index t = ![b.val, 0] :=
  (by decide +kernel : ∀ b : Fin 10, ∃ t : Fin grid2.N, win2_3.index t = ![b.val, 0])

/-- What point `t` writes back is block `t` of the activation of the whole arrays. -/
private theorem flushed2_eq (V : Contents) (c : Dev nD) (t : Fin cfg2.N) :
    (dat2 (F := Ideal) V c).flushed 3 t = ((cfg2.win 3).blk t).view.read (Elt Ideal) (act2 V c) := by
  show (cfg2.win 3).cut (grid2.coords t) ((dat2 (F := Ideal) V c).after 3 t) = _
  rw [after2_3]
  unfold out2_3
  rw [View.canon_unit_zero zero_offset2]
  simp only [View.ld_unit_zero (S := S5000x256) zero_offset2, View.ld_unit_zero (S := S5000x1) zero_offset2,
    View.ld_unit_zero (S := S1x256) zero_offset2]
  obtain ⟨e0, e1, e2, e3, e4, e5, e6, e7⟩ := block_indices2 t
  funext j
  obtain ⟨p, q, rfl⟩ : ∃ (p : Fin 5000) (q : Fin 256), j = ix2 p q := ⟨j 0, j 1, eq_ix2 j⟩
  show k2_pay1 (F := Ideal) (iblk2 V c 0 t) (iblk2 V c 1 t) (iblk2 V c 2 t) (ix2 p q) = _
  refine (act2_block_apply (iblk2 V c 0 t) (iblk2 V c 1 t) (iblk2 V c 2 t) p q).trans ?_
  have hp : p.val < 5000 := p.isLt
  have hq : q.val < 256 := q.isLt
  have hr : win2_3.index t (0 : Fin 2) * 5000 + p.val < 50000 := by omega
  -- a block's coordinate is its block index times the block's extent plus the coordinate inside the block
  have h3 : ((cfg2.win 3).blk t).view.emb (ix2 p q)
      = ix2 (⟨win2_3.index t (0 : Fin 2) * 5000 + p.val, hr⟩ : Fin 50000) q := by
    funext a; apply Fin.ext
    match a with
    | ⟨0, _⟩ => show win2_3.index t (0 : Fin 2) * 5000 + 1 * p.val = win2_3.index t (0 : Fin 2) * 5000 + p.val; omega
    | ⟨1, _⟩ => show win2_3.index t (1 : Fin 2) * 256 + 1 * q.val = q.val; omega
  have h0 : ((cfg2.win 0).blk t).view.emb (ix2 p q)
      = ix2 (⟨win2_3.index t (0 : Fin 2) * 5000 + p.val, hr⟩ : Fin 50000) q := by
    funext a; apply Fin.ext
    match a with
    | ⟨0, _⟩ => show win2_0.index t (0 : Fin 2) * 5000 + 1 * p.val = win2_3.index t (0 : Fin 2) * 5000 + p.val; omega
    | ⟨1, _⟩ => show win2_0.index t (1 : Fin 2) * 256 + 1 * q.val = q.val; omega
  have h1 : ((cfg2.win 1).blk t).view.emb (ix2 p (0 : Fin 1))
      = ix2 (⟨win2_3.index t (0 : Fin 2) * 5000 + p.val, hr⟩ : Fin 50000) (0 : Fin 1) := by
    funext a; apply Fin.ext
    match a with
    | ⟨0, _⟩ => show win2_1.index t (0 : Fin 2) * 5000 + 1 * p.val = win2_3.index t (0 : Fin 2) * 5000 + p.val; omega
    | ⟨1, _⟩ => show win2_1.index t (1 : Fin 2) * 1 + 1 * 0 = 0; omega
  have h2 : ((cfg2.win 2).blk t).view.emb (ix2 (0 : Fin 1) q) = ix2 (0 : Fin 1) q := by
    funext a; apply Fin.ext
    match a with
    | ⟨0, _⟩ => show win2_2.index t (0 : Fin 2) * 1 + 1 * 0 = 0; omega
    | ⟨1, _⟩ => show win2_2.index t (1 : Fin 2) * 256 + 1 * q.val = q.val; omega
  show max (vV38 V c (((cfg2.win 0).blk t).view.emb (ix2 p q))
        * vV15 V c (((cfg2.win 1).blk t).view.emb (ix2 p (0 : Fin 1)))
        + vV39 V c (((cfg2.win 2).blk t).view.emb (ix2 (0 : Fin 1) q))) 0
      = act2 V c (((cfg2.win 3).blk t).view.emb (ix2 p q))
  rw [h0, h1, h2, h3]

/-- An index of the result array is in point `t`'s block iff each coordinate is in the block's range on its axis. -/
private theorem mem_block2 (t : Fin cfg2.N) (i : S50000x256.Idx) :
    i ∈ ((cfg2.win 3).blk t).view.set ↔ ∀ a : Fin 2, win2_3.index t a * S5000x256.size a ≤ (i a).val
      ∧ (i a).val < win2_3.index t a * S5000x256.size a + S5000x256.size a := by
  show i ∈ ((View.whole main_v40).slice (win2_3.rect t)).set ↔ _
  rw [View.set_slice_whole, Rect.mem_set_unit]
  exact Iff.rfl

/-- Every entry of the result array is in the block of the point its row falls in: row `r` in block `r / 5000`. -/
private theorem covered2 (i : S50000x256.Idx) :
    ∃ t : Fin cfg2.N, (cfg2.win 3).flush t = true ∧ i ∈ ((cfg2.win 3).blk t).view.set := by
  have hi0 : (i 0).val < 50000 := (i 0).isLt
  have hi1 : (i 1).val < 256 := (i 1).isLt
  obtain ⟨t, ht⟩ := block_onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_block2]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 256 ≤ (i 1).val ∧ (i 1).val < win2_3.index t (1 : Fin 2) * 256 + 256
    omega

/-- Entry `(i, f)` of what region 2 leaves. -/
theorem reg2_val (V : Contents) (c : Dev nD) (i : Fin 50000) (f : Fin 256) :
    arr2 V c (ix2 i f)
      = max (vV38 V c (ix2 i f) * vV15 V c (ix2 i (0 : Fin 1)) + vV39 V c (ix2 (0 : Fin 1) f)) 0 := by
  have h := (dat2 (F := Ideal) V c).arrAt_eq_of_cover 3 (act2 V c) (fun t _ => flushed2_eq V c t) covered2
  exact congrFun h (ix2 i f)

end Cert.KV

end
-- ==== Proof.KReg3.lean ====
import proofs.«404828_j12489764896775_3_alg».proof.Proof.KDefs
import Idealize.ShloMosaic.Lib.Pipeline.Value
import Idealize.ShloMosaic.Lib.Tactic

/-! # Region 3: the pool, a weighted sum over all nodes accumulated block by block -/

open scoped BigOperators

noncomputable section

namespace Cert.KV

open Idealize.ShloMosaic Idealize.ShloMosaic.TcCoe Idealize.ShloMosaic.ValueIdx Idealize.SL.Sem
open Idealize.ShloMosaic.Pipeline (Dat)
open Cert.KernelIdeal Cert.KernelIdeal.Gen

section Pieces
variable {F : FTy → Type} [FloatOps F]

private theorem hz3 : (![0, 0] : Fin 2 → Nat) = fun _ => 0 := funext fun a => by fin_cases a <;> rfl

/-- A point where the output block is carried over: the body leaves the previous contents plus the block's product. -/
private theorem out3_B (c : Dev nD) (i : grid3.Coords) (a0 : Memref sig .tc .vmem S2000x128 .bf16) (h0 : a0.IsWhole)
    (a1 : Memref sig .tc .vmem S2000x128 .bf16) (h1 : a1.IsWhole) (a2 : Memref sig .tc .vmem S128x128 .f32) (h2 : a2.IsWhole)
    (hc : ¬cond3_0 i) (x0 x1 : Vec F S2000x128 .bf16) (xo : Vec F S128x128 .f32) :
    out3_B_2 c i a0 h0 a1 h1 a2 h2 hc x0 x1 xo = k3_pay2 x0 x1 xo := by
  unfold out3_B_2
  rw [View.read_writes_eq_canon _ _ _ (cover3_B_2 c i a0 h0 a1 h1 a2 h2 hc x0 x1 xo)]
  unfold kernelRun3_B
  dsimp only
  sl_unfold_words
  rw [View.canon_unit_zero hz3]
  simp only [View.readAt_eq_ld, h0.read_unread, h1.read_unread, h2.read_unread, View.ld_unit_zero (S := S2000x128) hz3,
    View.ld_unit_zero (S := S128x128) hz3]

/-- A point where the output block is new: the body stores zeros, then leaves zeros plus the block's product. -/
private theorem out3_A (c : Dev nD) (i : grid3.Coords) (a0 : Memref sig .tc .vmem S2000x128 .bf16) (h0 : a0.IsWhole)
    (a1 : Memref sig .tc .vmem S2000x128 .bf16) (h1 : a1.IsWhole) (a2 : Memref sig .tc .vmem S128x128 .f32) (h2 : a2.IsWhole)
    (hc : cond3_0 i) (x0 x1 : Vec F S2000x128 .bf16) :
    out3_A_2 c i a0 h0 a1 h1 a2 h2 hc x0 x1 = k3_pay2 x0 x1 k3_pay1 := by
  unfold out3_A_2
  rw [View.read_writes_eq_canon _ _ _ (cover3_A_2 c i a0 h0 a1 h1 a2 h2 hc x0 x1)]
  unfold kernelRun3_A
  dsimp only
  sl_unfold_words
  rw [View.canon_cons_unit_zero (S := S128x128) hz3, View.readCov_unit_zero (S := S128x128) _ hz3]
  simp only [View.readAt_eq_ld, h0.read_unread, h1.read_unread, View.ld_unit_zero (S := S2000x128) hz3]

end Pieces

/-! ## The block product at an index -/

private theorem lhs_pool_0 (j : S128x128.Idx) (k : dot_S2000x128_S2000x128_S128x128_0_0_1_1_n_n.contr.Idx) :
    (dot_S2000x128_S2000x128_S128x128_0_0_1_1_n_n.lhsIdx j k 0).val = (k ⟨0, by decide⟩).val :=
  dot_S2000x128_S2000x128_S128x128_0_0_1_1_n_n.lhsIdx_val_of_single rfl j k

private theorem lhs_pool_1 (j : S128x128.Idx) (k : dot_S2000x128_S2000x128_S128x128_0_0_1_1_n_n.contr.Idx) :
    (dot_S2000x128_S2000x128_S128x128_0_0_1_1_n_n.lhsIdx j k 1).val = (j 0).val := by
  unfold DotDims.lhsIdx
  rw [dif_neg (show ¬(1 : Fin S2000x128.rank) ∈ dot_S2000x128_S2000x128_S128x128_0_0_1_1_n_n.lhsBatch by decide),
    dif_pos (show (1 : Fin S2000x128.rank) ∈ dot_S2000x128_S2000x128_S128x128_0_0_1_1_n_n.lhsNonContracting by decide)]
  rfl

private theorem rhs_pool_0 (j : S128x128.Idx) (k : dot_S2000x128_S2000x128_S128x128_0_0_1_1_n_n.contr.Idx) :
    (dot_S2000x128_S2000x128_S128x128_0_0_1_1_n_n.rhsIdx j k 0).val = (k ⟨0, by decide⟩).val :=
  dot_S2000x128_S2000x128_S128x128_0_0_1_1_n_n.rhsIdx_val_of_single rfl j k

private theorem rhs_pool_1 (j : S128x128.Idx) (k : dot_S2000x128_S2000x128_S128x128_0_0_1_1_n_n.contr.Idx) :
    (dot_S2000x128_S2000x128_S128x128_0_0_1_1_n_n.rhsIdx j k 1).val = (j 1).val := by
  unfold DotDims.rhsIdx
  rw [dif_neg (show ¬(1 : Fin S2000x128.rank) ∈ dot_S2000x128_S2000x128_S128x128_0_0_1_1_n_n.rhsBatch by decide),
    dif_pos (show (1 : Fin S2000x128.rank) ∈ dot_S2000x128_S2000x128_S128x128_0_0_1_1_n_n.rhsNonContracting by decide)]
  rfl

/-- The block product into zeros at entry `(g, q)`: the sum over the block's rows of weight times entry. -/
private theorem pool_matmul_apply (w h : FVec Ideal S2000x128 .bf16) (g q : Fin 128) :
    matmul (F := Ideal) dot_S2000x128_S2000x128_S128x128_0_0_1_1_n_n none w h (constant (F := Ideal) S128x128 .f32 0x00000000#32) (ix2 g q)
      = ∑ r : Fin 2000, w (ix2 r g) * h (ix2 r q) := by
  refine (Ideal.matmul_constant_zero_apply dot_S2000x128_S2000x128_S128x128_0_0_1_1_n_n none w h (ix2 g q)).trans ?_
  rw [← Equiv.sum_comp (contrEquiv1 dot_S2000x128_S2000x128_S128x128_0_0_1_1_n_n 2000 rfl rfl).symm]
  refine Finset.sum_congr rfl fun r _ => ?_
  have hk := contrEquiv1_symm_val dot_S2000x128_S2000x128_S128x128_0_0_1_1_n_n 2000 rfl rfl r
  congr 2
  · refine Shape.idx_ext₂ ?_ ?_
    · exact (lhs_pool_0 _ _).trans hk
    · exact lhs_pool_1 _ _
  · refine Shape.idx_ext₂ ?_ ?_
    · exact (rhs_pool_0 _ _).trans hk
    · exact rhs_pool_1 _ _

/-! ## The payloads at an index -/

/-- The reset stores zeros. -/
private theorem pay1_apply (g q : Fin 128) : k3_pay1 (F := Ideal) (ix2 g q) = 0 := by
  unfold k3_pay1
  exact Ideal.ofBits_zero_f32

/-- The update adds the block product to what the output block held. -/
private theorem pay2_apply (w h : FVec Ideal S2000x128 .bf16) (o : FVec Ideal S128x128 .f32) (g q : Fin 128) :
    k3_pay2 (F := Ideal) w h o (ix2 g q) = o (ix2 g q) + ∑ r : Fin 2000, w (ix2 r g) * h (ix2 r q) := by
  unfold k3_pay2
  simp only [shapeCast_self]
  exact congrArg (o (ix2 g q) + ·) (pool_matmul_apply w h g q)

/-! ## The blocks read at an index -/

section Blocks
variable (V : Contents) (c : Dev nD)

/-- The weights' block at a point. -/
private abbrev wblk (t : Fin cfg3.N) : FVec Ideal S2000x128 .bf16 := iblk3 V c 0 t
/-- The entries' block at a point. -/
private abbrev hblk (t : Fin cfg3.N) : FVec Ideal S2000x128 .bf16 := iblk3 V c 1 t
/-- The output block's contents after a point. -/
private abbrev oblk (n : ℕ) (h : n < cfg3.N) : FVec Ideal S128x128 .f32 := outsAt3 V c n h

private theorem idx3_0 : ∀ t : Fin cfg3.N, win3_0.index t 0 = t.val % 25 ∧ win3_0.index t 1 = 0 :=
  (by decide +kernel : ∀ t : Fin grid3.N, win3_0.index t 0 = t.val % 25 ∧ win3_0.index t 1 = 0)
private theorem idx3_1 : ∀ t : Fin cfg3.N, win3_1.index t 0 = t.val % 25 ∧ win3_1.index t 1 = t.val / 25 :=
  (by decide +kernel : ∀ t : Fin grid3.N, win3_1.index t 0 = t.val % 25 ∧ win3_1.index t 1 = t.val / 25)
private theorem idx3_2 : ∀ t : Fin cfg3.N, win3_2.index t 0 = 0 ∧ win3_2.index t 1 = t.val / 25 :=
  (by decide +kernel : ∀ t : Fin grid3.N, win3_2.index t 0 = 0 ∧ win3_2.index t 1 = t.val / 25)

/-- Row `r` of the weights' block at point `t` is node `2000 (t mod 25) + r`. -/
private theorem wblk_apply (t : Fin cfg3.N) (r : Fin 2000) (g : Fin 128) (hi : 2000 * (t.val % 25) + r.val < 50000) :
    wblk V c t (ix2 r g) = vV41 V c (ix2 ⟨2000 * (t.val % 25) + r.val, hi⟩ g) := by
  unfold wblk iblk3
  rw [View.read_apply]
  show V c main_v41 _ = V c main_v41 _
  congr 1
  funext a
  apply Fin.ext
  match a with
  | ⟨0, _⟩ => show win3_0.index t 0 * 2000 + 1 * r.val = 2000 * (t.val % 25) + r.val; rw [(idx3_0 t).1]; omega
  | ⟨1, _⟩ => show win3_0.index t 1 * 128 + 1 * g.val = g.val; rw [(idx3_0 t).2]; omega

/-- Row `r`, column `q` of the entries' block at point `t` is node `2000 (t mod 25) + r`, column `128 (t div 25) + q`. -/
private theorem hblk_apply (t : Fin cfg3.N) (r : Fin 2000) (q : Fin 128) (hi : 2000 * (t.val % 25) + r.val < 50000)
    (hq : 128 * (t.val / 25) + q.val < 256) :
    hblk V c t (ix2 r q) = vV40 V c (ix2 ⟨2000 * (t.val % 25) + r.val, hi⟩ ⟨128 * (t.val / 25) + q.val, hq⟩) := by
  unfold hblk iblk3
  rw [View.read_apply]
  show V c main_v40 _ = V c main_v40 _
  congr 1
  funext a
  apply Fin.ext
  match a with
  | ⟨0, _⟩ => show win3_1.index t 0 * 2000 + 1 * r.val = 2000 * (t.val % 25) + r.val; rw [(idx3_1 t).1]; omega
  | ⟨1, _⟩ => show win3_1.index t 1 * 128 + 1 * q.val = 128 * (t.val / 25) + q.val; rw [(idx3_1 t).2]; omega

end Blocks

/-! ## The running sums -/

section Sums
variable (V : Contents) (c : Dev nD)

/-- The weight of node `i` in graph `g`; zero past the last node. -/
private def wN (i : ℕ) (g : Fin 128) : EReal := if h : i < 50000 then vV41 V c (ix2 ⟨i, h⟩ g) else 0
/-- Entry `f` of node `i`; zero outside the array. -/
private def hN (i f : ℕ) : EReal := if h : i < 50000 ∧ f < 256 then vV40 V c (ix2 ⟨i, h.1⟩ ⟨f, h.2⟩) else 0
/-- The weighted sum of column `f` over the first `N` nodes. -/
private def psum (g : Fin 128) (f N : ℕ) : EReal := ∑ i ∈ Finset.range N, wN V c i g * hN V c i f

/-- The block product at point `t` is the weighted sum over the 2000 nodes of the point's block. -/
private theorem blk_sum (t : Fin cfg3.N) (g q : Fin 128) :
    ∑ r : Fin 2000, wblk V c t (ix2 r g) * hblk V c t (ix2 r q)
      = ∑ x ∈ Finset.range 2000, wN V c (2000 * (t.val % 25) + x) g * hN V c (2000 * (t.val % 25) + x) (128 * (t.val / 25) + q.val) := by
  have hT : t.val < 50 := lt_of_lt_of_eq t.isLt N_3
  rw [← Fin.sum_univ_eq_sum_range (fun x => wN V c (2000 * (t.val % 25) + x) g * hN V c (2000 * (t.val % 25) + x) (128 * (t.val / 25) + q.val)) 2000]
  refine Finset.sum_congr rfl fun r _ => ?_
  have hi : 2000 * (t.val % 25) + r.val < 50000 := by have := r.isLt; omega
  have hq : 128 * (t.val / 25) + q.val < 256 := by have := q.isLt; omega
  rw [wblk_apply V c t r g hi, hblk_apply V c t r q hi hq]
  unfold wN hN
  rw [dif_pos hi, dif_pos ⟨hi, hq⟩]

/-- After point `n` the output block holds, in column `q`, the weighted sum of column `128 (n div 25) + q` over the
    nodes of the blocks met so far in this half of the columns. -/
private def Inv (n : ℕ) (h : n < cfg3.N) : Prop :=
  ∀ g q : Fin 128, oblk V c n h (ix2 g q) = psum V c g (128 * (n / 25) + q.val) (2000 * (n % 25 + 1))

/-- A point that resets the block: zeros plus the first block's product. -/
private theorem inv_A (t : Fin cfg3.N) (h0 : t.val % 25 = 0) : Inv V c t.val t.isLt := by
  intro g q
  unfold oblk
  rw [outsAt3_A V c t h0]
  refine (congrFun (out3_A (F := Ideal) c (grid3.coords t) (ms3_0 t) (hs3_0 t) (ms3_1 t) (hs3_1 t) (ms3_2 t) (hs3_2 t)
    ((hcond3_0 t).mpr h0) (wblk V c t) (hblk V c t)) (ix2 g q)).trans ?_
  rw [pay2_apply (wblk V c t) (hblk V c t) k3_pay1 g q, pay1_apply g q, zero_add, blk_sum V c t g q, h0]
  unfold psum
  simp only [Nat.mul_zero, Nat.zero_add, Nat.mul_one]

/-- A point that carries the block: the sum so far plus this block's product. -/
private theorem inv_B (t : Fin cfg3.N) (h0 : ¬t.val % 25 = 0)
    (ih : Inv V c (t.val - 1) (Nat.lt_of_le_of_lt (Nat.sub_le _ _) t.isLt)) : Inv V c t.val t.isLt := by
  intro g q
  have hT : t.val < 50 := lt_of_lt_of_eq t.isLt N_3
  unfold oblk
  rw [outsAt3_B V c t h0]
  refine (congrFun (out3_B (F := Ideal) c (grid3.coords t) (ms3_0 t) (hs3_0 t) (ms3_1 t) (hs3_1 t) (ms3_2 t) (hs3_2 t)
    (fun h => h0 ((hcond3_0 t).mp h)) (wblk V c t) (hblk V c t)
    (oblk V c (t.val - 1) (Nat.lt_of_le_of_lt (Nat.sub_le _ _) t.isLt))) (ix2 g q)).trans ?_
  rw [pay2_apply (wblk V c t) (hblk V c t) (oblk V c (t.val - 1) (Nat.lt_of_le_of_lt (Nat.sub_le _ _) t.isLt)) g q,
    ih g q, blk_sum V c t g q]
  unfold psum
  have e1 : (t.val - 1) / 25 = t.val / 25 := by omega
  have e2 : 2000 * ((t.val - 1) % 25 + 1) = 2000 * (t.val % 25) := by omega
  have e3 : 2000 * (t.val % 25 + 1) = 2000 * (t.val % 25) + 2000 := by omega
  rw [e1, e2, e3, Finset.sum_range_add]

/-- At every point, by induction along the grid. -/
private theorem inv_all : ∀ (n : ℕ) (h : n < cfg3.N), Inv V c n h
  | 0, h => inv_A V c ⟨0, h⟩ rfl
  | n + 1, h => by
    by_cases h0 : (n + 1) % 25 = 0
    · exact inv_A V c ⟨n + 1, h⟩ h0
    · exact inv_B V c ⟨n + 1, h⟩ h0 (inv_all n _)

end Sums

/-! ## The result array -/

section Result
variable (V : Contents) (c : Dev nD)

/-- The array of weighted sums over all nodes. -/
private def res3 : FVec Ideal S128x256 .f32 := fun i => psum V c (i 0) (i 1).val 50000

/-- A write-back, at the last point of a half, writes that half's block of the weighted sums. -/
private theorem flushed3_eq (t : Fin cfg3.N) (hf : (cfg3.win 2).flush t = true) :
    (dat3 (F := Ideal) V c).flushed 2 t = ((cfg3.win 2).blk t).view.read (Elt Ideal) (res3 V c) := by
  have hT : t.val < 50 := lt_of_lt_of_eq t.isLt N_3
  have h24 : t.val % 25 = 24 := (flush3_2 t).mp hf
  show (cfg3.win 2).cut (grid3.coords t) ((dat3 (F := Ideal) V c).after 2 t) = _
  rw [after3_2]
  refine funext fun (y : S128x128.Idx) => ?_
  obtain ⟨g, q, rfl⟩ : ∃ g q, y = ix2 g q := ⟨y 0, y 1, eq_ix2 y⟩
  have hq : 128 * (t.val / 25) + q.val < 256 := by have := q.isLt; omega
  refine (inv_all V c t.val t.isLt g q).trans ?_
  have he : ((cfg3.win 2).blk t).view.emb (ix2 g q) = ix2 g ⟨128 * (t.val / 25) + q.val, hq⟩ := by
    funext a
    apply Fin.ext
    match a with
    | ⟨0, _⟩ => show win3_2.index t 0 * 128 + 1 * g.val = g.val; rw [(idx3_2 t).1]; omega
    | ⟨1, _⟩ => show win3_2.index t 1 * 128 + 1 * q.val = 128 * (t.val / 25) + q.val; rw [(idx3_2 t).2]; omega
  rw [View.read_apply, he, h24]
  exact (cast_eq _ _).symm

/-- An entry whose column lies in half `k` of the columns is in the output block of every point `t` of that half. -/
private theorem mem_blk3 (t : Fin cfg3.N) (i : S128x256.Idx) (k : ℕ) (hk : t.val / 25 = k)
    (h : 128 * k ≤ (i 1 : ℕ) ∧ (i 1 : ℕ) < 128 * k + 128) : i ∈ ((cfg3.win 2).blk t).view.set := by
  have h0 : (i 0 : ℕ) < 128 := (i 0).isLt
  show i ∈ ((View.whole main_v42).slice (win3_2.rect t)).set
  rw [View.set_slice_whole, Rect.mem_set_unit]
  intro a
  match a with
  | ⟨0, _⟩ =>
    show win3_2.index t 0 * 128 ≤ (i 0 : ℕ) ∧ (i 0 : ℕ) < win3_2.index t 0 * 128 + 128
    rw [(idx3_2 t).1]; omega
  | ⟨1, _⟩ =>
    show win3_2.index t 1 * 128 ≤ (i 1 : ℕ) ∧ (i 1 : ℕ) < win3_2.index t 1 * 128 + 128
    rw [(idx3_2 t).2, hk]; omega

/-- The last point of the first half of the columns, and of the second. -/
private abbrev tEndA : Fin cfg3.N := ⟨24, by rw [show cfg3.N = 50 from N_3]; decide⟩
private abbrev tEndB : Fin cfg3.N := ⟨49, by rw [show cfg3.N = 50 from N_3]; decide⟩

/-- Every entry of the result lies in the block written back at the last point of its half of the columns. -/
private theorem cover3 (i : S128x256.Idx) :
    ∃ t : Fin cfg3.N, (cfg3.win 2).flush t = true ∧ i ∈ ((cfg3.win 2).blk t).view.set := by
  have h1 : (i 1 : ℕ) < 256 := (i 1).isLt
  by_cases hlt : (i 1 : ℕ) < 128
  · exact ⟨tEndA, (flush3_2 tEndA).mpr (by decide), mem_blk3 tEndA i 0 (by decide) ⟨by omega, by omega⟩⟩
  · exact ⟨tEndB, (flush3_2 tEndB).mpr (by decide), mem_blk3 tEndB i 1 (by decide) ⟨by omega, by omega⟩⟩

/-- So the result array ends holding the weighted sums over all nodes. -/
private theorem arr3_eq : arr3 V c = res3 V c :=
  (dat3 (F := Ideal) V c).arrAt_eq_of_cover 2 (res3 V c) (flushed3_eq V c) cover3

end Result

/-- Entry `(g, f)` of what region 3 leaves: the sum over all nodes of the node's weight in graph `g` times its entry `f`. -/
theorem reg3_val (V : Contents) (c : Dev nD) (g : Fin 128) (f : Fin 256) :
    arr3 V c (ix2 g f) = ∑ i : Fin 50000, vV41 V c (ix2 i g) * vV40 V c (ix2 i f) := by
  refine (congrFun (arr3_eq V c) (ix2 g f)).trans ?_
  show psum V c g f.val 50000 = _
  unfold psum
  rw [← Fin.sum_univ_eq_sum_range (fun i => wN V c i g * hN V c i f.val) 50000]
  refine Finset.sum_congr rfl fun i _ => ?_
  unfold wN hN
  rw [dif_pos i.isLt, dif_pos ⟨i.isLt, f.isLt⟩]

end Cert.KV

end
-- ==== Proof.KReg4.lean ====
import proofs.«404828_j12489764896775_3_alg».proof.Proof.KDefs
import proofs.«404828_j12489764896775_3_alg».proof.Proof.LibMeanAggregate
import Idealize.ShloMosaic.Lib.Pipeline.Value
import Idealize.ShloMosaic.Lib.ValueLayout

/-! # Region 4: the last linear layer -/

open scoped BigOperators

noncomputable section

namespace Cert.KV

open Idealize.ShloMosaic Idealize.ShloMosaic.TcCoe Idealize.ShloMosaic.ValueIdx Idealize.SL.Sem
open Cert.KernelIdeal Cert.KernelIdeal.Gen

/-- The body's arithmetic at an entry `(p, q)`: the product of the two operands there, plus the bias row's entry `q`. -/
private theorem pay4_apply (x0 : FVec Ideal S128x256 .f32) (x1 : FVec Ideal S256x128 .f32) (x2 : FVec Ideal S1x128 .f32)
    (p : Fin 128) (q : Fin 128) :
    k4_pay1 (F := Ideal) x0 x1 x2 (ix2 p q)
      = (∑ k : Fin 256, x0 (ix2 p k) * x1 (ix2 k q)) + x2 (ix2 (0 : Fin 1) q) := by
  unfold k4_pay1
  rw [addf_apply, shapeCast_self, shapeCast_self, broadcastTo_1b_ab_apply]
  refine congrArg (· + x2 (ix2 (0 : Fin 1) q)) ?_
  exact MeanAggregate.plain_matmul_zero_apply 128 256 128 none (truncf .bf16 x0 bitsLt_bf16_f32)
    (truncf .bf16 x1 bitsLt_bf16_f32) p q

private theorem zero_off4 : (![0, 0] : Fin 2 → Nat) = fun _ => 0 := funext fun a => by fin_cases a <;> rfl

/-- The printed index maps at the grid's one point: every window's block is the block at the origin. -/
private theorem idx_facts4 : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The whole result array as one function of the operands, entry by entry. -/
private abbrev G4 (V : Contents) (c : Dev nD) : FVec Ideal S128x128 .f32 := fun i =>
  (∑ k : Fin 256, vV51 V c (ix2 (i 0) k) * vArg7 V c (ix2 k (i 1))) + vV52 V c (ix2 (0 : Fin 1) (i 1))

/-- The means' one block is the whole array. -/
private theorem blk4_v51 (V : Contents) (c : Dev nD) (t : Fin cfg4.N) (p : Fin 128) (k : Fin 256) :
    (iblk4 (F := Ideal) V c 0 t : FVec Ideal S128x256 .f32) (ix2 p k) = vV51 V c (ix2 p k) := by
  obtain ⟨e0, e1, -⟩ := idx_facts4 t
  show V c main_v51 (((cfg4.win 0).blk t).view.emb (ix2 p k)) = V c main_v51 (ix2 p k)
  refine congrArg (V c main_v51) (funext fun a => Fin.ext ?_)
  match a with
  | ⟨0, _⟩ => show win4_0.index t (0 : Fin 2) * 128 + 1 * p.val = p.val; omega
  | ⟨1, _⟩ => show win4_0.index t (1 : Fin 2) * 256 + 1 * k.val = k.val; omega

/-- The weight's one block is the whole array. -/
private theorem blk4_arg7 (V : Contents) (c : Dev nD) (t : Fin cfg4.N) (k : Fin 256) (q : Fin 128) :
    (iblk4 (F := Ideal) V c 1 t : FVec Ideal S256x128 .f32) (ix2 k q) = vArg7 V c (ix2 k q) := by
  obtain ⟨-, -, e0, e1, -⟩ := idx_facts4 t
  show V c main_arg7 (((cfg4.win 1).blk t).view.emb (ix2 k q)) = V c main_arg7 (ix2 k q)
  refine congrArg (V c main_arg7) (funext fun a => Fin.ext ?_)
  match a with
  | ⟨0, _⟩ => show win4_1.index t (0 : Fin 2) * 256 + 1 * k.val = k.val; omega
  | ⟨1, _⟩ => show win4_1.index t (1 : Fin 2) * 128 + 1 * q.val = q.val; omega

/-- The bias row's one block is the whole row. -/
private theorem blk4_v52 (V : Contents) (c : Dev nD) (t : Fin cfg4.N) (q : Fin 128) :
    (iblk4 (F := Ideal) V c 2 t : FVec Ideal S1x128 .f32) (ix2 (0 : Fin 1) q) = vV52 V c (ix2 (0 : Fin 1) q) := by
  obtain ⟨-, -, -, -, e0, e1, -⟩ := idx_facts4 t
  show V c main_v52 (((cfg4.win 2).blk t).view.emb (ix2 (0 : Fin 1) q)) = V c main_v52 (ix2 (0 : Fin 1) q)
  refine congrArg (V c main_v52) (funext fun a => Fin.ext ?_)
  match a with
  | ⟨0, _⟩ => show win4_2.index t (0 : Fin 2) * 1 + 1 * (0 : Fin 1).val = (0 : Fin 1).val; omega
  | ⟨1, _⟩ => show win4_2.index t (1 : Fin 2) * 128 + 1 * q.val = q.val; omega

/-- What the one point writes back is the whole-array function read through the one block. -/
private theorem flushed4_eq (V : Contents) (c : Dev nD) (t : Fin cfg4.N) :
    (dat4 (F := Ideal) V c).flushed 3 t = ((cfg4.win 3).blk t).view.read (Elt Ideal) (G4 V c) := by
  show (cfg4.win 3).cut (grid4.coords t) ((dat4 (F := Ideal) V c).after 3 t) = _
  rw [after4_3]
  unfold out4_3
  rw [View.canon_unit_zero zero_off4]
  simp only [View.ld_unit_zero (S := S128x256) zero_off4, View.ld_unit_zero (S := S256x128) zero_off4,
    View.ld_unit_zero (S := S1x128) zero_off4]
  funext j
  obtain ⟨p, q, rfl⟩ : ∃ (p : Fin 128) (q : Fin 128), j = ix2 p q := ⟨j 0, j 1, eq_ix2 j⟩
  obtain ⟨-, -, -, -, -, -, e0, e1⟩ := idx_facts4 t
  have hemb : ((cfg4.win 3).blk t).view.emb (ix2 p q) = ix2 p q := funext fun a => Fin.ext (by
    match a with
    | ⟨0, _⟩ => show win4_3.index t (0 : Fin 2) * 128 + 1 * p.val = p.val; omega
    | ⟨1, _⟩ => show win4_3.index t (1 : Fin 2) * 128 + 1 * q.val = q.val; omega)
  show k4_pay1 (F := Ideal) (iblk4 V c 0 t) (iblk4 V c 1 t) (iblk4 V c 2 t) (ix2 p q)
    = G4 V c (((cfg4.win 3).blk t).view.emb (ix2 p q))
  rw [hemb]
  refine (pay4_apply (iblk4 V c 0 t) (iblk4 V c 1 t) (iblk4 V c 2 t) p q).trans ?_
  exact congrArg₂ (· + ·)
    (Finset.sum_congr rfl fun k _ => congrArg₂ (· * ·) (blk4_v51 V c t p k) (blk4_arg7 V c t k q))
    (blk4_v52 V c t q)

/-- An index of the result array lies in point `t`'s block iff each coordinate lies in the block's range. -/
private theorem mem_blk4 (t : Fin cfg4.N) (i : S128x128.Idx) :
    i ∈ ((cfg4.win 3).blk t).view.set ↔ ∀ a : Fin 2, win4_3.index t a * S128x128.size a ≤ (i a).val
      ∧ (i a).val < win4_3.index t a * S128x128.size a + S128x128.size a := by
  show i ∈ ((View.whole main_v53).slice (win4_3.rect t)).set ↔ _
  rw [View.set_slice_whole, Rect.mem_set_unit]
  exact Iff.rfl

/-- The one block covers the result array, so it ends as the whole-array function. -/
private theorem arr4_eq (V : Contents) (c : Dev nD) : arr4 V c = G4 V c :=
  (dat4 (F := Ideal) V c).arrAt_eq_of_cover 3 (G4 V c) (fun t _ => flushed4_eq V c t) fun i => by
    have hi0 : (i 0).val < 128 := (i 0).isLt
    have hi1 : (i 1).val < 128 := (i 1).isLt
    obtain ⟨t, -⟩ : ∃ t : Fin cfg4.N, t.val = 0 :=
      ⟨⟨0, by rw [show cfg4.N = 1 from N_4]; omega⟩, rfl⟩
    obtain ⟨-, -, -, -, -, -, e0, e1⟩ := idx_facts4 t
    refine ⟨t, flush4_3 t, ?_⟩
    rw [mem_blk4]
    intro a
    match a with
    | ⟨0, _⟩ =>
      show win4_3.index t (0 : Fin 2) * 128 ≤ (i 0).val ∧ (i 0).val < win4_3.index t (0 : Fin 2) * 128 + 128
      omega
    | ⟨1, _⟩ =>
      show win4_3.index t (1 : Fin 2) * 128 ≤ (i 1).val ∧ (i 1).val < win4_3.index t (1 : Fin 2) * 128 + 128
      omega

/-- Entry `(g, o)` of what region 4 leaves: row `g` of the means against column `o` of the weight, plus the bias. -/
theorem reg4_val (V : Contents) (c : Dev nD) (g : Fin 128) (o : Fin 128) :
    arr4 V c (ix2 g o)
      = (∑ k : Fin 256, vV51 V c (ix2 g k) * vArg7 V c (ix2 k o)) + vV52 V c (ix2 (0 : Fin 1) o) := by
  exact congrFun (arr4_eq V c) (ix2 g o)

end Cert.KV

end
-- ==== Proof.LibScatterAddVec.lean ====
import Idealize.ShloMosaic.PureOps.Ideal
import Idealize.ShloMosaic.PureOps.Contract
import Idealize.ShloMosaic.Lib.ValueIdx

/-! # A float scatter-add of scalars into a flat array, read at an index

The accumulating float scatter `Host.scatterAdd d x idx upd` at the ideal values is, at every operand element, that
element plus the sum of the update elements that land on it. Worked out here, at any extents, for SCALARS added into a
rank-1 operand: operand `[N]`, scatter indices `[K, 1]` (the index vector on axis 1), updates `[K]`; update `e` is added
to the operand element named by the scatter index `idx[e, 0]` read as a SIGNED integer, and is dropped when that integer
is not a position of the operand (jax's `jax.ops.segment_sum` of a vector, `.at[ids].add(v)`). So operand element `i`
receives exactly the updates `e` whose scatter index is `i` (`hostScatterAdd_vec_apply`). Stated at the literal
dimension-number record `vecAddDims` and for ANY record with these fields. -/

open scoped BigOperators

namespace Idealize.ShloMosaic.ScatterAddVec

open Idealize.ShloMosaic Idealize.ShloMosaic.ValueIdx

/-- The dimension numbers of a scalar scatter into a vector: operand `[N]`, scatter indices `[K, 1]`, updates `[K]`; the
    update has no window axis, the operand's one axis is the inserted (scattered) axis. -/
abbrev vecAddDims (N K : Nat)
    (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

section
variable {N K w : Nat} (wf : ScatterDims.WF ⟨1, ![N]⟩ ⟨2, ![K, 1]⟩ ⟨1, ![K]⟩ [] [0] [0] 1)
  (idx : IVec ⟨2, ![K, 1]⟩ w) (e : Fin K)

/-- The window of update `e` starts at the scatter index `idx[e, 0]`, read signed. -/
theorem start_eq : (vecAddDims N K wf).start (ix1 e) idx (0 : Fin 1) = (idx (ix2 e (0 : Fin 1))).toInt := by
  unfold ScatterDims.start
  rw [dif_pos (show (0 : Fin 1) ∈ (vecAddDims N K wf).scatterDimsToOperandDims from List.mem_singleton.mpr rfl)]
  have hsi : (vecAddDims N K wf).siIdx (ix1 e) ⟨List.idxOf (0 : Fin 1) (vecAddDims N K wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- The one operand axis is inserted: no window coordinate on it. -/
theorem window_eq : (vecAddDims N K wf).window (ix1 e) (0 : Fin 1) = 0 := by
  unfold ScatterDims.window
  have hk : (vecAddDims N K wf).sKept = [] := rfl
  rw [dif_neg (show ¬ (0 : Fin 1) ∈ (vecAddDims N K wf).sKept from hk ▸ List.not_mem_nil)]

/-- WHERE AN UPDATE LANDS: update `e` lands on operand element `i` exactly when its scatter index reads `i`. -/
theorem resultIdx?_eq_some_iff (i : Fin N) :
    (vecAddDims N K wf).resultIdx? (ix1 e) idx = some (ix1 i) ↔ (idx (ix2 e (0 : Fin 1))).toInt = (i.val : Int) := by
  have hi : i.val < N := i.isLt
  unfold ScatterDims.resultIdx?
  split
  · rename_i h
    have h0 := h 0
    rw [start_eq, window_eq] at h0
    rw [Option.some.injEq]
    constructor
    · intro heq
      have e0 := congrArg (fun f : (⟨1, ![N]⟩ : Shape).Idx => (f (0 : Fin 1)).val) heq
      simp only [start_eq, window_eq] at e0
      have : ((idx (ix2 e (0 : Fin 1))).toInt + ((0 : Nat) : Int)).toNat = i.val := e0
      omega
    · intro hrow
      funext a; refine Fin.ext ?_
      match a with
      | ⟨0, _⟩ =>
        show ((vecAddDims N K wf).start (ix1 e) idx (0 : Fin 1) + (vecAddDims N K wf).window (ix1 e) (0 : Fin 1)).toNat = i.val
        rw [start_eq, window_eq]; omega
  · rename_i h
    constructor
    · intro heq; exact absurd heq (by simp)
    · intro hrow
      exfalso; apply h; intro a
      match a with
      | ⟨0, _⟩ =>
        show 0 ≤ (vecAddDims N K wf).start (ix1 e) idx (0 : Fin 1) + (vecAddDims N K wf).window (ix1 e) (0 : Fin 1)
          ∧ (vecAddDims N K wf).start (ix1 e) idx (0 : Fin 1) + (vecAddDims N K wf).window (ix1 e) (0 : Fin 1) < (N : Int)
        rw [start_eq, window_eq]; omega

end

/-- A sum over the indices of a flat array is the sum over its positions. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun a => rfl⟩ _ _ fun i => ?_
  exact congrArg f (eq_ix1 i)

/-- THE SCALAR SCATTER-ADD AT THE LITERAL RECORD, READ AT `i`: the operand's element plus the sum, over the updates `e`
    whose scatter index is `i`, of the update `e`. -/
theorem hostScatterAdd_vecAddDims_apply {N K w : Nat}
    (wf : ScatterDims.WF ⟨1, ![N]⟩ ⟨2, ![K, 1]⟩ ⟨1, ![K]⟩ [] [0] [0] 1)
    (x : (⟨1, ![N]⟩ : Shape).Idx → EReal) (idx : IVec ⟨2, ![K, 1]⟩ w) (upd : (⟨1, ![K]⟩ : Shape).Idx → EReal)
    (i : Fin N) :
    Ideal.hostScatterAdd (vecAddDims N K wf) x idx upd (ix1 i)
      = x (ix1 i) + ∑ e ∈ Finset.univ.filter (fun e : Fin K => (idx (ix2 e (0 : Fin 1))).toInt = (i.val : Int)), upd (ix1 e) := by
  unfold Ideal.hostScatterAdd
  congr 1
  rw [Finset.sum_filter, sum_idx1, Finset.sum_filter]
  refine Finset.sum_congr rfl fun e _ => ?_
  by_cases ht : (idx (ix2 e (0 : Fin 1))).toInt = (i.val : Int)
  · rw [if_pos ht, if_pos ((resultIdx?_eq_some_iff wf idx e i).mpr ht)]
  · rw [if_neg ht, if_neg (fun h => ht ((resultIdx?_eq_some_iff wf idx e i).mp h))]

/-- THE SCALAR SCATTER-ADD AT ANY RECORD WITH THESE FIELDS, READ AT `i`: a record is its fields, so it is the literal
    one. -/
theorem hostScatterAdd_vec_apply {N K w : Nat} (d : ScatterDims ⟨1, ![N]⟩ ⟨2, ![K, 1]⟩ ⟨1, ![K]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![K, 1]⟩ w) (upd : (⟨1, ![K]⟩ : Shape).Idx → EReal)
    (i : Fin N) :
    Ideal.hostScatterAdd d x idx upd (ix1 i)
      = x (ix1 i) + ∑ e ∈ Finset.univ.filter (fun e : Fin K => (idx (ix2 e (0 : Fin 1))).toInt = (i.val : Int)), upd (ix1 e) := by
  obtain ⟨uw, iw, sd, iv, wf⟩ := d
  simp only at hu hi hs hv
  subst hu hi hs hv
  exact hostScatterAdd_vecAddDims_apply wf x idx upd i

end Idealize.ShloMosaic.ScatterAddVec
-- ==== Proof.KHostA.lean ====
import proofs.«404828_j12489764896775_3_alg».proof.Proof.KDefs
import proofs.«404828_j12489764896775_3_alg».proof.Proof.LibScatterAddVec
import Idealize.ShloMosaic.Lib.Pipeline.Value
import Idealize.ShloMosaic.Lib.ValueLayout
import Idealize.ShloMosaic.PureOps.Ideal.Laws

/-! # The host operations around the regions: the arguments as launched, the normalisation, the last bias -/

open scoped BigOperators

noncomputable section

namespace Cert.KV

open Idealize.ShloMosaic Idealize.ShloMosaic.TcCoe Idealize.ShloMosaic.ValueIdx Idealize.SL.Sem
open Cert.KernelIdeal Cert.KernelIdeal.Gen

open Cert.Spec

variable (m : Mem) (ρ : Dev nD → PrngReg)

/-- Closes `StableHlo.after ops V b = V b` for a literal list `ops` none of whose operations writes `b`. -/
local macro "host_keeps" : tactic => `(tactic|
  (refine StableHlo.after_of_forall_not_mem _ _ (List.forall_iff_forall_mem.mp ?_)
   simp only [hostOps0, hostOps0_1, hostOps0_2, hostOps1, hostOps2, hostOps3, hostOps4, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-! ## The arguments at the boundaries where they are read -/

/-- The last bias at region 4's entry stretch: as launched. -/
private theorem arg8_W10 (c : Dev nD) :
    W10 (F := Ideal) m ρ c (Proc.devRef .tc main_arg8) = m ((c : Thread nD τ).loc main_arg8) :=
  calc W10 (F := Ideal) m ρ c (Proc.devRef .tc main_arg8)
    _ = W11 m ρ c (Proc.devRef .tc main_arg8) := by symm; host_keeps
    _ = W12 m ρ c (Proc.devRef .tc main_arg8) := (W12_of_ne m ρ c main_arg8 (by decide)).symm
    _ = m ((c : Thread nD τ).loc main_arg8) := W12_main_arg8 m ρ c

/-! ## Broadcasts read at an index -/

section Bcast
variable {α : Type}

/-- A scalar broadcast to any shape reads the scalar everywhere. -/
private theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector broadcast to a column reads the vector at the row. -/
private theorem bcast_col_apply {N : Nat} (h : (⟨1, ![N]⟩ : Shape).BroadcastsInDim ⟨2, ![N, 1]⟩ (![0] : Fin 1 → Fin 2))
    (x : (⟨1, ![N]⟩ : Shape).Idx → α) (e : Fin N) :
    broadcastInDim ⟨2, ![N, 1]⟩ ![0] h x (ix2 e (0 : Fin 1)) = x (ix1 e) :=
  broadcastInDim_apply _ h x _ (ix1 e) (fun a => match a with
    | ⟨0, _⟩ => by
      show e.val = if N = 1 then 0 else e.val
      have := e.isLt
      split <;> omega)

end Bcast

/-! ## Host operations read at an index -/

private theorem hostRsqrt_apply {s : Shape} (x : FVec Ideal s .f32) (j : s.Idx) : Host.rsqrt x j = Ideal.rsqrt (x j) := rfl

private theorem hostScatterAdd_eq {s si u : Shape} {w : Nat} (d : ScatterDims s si u) (x : FVec Ideal s .f32) (idx : IVec si w)
    (upd : FVec Ideal u .f32) : Host.scatterAdd d x idx upd = Ideal.hostScatterAdd d x idx upd := rfl

/-! ## The operations of the stretches as functions of their inputs -/

/-- Row 1 of the edge array as a flat array. -/
private def dstRow (ei : IVec S2x800000 32) : IVec S800000 32 :=
  shapeCast S800000 (extractStridedSlice S1x800000 ![1, 0] ei slices_S2x800000_S1x800000_1_0) shapeCasts_S1x800000_S800000

private theorem dstRow_apply (ei : IVec S2x800000 32) (e : Fin 800000) : dstRow ei (ix1 e) = ei (ix2 (1 : Fin 2) e) := by
  unfold dstRow
  rw [shapeCast_apply _ shapeCasts_S1x800000_S800000 (ix1 e) (ix2 (0 : Fin 1) e)
    (by rw [Shape.rowMajor_val_two, Shape.rowMajor_val_one]; show 0 * 800000 + e.val = e.val; omega)]
  exact extractStridedSlice_apply ![1, 0] ei slices_S2x800000_S1x800000_1_0 (ix2 (0 : Fin 1) e) (ix2 (1 : Fin 2) e)
    (fun a => match a with
      | ⟨0, _⟩ => by show 1 = 1 + 0; rfl
      | ⟨1, _⟩ => by show e.val = 0 + e.val; omega)

/-- The destination words: row 1 of the edge array, then the words 0 … 49999. -/
private def dstVec (ei : IVec S2x800000 32) : IVec S850000 32 :=
  concatenate S850000 0 [⟨S800000, dstRow ei⟩, ⟨S50000, iotaInDim S50000 32 0⟩] concatenates_S800000_S50000_S850000_d0

private theorem dstVec_apply (ei : IVec S2x800000 32) (e : Fin 850000) : dstVec ei (ix1 e) = dstW ei e := by
  unfold dstVec dstW
  by_cases h : e.val < 800000
  · rw [dif_pos h]
    refine (concatenate_apply_piece (t := S850000) (0 : Fin 1)
      ([⟨S800000, dstRow ei⟩, ⟨S50000, iotaInDim S50000 32 0⟩] : List ((s : Shape) × (s.Idx → BitVec 32)))
      concatenates_S800000_S50000_S850000_d0 (ix1 e) 0 Nat.zero_lt_two S800000 (dstRow ei) rfl rfl 0 rfl
      (ix1 (⟨e.val, h⟩ : Fin 800000)) (fun b hb => match b with | ⟨0, _⟩ => absurd rfl hb)
      (by show 0 + e.val = e.val; omega)).trans ?_
    exact dstRow_apply ei ⟨e.val, h⟩
  · rw [dif_neg h]
    have he := e.isLt
    refine (concatenate_apply_piece (t := S850000) (0 : Fin 1)
      ([⟨S800000, dstRow ei⟩, ⟨S50000, iotaInDim S50000 32 0⟩] : List ((s : Shape) × (s.Idx → BitVec 32)))
      concatenates_S800000_S50000_S850000_d0 (ix1 e) 1 Nat.one_lt_two S50000 (iotaInDim S50000 32 0) rfl rfl 800000 rfl
      (ix1 (⟨e.val - 800000, by omega⟩ : Fin 50000)) (fun b hb => match b with | ⟨0, _⟩ => absurd rfl hb)
      (by show 800000 + (e.val - 800000) = e.val; omega)).trans ?_
    rfl

/-- The in-degrees: ones scattered onto zeros at the destination words. -/
private def degVec (ei : IVec S2x800000 32) : FVec Ideal S50000 .f32 :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 (dstVec ei))
    (broadcastInDim S850000 ![] bcast_S_S850000 (constant (F := Ideal) S_ .f32 0x3F800000#32))

private theorem degVec_apply (ei : IVec S2x800000 32) (i : Fin 50000) : degVec ei (ix1 i) = deg ei i := by
  unfold degVec
  rw [hostScatterAdd_eq, ScatterAddVec.hostScatterAdd_vec_apply _ rfl rfl rfl rfl]
  rw [bcast_scalar_apply, constant_apply, Ideal.ofBits_zero_f32, zero_add]
  have hset : (Finset.univ.filter fun e : Fin 850000 =>
      (broadcastInDim S850000x1 ![0] bcast_S850000_S850000x1_0 (dstVec ei) (ix2 e (0 : Fin 1))).toInt = (i.val : Int))
      = lands ei i := by
    unfold lands
    refine Finset.filter_congr (fun e _ => ?_)
    rw [bcast_col_apply, dstVec_apply]
  rw [hset]
  unfold deg one32
  refine Finset.sum_congr rfl (fun e _ => ?_)
  rw [bcast_scalar_apply, constant_apply]

/-- The normalisation: the reciprocal root of the in-degree where it is positive, else zero. -/
private def dinvVec (ei : IVec S2x800000 32) : FVec Ideal S50000 .f32 :=
  select (cmpf .ogt (degVec ei) (broadcastInDim S50000 ![] bcast_S_S50000 (constant (F := Ideal) S_ .f32 0x00000000#32)))
    (Host.rsqrt (degVec ei))
    (broadcastInDim S50000 ![] bcast_S_S50000 (constant (F := Ideal) S_ .f32 0x00000000#32))

private theorem dinvVec_apply (ei : IVec S2x800000 32) (i : Fin 50000) : dinvVec ei (ix1 i) = dinv ei i := by
  unfold dinvVec dinv dinvOf
  rw [select_apply, cmpf_apply, hostRsqrt_apply, bcast_scalar_apply, constant_apply, Ideal.ofBits_zero_f32, degVec_apply]
  generalize deg ei i = x
  show Scalar.select (Ideal.cmp .ogt x 0) (Ideal.rsqrt x) 0 = _
  unfold Scalar.select Ideal.cmp
  by_cases h : 0 < x
  · rw [if_pos h, if_pos (by simp [h])]
  · rw [if_neg h, if_neg (by simp [h])]

/-! ## The stretches read at the buffers they write, from any contents -/

section Stretches
variable (V : Valuation τ sig (Elt Ideal))

private theorem after0_v10 : (StableHlo.after hostOps0 V (Proc.devRef .tc main_v10) : FVec Ideal S50000 .f32)
    = degVec (V (Proc.devRef .tc main_arg1)) := by
  after_results
  rfl

private theorem after0_v12 : (StableHlo.after hostOps0 V (Proc.devRef .tc main_v12) : IVec S50000 1)
    = cmpf .ogt (degVec (V (Proc.devRef .tc main_arg1)))
        (broadcastInDim S50000 ![] bcast_S_S50000 (constant (F := Ideal) S_ .f32 0x00000000#32)) := by
  after_results
  rfl

private theorem after0_v13 : (StableHlo.after hostOps0 V (Proc.devRef .tc main_v13) : FVec Ideal S50000 .f32)
    = Host.rsqrt (degVec (V (Proc.devRef .tc main_arg1))) := by
  after_results
  rfl

private theorem after0_cst2 : (StableHlo.after hostOps0 V (Proc.devRef .tc main_cst_2) : FVec Ideal S_ .f32)
    = constant (F := Ideal) S_ .f32 0x00000000#32 := by
  after_results

private theorem after01_v14 : (StableHlo.after hostOps0_1 V (Proc.devRef .tc main_v14) : FVec Ideal S50000 .f32)
    = select (V (Proc.devRef .tc main_v12) : IVec S50000 1) (V (Proc.devRef .tc main_v13) : FVec Ideal S50000 .f32)
        (broadcastInDim S50000 ![] bcast_S_S50000 (V (Proc.devRef .tc main_cst_2) : FVec Ideal S_ .f32)) := by
  after_results
  rfl

private theorem after02_v15 : (StableHlo.after hostOps0_2 V (Proc.devRef .tc main_v15) : FVec Ideal S50000x1 .f32)
    = shapeCast S50000x1 (V (Proc.devRef .tc main_v14) : FVec Ideal S50000 .f32) shapeCasts_S50000_S50000x1 := by
  after_results
  rfl

end Stretches

/-! ## Region 0's entry -/

theorem h0_arg0 (c : Dev nD) : vArg0 (V3 (F := Ideal) m ρ) c = mArg0 m c :=
  calc W3 (F := Ideal) m ρ c (Proc.devRef .tc main_arg0)
    _ = W2 m ρ c (Proc.devRef .tc main_arg0) := by host_keeps
    _ = W1 m ρ c (Proc.devRef .tc main_arg0) := by host_keeps
    _ = W0 m ρ c (Proc.devRef .tc main_arg0) := by host_keeps
    _ = m ((c : Thread nD τ).loc main_arg0) := rfl

theorem h0_arg3 (c : Dev nD) : vArg3 (V3 (F := Ideal) m ρ) c = mArg3 m c :=
  calc W3 (F := Ideal) m ρ c (Proc.devRef .tc main_arg3)
    _ = W2 m ρ c (Proc.devRef .tc main_arg3) := by host_keeps
    _ = W1 m ρ c (Proc.devRef .tc main_arg3) := by host_keeps
    _ = W0 m ρ c (Proc.devRef .tc main_arg3) := by host_keeps
    _ = m ((c : Thread nD τ).loc main_arg3) := rfl

/-- The normalisation column holds `dinv` of the edge array. -/
theorem h0_dinv (c : Dev nD) (i : Fin 50000) :
    vV15 (V3 (F := Ideal) m ρ) c (ix2 i (0 : Fin 1)) = dinv (mArg1 m c) i := by
  have e12 : (W1 (F := Ideal) m ρ c (Proc.devRef .tc main_v12) : IVec S50000 1)
      = cmpf .ogt (degVec (mArg1 m c))
          (broadcastInDim S50000 ![] bcast_S_S50000 (constant (F := Ideal) S_ .f32 0x00000000#32)) :=
    after0_v12 (W0 (F := Ideal) m ρ c)
  have e13 : (W1 (F := Ideal) m ρ c (Proc.devRef .tc main_v13) : FVec Ideal S50000 .f32)
      = Host.rsqrt (degVec (mArg1 m c)) :=
    after0_v13 (W0 (F := Ideal) m ρ c)
  have ecst : (W1 (F := Ideal) m ρ c (Proc.devRef .tc main_cst_2) : FVec Ideal S_ .f32)
      = constant (F := Ideal) S_ .f32 0x00000000#32 :=
    after0_cst2 (W0 (F := Ideal) m ρ c)
  have e14 : (W2 (F := Ideal) m ρ c (Proc.devRef .tc main_v14) : FVec Ideal S50000 .f32) = dinvVec (mArg1 m c) := by
    refine (after01_v14 (W1 (F := Ideal) m ρ c)).trans ?_
    rw [e12, e13, ecst]
    rfl
  show (StableHlo.after hostOps0_2 (W2 (F := Ideal) m ρ c) (Proc.devRef .tc main_v15) : FVec Ideal S50000x1 .f32)
    (ix2 i (0 : Fin 1)) = _
  rw [after02_v15, e14]
  rw [shapeCast_apply _ shapeCasts_S50000_S50000x1 (ix2 i (0 : Fin 1)) (ix1 i)
    (by rw [Shape.rowMajor_val_one, Shape.rowMajor_val_two]; show i.val = i.val * 1 + 0; omega)]
  exact dinvVec_apply _ i

/-! ## Region 3's entry -/

/-- Region 2's result array is untouched between region 2's exit and region 3's entry. -/
theorem h3_h2 (c : Dev nD) : vV40 (V9 (F := Ideal) m ρ) c = vV40 (V8 (F := Ideal) m ρ) c := by
  show StableHlo.after hostOps3 (W8 (F := Ideal) m ρ c) (Proc.devRef .tc main_v40) = W8 m ρ c (Proc.devRef .tc main_v40)
  host_keeps

/-! ## Region 4's entry -/

theorem h4_arg7 (c : Dev nD) : vArg7 (V11 (F := Ideal) m ρ) c = mArg7 m c :=
  ((W12_arr m ρ c 1).trans (((dat4 (V11 m ρ) c).arrAt_in 1 rfl _).trans (A_eq4 (V11 m ρ) c 1))).symm.trans
    (W12_main_arg7 m ρ c)

theorem h4_bias (c : Dev nD) (o : Fin 128) :
    vV52 (V11 (F := Ideal) m ρ) c (ix2 (0 : Fin 1) o) = mArg8 m c (ix1 o) := by
  have e : (W11 (F := Ideal) m ρ c (Proc.devRef .tc main_v52) : S1x128.Idx → EReal)
      = shapeCast S1x128 (m ((c : Thread nD τ).loc main_arg8) : S128.Idx → EReal) shapeCasts_S128_S1x128 := by
    rw [← arg8_W10 m ρ c]
    show StableHlo.after hostOps4 (W10 (F := Ideal) m ρ c) (Proc.devRef .tc main_v52) = _
    after_results
    rfl
  show (W11 (F := Ideal) m ρ c (Proc.devRef .tc main_v52) : S1x128.Idx → EReal) (ix2 (0 : Fin 1) o) = _
  rw [e]
  exact shapeCast_apply _ shapeCasts_S128_S1x128 (ix2 (0 : Fin 1) o) (ix1 o)
    (by rw [Shape.rowMajor_val_two, Shape.rowMajor_val_one]; show o.val = 0 * 128 + o.val; omega)

end Cert.KV

end
-- ==== Proof.LibGatherRow.lean ====
import Idealize.ShloMosaic.PureOps.ShapeOps
import Idealize.ShloMosaic.Lib.ValueIdx

/-! # A gather that takes rows of a table, read at an index

`Host.gather d x idx j = x (d.operandIdx j idx)`: on each operand axis the operand index is the clamped start plus the
batching coordinate plus the offset coordinate. Worked out here, at any extents, for the rows of a rank-2 table: operand
`[N, C]`, start indices `[K, 1]` (the index vector on axis 1), result `[K, C]`; the row axis is gathered (collapsed, one
row per start index) and the column axis is the one offset axis, read whole. Result entry `(k, j)` is the table's entry
`(r, j)` with `r` the start index `idx[k, 0]` read as a SIGNED integer and CLAMPED into `[0, N − 1]`
(`gather_rowTake_apply`); for a start index already inside the table the clamp does nothing
(`gather_rowTake_apply_of_lt`). Both are stated for ANY dimension-number record with these fields, the field equations
taken as hypotheses (each is `rfl` at a literal record), and again at the literal record `rowTakeDims`. -/

namespace Idealize.ShloMosaic.GatherRow

open Idealize.ShloMosaic Idealize.ShloMosaic.ValueIdx

/-- A signed word that is non-negative and below `N`, clamped into `[0, N - 1]`, is its own value. -/
theorem clamp_of_lt {w : Nat} (v : BitVec w) {N : Nat} (h0 : 0 ≤ v.toInt) (hN : v.toInt < (N : Int)) :
    min v.toInt.toNat (N - 1) = v.toInt.toNat := by
  apply Nat.min_eq_left
  omega

section
variable {α : Type}

/-- The dimension numbers of a row take: operand `[N, C]`, start indices `[K, 1]`, result `[K, C]`; axis 0 of the operand
    is gathered (collapsed, slice size 1), axis 1 is the offset axis (slice size `C`). Their conditions `wf` are decided
    on a program's literal shapes. -/
abbrev rowTakeDims (N K C : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- The operand index of a row take on the row axis: the start index `idx[k, 0]` read signed and clamped into
    `[0, N − 1]` (the axis is in the start index map, its slice size is `1`), with no batching and no offset coordinate
    (the axis is collapsed). -/
theorem operandIdx_row {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (0 : Fin 2) + (rowTakeDims N K C wf).batchCoord (ix2 k j) (0 : Fin 2)
      + (rowTakeDims N K C wf).offCoord (ix2 k j) (0 : Fin 2) = min (idx (ix2 k (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowTakeDims N K C wf).startIndexMap from List.mem_singleton.mpr rfl)]
  have hsi : (rowTakeDims N K C wf).siIdx (ix2 k j) ⟨List.idxOf (0 : Fin 2) (rowTakeDims N K C wf).startIndexMap,
      List.idxOf_lt_length_iff.2 (List.mem_singleton.mpr rfl)⟩ = ix2 k (0 : Fin 1) := by
    funext e; refine Fin.ext ?_
    match e with
    | ⟨0, _⟩ => rfl
    | ⟨1, _⟩ => rfl
  rw [hsi]
  rfl

/-- The operand index of a row take on the column axis: the result's own column `j` (the axis is the one the offset axis
    reads), with start `0` (the start index map does not name the axis) and no batching coordinate. -/
theorem operandIdx_col {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (1 : Fin 2) + (rowTakeDims N K C wf).batchCoord (ix2 k j) (1 : Fin 2)
      + (rowTakeDims N K C wf).offCoord (ix2 k j) (1 : Fin 2) = j.val := by
  have h10 : (1 : Fin 2) ∉ [(0 : Fin 2)] := by decide
  have hst : (rowTakeDims N K C wf).start (ix2 k j) idx (1 : Fin 2) = 0 := by
    unfold GatherDims.start
    rw [dif_neg (show ¬ (1 : Fin 2) ∈ (rowTakeDims N K C wf).startIndexMap from h10)]
  have hoff : (rowTakeDims N K C wf).offCoord (ix2 k j) (1 : Fin 2) = j.val := by
    unfold GatherDims.offCoord
    rw [dif_pos ((GatherDims.mem_sKept _ _).mpr ⟨h10, List.not_mem_nil⟩)]
    rfl
  rw [GatherDims.batchCoord_eq_zero _ _ _ List.not_mem_nil, hst, hoff, Nat.add_zero, Nat.zero_add]

/-- THE ROW TAKE AT THE LITERAL RECORD, READ AT `(k, j)`: the operand's entry `(r, j)`, `r` the start index `idx[k, 0]`
    read signed and clamped into `[0, N − 1]`: the operand index coordinate by coordinate. -/
theorem gather_rowTakeDims_apply {N K C w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (j : Fin C) :
    Host.gather (rowTakeDims N K C wf) x idx (ix2 k j)
      = x (ix2 ⟨min (idx (ix2 k (0 : Fin 1))).toInt.toNat (N - 1), by omega⟩ j) := by
  unfold Host.gather
  congr 1
  funext a
  refine Fin.ext ?_
  match a with
  | ⟨0, _⟩ => exact operandIdx_row wf idx k j
  | ⟨1, _⟩ => exact operandIdx_col wf idx k j

/-- THE ROW TAKE AT ANY RECORD WITH THESE FIELDS, READ AT `(k, j)`: a record is its fields, so it is the literal one. -/
theorem gather_rowTake_apply {N K C w : Nat} (hN : 0 < N)
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C) :
    Host.gather d x idx (ix2 k j)
      = x (ix2 ⟨min (idx (ix2 k (0 : Fin 1))).toInt.toNat (N - 1), by omega⟩ j) := by
  obtain ⟨od, cd, ob, sb, sm, iv, ss, wf⟩ := d
  simp only at ho hc hb hsb hm hv hs
  subst ho hc hb hsb hm hv hs
  exact gather_rowTakeDims_apply hN wf x idx k j

/-- The same for a start index inside the table: the clamp does nothing, and the row read is the one the index names. -/
theorem gather_rowTake_apply_of_lt {N K C w : Nat}
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C)
    (h0 : 0 ≤ (idx (ix2 k (0 : Fin 1))).toInt) (hlt : (idx (ix2 k (0 : Fin 1))).toInt < (N : Int)) :
    Host.gather d x idx (ix2 k j) = x (ix2 ⟨(idx (ix2 k (0 : Fin 1))).toInt.toNat, by omega⟩ j) := by
  rw [gather_rowTake_apply (by omega) d ho hc hb hsb hm hv hs x idx k j]
  congr 2
  exact Fin.ext (clamp_of_lt _ h0 hlt)

end

end Idealize.ShloMosaic.GatherRow
-- ==== Proof.LibScatterAddRows.lean ====
import Idealize.ShloMosaic.PureOps.Ideal
import Idealize.ShloMosaic.PureOps.Contract
import Idealize.ShloMosaic.Lib.ValueIdx

/-! # A float scatter-add of rows, read at an index

The accumulating float scatter `Host.scatterAdd d x idx upd` at the ideal values is, at every operand element, that
element plus the sum of the update elements that land on it. Worked out here, at any extents, for ROWS added into a
rank-2 operand: operand `[N, C]`, scatter indices `[K, 1]` (the index vector on axis 1), updates `[K, C]`; update row `e`
is added, whole, to the operand row named by the scatter index `idx[e, 0]` read as a SIGNED integer, and is dropped when
that integer is not a row of the operand (jax's `.at[rows].add(updates)`, `jax.ops.segment_sum`). So operand entry
`(i, j)` receives exactly the entries `(e, j)` of the update rows `e` whose scatter index is `i`
(`hostScatterAdd_rows_apply`). Stated at the literal dimension-number record `rowAddDims` and for ANY record with these
fields (the field equations are `rfl` at a printed record). -/

open scoped BigOperators

namespace Idealize.ShloMosaic.ScatterAddRows

open Idealize.ShloMosaic Idealize.ShloMosaic.ValueIdx

/-- The dimension numbers of a row scatter: operand `[N, C]`, scatter indices `[K, 1]`, updates `[K, C]`; the update's
    axis 1 is its window axis and goes to the operand's axis 1, the operand's axis 0 is the inserted (scattered) axis. -/
abbrev rowAddDims (N K C : Nat)
    (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

section
variable {N K C w : Nat} (wf : ScatterDims.WF ⟨2, ![N, C]⟩ ⟨2, ![K, 1]⟩ ⟨2, ![K, C]⟩ [1] [0] [0] 1)
  (idx : IVec ⟨2, ![K, 1]⟩ w) (e : Fin K) (b : Fin C)

/-- On the row axis the window of update `(e, b)` starts at the scatter index `idx[e, 0]`, read signed. -/
theorem start_row : (rowAddDims N K C wf).start (ix2 e b) idx (0 : Fin 2) = (idx (ix2 e (0 : Fin 1))).toInt := by
  unfold ScatterDims.start
  rw [dif_pos (show (0 : Fin 2) ∈ (rowAddDims N K C wf).scatterDimsToOperandDims from List.mem_singleton.mpr rfl)]
  have hsi : (rowAddDims N K C wf).siIdx (ix2 e b) ⟨List.idxOf (0 : Fin 2) (rowAddDims N K C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On the column axis the window starts at `0`: the scatter indices do not name that axis. -/
theorem start_col : (rowAddDims N K C wf).start (ix2 e b) idx (1 : Fin 2) = 0 := by
  unfold ScatterDims.start
  rw [dif_neg (show ¬ (1 : Fin 2) ∈ (rowAddDims N K C wf).scatterDimsToOperandDims from (by decide : ¬ (1 : Fin 2) ∈ [(0 : Fin 2)]))]

/-- The operand's axes that are not inserted: the column axis alone. -/
theorem sKept_eq : (rowAddDims N K C wf).sKept = [(1 : Fin 2)] := rfl

/-- The row axis is inserted: no window coordinate on it. -/
theorem window_row : (rowAddDims N K C wf).window (ix2 e b) (0 : Fin 2) = 0 := by
  unfold ScatterDims.window
  have h01 : (0 : Fin 2) ∉ [(1 : Fin 2)] := by decide
  rw [dif_neg (show ¬ (0 : Fin 2) ∈ (rowAddDims N K C wf).sKept from h01)]

/-- On the column axis the window coordinate is the update's own column. -/
theorem window_col : (rowAddDims N K C wf).window (ix2 e b) (1 : Fin 2) = b.val := by
  unfold ScatterDims.window
  have h11 : (1 : Fin 2) ∈ [(1 : Fin 2)] := by decide
  rw [dif_pos (show (1 : Fin 2) ∈ (rowAddDims N K C wf).sKept from h11)]
  rfl

/-- WHERE AN UPDATE LANDS: update `(e, b)` lands on operand entry `(i, j)` exactly when its scatter index is row `i`
    and its column is `j`. -/
theorem resultIdx?_eq_some_iff (i : Fin N) (j : Fin C) :
    (rowAddDims N K C wf).resultIdx? (ix2 e b) idx = some (ix2 i j)
      ↔ (idx (ix2 e (0 : Fin 1))).toInt = (i.val : Int) ∧ b = j := by
  have hi : i.val < N := i.isLt
  have hb : b.val < C := b.isLt
  unfold ScatterDims.resultIdx?
  split
  · rename_i h
    have h0 := h 0
    rw [start_row, window_row] at h0
    rw [Option.some.injEq]
    constructor
    · intro heq
      have e0 := congrArg (fun f : (⟨2, ![N, C]⟩ : Shape).Idx => (f (0 : Fin 2)).val) heq
      have e1 := congrArg (fun f : (⟨2, ![N, C]⟩ : Shape).Idx => (f (1 : Fin 2)).val) heq
      simp only [start_row, start_col, window_row, window_col] at e0 e1
      refine ⟨?_, Fin.ext ?_⟩
      · have : ((idx (ix2 e (0 : Fin 1))).toInt + ((0 : Nat) : Int)).toNat = i.val := e0
        omega
      · have : ((0 : Int) + (b.val : Int)).toNat = j.val := e1
        omega
    · rintro ⟨hrow, rfl⟩
      funext a; refine Fin.ext ?_
      match a with
      | ⟨0, _⟩ =>
        show ((rowAddDims N K C wf).start (ix2 e b) idx (0 : Fin 2) + (rowAddDims N K C wf).window (ix2 e b) (0 : Fin 2)).toNat = i.val
        rw [start_row, window_row]; omega
      | ⟨1, _⟩ =>
        show ((rowAddDims N K C wf).start (ix2 e b) idx (1 : Fin 2) + (rowAddDims N K C wf).window (ix2 e b) (1 : Fin 2)).toNat = b.val
        rw [start_col, window_col]; omega
  · rename_i h
    constructor
    · intro heq; exact absurd heq (by simp)
    · rintro ⟨hrow, rfl⟩
      exfalso; apply h; intro a
      match a with
      | ⟨0, _⟩ =>
        show 0 ≤ (rowAddDims N K C wf).start (ix2 e b) idx (0 : Fin 2) + (rowAddDims N K C wf).window (ix2 e b) (0 : Fin 2)
          ∧ (rowAddDims N K C wf).start (ix2 e b) idx (0 : Fin 2) + (rowAddDims N K C wf).window (ix2 e b) (0 : Fin 2) < (N : Int)
        rw [start_row, window_row]; omega
      | ⟨1, _⟩ =>
        show 0 ≤ (rowAddDims N K C wf).start (ix2 e b) idx (1 : Fin 2) + (rowAddDims N K C wf).window (ix2 e b) (1 : Fin 2)
          ∧ (rowAddDims N K C wf).start (ix2 e b) idx (1 : Fin 2) + (rowAddDims N K C wf).window (ix2 e b) (1 : Fin 2) < (C : Int)
        rw [start_col, window_col]; omega

end

/-- THE ROW SCATTER-ADD AT THE LITERAL RECORD, READ AT `(i, j)`: the operand's entry plus the sum, over the update rows
    `e` whose scatter index is `i`, of the update's entry `(e, j)`. -/
theorem hostScatterAdd_rowAddDims_apply {N K C w : Nat}
    (wf : ScatterDims.WF ⟨2, ![N, C]⟩ ⟨2, ![K, 1]⟩ ⟨2, ![K, C]⟩ [1] [0] [0] 1)
    (x : (⟨2, ![N, C]⟩ : Shape).Idx → EReal) (idx : IVec ⟨2, ![K, 1]⟩ w) (upd : (⟨2, ![K, C]⟩ : Shape).Idx → EReal)
    (i : Fin N) (j : Fin C) :
    Ideal.hostScatterAdd (rowAddDims N K C wf) x idx upd (ix2 i j)
      = x (ix2 i j) + ∑ e ∈ Finset.univ.filter (fun e : Fin K => (idx (ix2 e (0 : Fin 1))).toInt = (i.val : Int)), upd (ix2 e j) := by
  unfold Ideal.hostScatterAdd
  congr 1
  rw [Finset.sum_filter, sum_idx2, Finset.sum_filter]
  refine Finset.sum_congr rfl fun e _ => ?_
  by_cases ht : (idx (ix2 e (0 : Fin 1))).toInt = (i.val : Int)
  · rw [if_pos ht, Finset.sum_eq_single j]
    · rw [if_pos ((resultIdx?_eq_some_iff wf idx e j i j).mpr ⟨ht, rfl⟩)]
    · intro b _ hbj
      rw [if_neg (fun h => hbj ((resultIdx?_eq_some_iff wf idx e b i j).mp h).2)]
    · intro h; exact absurd (Finset.mem_univ j) h
  · rw [if_neg ht]
    refine Finset.sum_eq_zero fun b _ => ?_
    rw [if_neg (fun h => ht ((resultIdx?_eq_some_iff wf idx e b i j).mp h).1)]

/-- THE ROW SCATTER-ADD AT ANY RECORD WITH THESE FIELDS, READ AT `(i, j)`: a record is its fields, so it is the literal
    one. -/
theorem hostScatterAdd_rows_apply {N K C w : Nat} (d : ScatterDims ⟨2, ![N, C]⟩ ⟨2, ![K, 1]⟩ ⟨2, ![K, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![K, 1]⟩ w) (upd : (⟨2, ![K, C]⟩ : Shape).Idx → EReal)
    (i : Fin N) (j : Fin C) :
    Ideal.hostScatterAdd d x idx upd (ix2 i j)
      = x (ix2 i j) + ∑ e ∈ Finset.univ.filter (fun e : Fin K => (idx (ix2 e (0 : Fin 1))).toInt = (i.val : Int)), upd (ix2 e j) := by
  obtain ⟨uw, iw, sd, iv, wf⟩ := d
  simp only at hu hi hs hv
  subst hu hi hs hv
  exact hostScatterAdd_rowAddDims_apply wf x idx upd i j

end Idealize.ShloMosaic.ScatterAddRows
-- ==== Proof.KHostB.lean ====
import proofs.«404828_j12489764896775_3_alg».proof.Proof.KDefs
import proofs.«404828_j12489764896775_3_alg».proof.Proof.LibGatherRow
import proofs.«404828_j12489764896775_3_alg».proof.Proof.LibScatterAddRows
import Idealize.ShloMosaic.Lib.StableHlo.Predicate
import Idealize.ShloMosaic.Lib.ValueLayout
import Idealize.ShloMosaic.Lib.Pipeline.Value
import Idealize.ShloMosaic.PureOps.Ideal.Laws

/-! # The host operations between the regions: rows gathered at the source words and summed at the destination words -/

open scoped BigOperators

noncomputable section

namespace Cert.KV

open Idealize.ShloMosaic Idealize.ShloMosaic.TcCoe Idealize.ShloMosaic.ValueIdx Idealize.SL.Sem
open Cert.KernelIdeal Cert.KernelIdeal.Gen

open Cert.Spec

variable (m : Mem) (ρ : Dev nD → PrngReg)

/-- A stretch of host operations leaves a buffer none of them writes as it was. -/
local macro "not_written" ops:ident : tactic => `(tactic|
  (refine StableHlo.after_of_forall_not_mem _ _ (List.forall_iff_forall_mem.mp ?_)
   simp only [$ops:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-! ## The operations read at an index -/

/-- A vector as an `[n, 1]` column reads, at `(e, 0)`, the vector at `e`. -/
private theorem col_apply {α : Type} (h : S850000.BroadcastsInDim S850000x1 (![0] : Fin 1 → Fin S850000x1.rank))
    (v : S850000.Idx → α) (e : Fin 850000) :
    broadcastInDim S850000x1 ![0] h v (ix2 e (0 : Fin 1)) = v (ix1 e) :=
  broadcastInDim_apply _ h v _ (ix1 e) (fun a => match a with
    | ⟨0, _⟩ => by show e.val = if (850000 : Nat) = 1 then 0 else e.val; rw [if_neg (by decide)])

/-- A scalar spread over a shape reads the scalar everywhere. -/
private theorem scalar_apply {α : Type} {t : Shape} (h : S_.BroadcastsInDim t (![] : Fin 0 → Fin t.rank))
    (v : S_.Idx → α) (j : t.Idx) : broadcastInDim t ![] h v j = v ix0 :=
  broadcastInDim_apply _ h v j ix0 (fun a => a.elim0)

/-- The signed compare with zero, the add and the select are the wrap of a negative word. -/
private theorem wrap_eq (v : BitVec 32) :
    Scalar.select (IntOp.cmpi .slt v 0#32) (IntOp.addi v 50000#32) v = wrapW v := by
  unfold wrapW Scalar.select IntOp.cmpi IntOp.addi
  have h0 : (0#32 : BitVec 32).toInt = 0 := by decide
  by_cases h : v.toInt < 0
  · have hs : v.slt 0#32 = true := by simp only [BitVec.slt, h0, decide_eq_true_eq]; exact h
    rw [if_pos h, hs]; rfl
  · have hs : v.slt 0#32 = false := by simp only [BitVec.slt, h0, decide_eq_false_iff_not]; exact h
    rw [if_neg h, hs]; rfl

/-- One row of the edge array followed by the self-loop words, read at an edge. -/
private theorem words_apply (o : Nat) (ho : o < 2) (ei : I2 2 800000)
    (hs : S2x800000.Slices ![o, 0] S1x800000) (hc : S1x800000.ShapeCasts S800000)
    (hcat : Shape.Concatenates [S800000, S50000] S850000 0) (e : Fin 850000) :
    concatenate S850000 0 [⟨S800000, shapeCast S800000 (extractStridedSlice S1x800000 ![o, 0] ei hs) hc⟩,
        ⟨S50000, (iotaInDim S50000 32 0 : IVec S50000 32)⟩] hcat (ix1 e)
      = if h : e.val < 800000 then ei (ix2 (⟨o, ho⟩ : Fin 2) ⟨e.val, h⟩) else BitVec.ofNat 32 (e.val - 800000) := by
  by_cases h : e.val < 800000
  · rw [dif_pos h]
    refine (concatenate_apply_piece (0 : Fin S850000.rank)
      [⟨S800000, shapeCast S800000 (extractStridedSlice S1x800000 ![o, 0] ei hs) hc⟩,
        ⟨S50000, (iotaInDim S50000 32 0 : IVec S50000 32)⟩] hcat (ix1 e) 0 (Nat.zero_lt_succ _) S800000 _ rfl rfl 0 rfl
      (ix1 (⟨e.val, h⟩ : Fin 800000)) ?_ ?_).trans ?_
    · intro b hb; exact absurd (Subsingleton.elim _ _) hb
    · show 0 + e.val = e.val; omega
    · rw [shapeCast_1a_a_apply]
      exact slice2_axis0_apply o ei hs (0 : Fin 1) ⟨e.val, h⟩ ⟨o, ho⟩ rfl
  · rw [dif_neg h]
    have he := e.isLt
    refine (concatenate_apply_piece (0 : Fin S850000.rank)
      [⟨S800000, shapeCast S800000 (extractStridedSlice S1x800000 ![o, 0] ei hs) hc⟩,
        ⟨S50000, (iotaInDim S50000 32 0 : IVec S50000 32)⟩] hcat (ix1 e) 1 (Nat.succ_lt_succ (Nat.zero_lt_succ _)) S50000 _ rfl rfl 800000 rfl
      (ix1 (⟨e.val - 800000, by omega⟩ : Fin 50000)) ?_ ?_).trans ?_
    · intro b hb; exact absurd (Subsingleton.elim _ _) hb
    · show 800000 + (e.val - 800000) = e.val; omega
    · rfl

/-- The row scatter-add of the aggregation read at `(i, j)`. -/
private theorem scatterRows_apply (x : FVec Ideal S50000x256 .f32) (idx : IVec S850000x1 32)
    (upd : FVec Ideal S850000x256 .f32) (i : Fin 50000) (j : Fin 256) :
    Host.scatterAdd scatter_S50000x256_S850000x1_S850000x256_1_0_0_1 x idx upd (ix2 i j)
      = x (ix2 i j) + ∑ e ∈ Finset.univ.filter (fun e : Fin 850000 => (idx (ix2 e (0 : Fin 1))).toInt = (i.val : Int)),
          upd (ix2 e j) :=
  ScatterAddRows.hostScatterAdd_rows_apply scatter_S50000x256_S850000x1_S850000x256_1_0_0_1 rfl rfl rfl rfl x idx upd i j

/-- The row gather of the aggregation read at `(e, j)`. -/
private theorem gatherRows_apply (x : FVec Ideal S50000x256 .f32) (idx : IVec S850000x1 32) (e : Fin 850000) (j : Fin 256) :
    Host.gather gather_S50000x256_S850000x1_S850000x256_1_0_n_n_0_1_1256 x idx (ix2 e j)
      = x (ix2 (⟨min (idx (ix2 e (0 : Fin 1))).toInt.toNat 49999, by omega⟩ : Fin 50000) j) :=
  GatherRow.gather_rowTake_apply (Nat.zero_lt_succ _) gather_S50000x256_S850000x1_S850000x256_1_0_n_n_0_1_1256
    rfl rfl rfl rfl rfl rfl rfl x idx e j

/-- The aggregation's operations as one function of the table, the source words and the destination words. -/
private def aggTerm (X : FVec Ideal S50000x256 .f32) (s t : IVec S850000 32) : FVec Ideal S50000x256 .f32 :=
  Host.scatterAdd scatter_S50000x256_S850000x1_S850000x256_1_0_0_1
    (broadcastInDim S50000x256 ![] bcast_S_S50000x256 (constant (F := Ideal) S_ .f32 0x00000000#32))
    (broadcastInDim S850000x1 ![0] bcast_S850000_S850000x1_0 t)
    (Host.gather gather_S50000x256_S850000x1_S850000x256_1_0_n_n_0_1_1256 X
      (broadcastInDim S850000x1 ![0] bcast_S850000_S850000x1_0
        (select (cmpi .slt s (broadcastInDim S850000 ![] bcast_S_S850000 (constantI S_ 32 0#32)))
          (addi s (broadcastInDim S850000 ![] bcast_S_S850000 (constantI S_ 32 50000#32))) s)))

/-- Entry `(d, f)` of the aggregation: the table's rows at the wrapped source words, summed over the edges whose
    destination word is `d`. -/
private theorem aggTerm_apply (X : FVec Ideal S50000x256 .f32) (s t : IVec S850000 32) (d : Fin 50000) (f : Fin 256) :
    aggTerm X s t (ix2 d f)
      = ∑ e ∈ Finset.univ.filter (fun e : Fin 850000 => (t (ix1 e)).toInt = (d.val : Int)),
          X (ix2 (rowOf (s (ix1 e))) f) := by
  unfold aggTerm
  rw [scatterRows_apply, scalar_apply, constant_apply, Ideal.ofBits_zero_f32, zero_add]
  refine Finset.sum_congr (Finset.filter_congr fun e _ => ?_) fun e _ => ?_
  · rw [col_apply]
  · rw [gatherRows_apply]
    refine congrArg (fun r => X (ix2 r f)) (Fin.ext ?_)
    show min _ 49999 = min (wrapW (s (ix1 e))).toInt.toNat 49999
    rw [col_apply]
    show min (Scalar.select (IntOp.cmpi .slt (s (ix1 e)) 0#32) (IntOp.addi (s (ix1 e)) 50000#32) (s (ix1 e))).toInt.toNat 49999 = _
    rw [wrap_eq]

/-- With the source and destination words of an edge array, the aggregation's term is `aggK`. -/
private theorem aggTerm_eq_aggK (X : FVec Ideal S50000x256 .f32) (s t : IVec S850000 32) (ei : I2 2 800000)
    (hs : ∀ e : Fin 850000, s (ix1 e) = srcW ei e) (ht : ∀ e : Fin 850000, t (ix1 e) = dstW ei e)
    (d : Fin 50000) (f : Fin 256) :
    aggTerm X s t (ix2 d f) = aggK ei (fun i f => X (ix2 i f)) d f := by
  rw [aggTerm_apply]
  unfold aggK lands
  refine Finset.sum_congr (Finset.filter_congr fun e _ => ?_) fun e _ => ?_
  · rw [ht]
  · rw [hs]

/-! ## The edge words persist from the first stretch of host operations -/

/-- The source words: row 0 of the edge array, then the self-loop words. -/
private theorem W1_v3_apply (c : Dev nD) (e : Fin 850000) :
    (W1 m ρ c (Proc.devRef .tc main_v3) : S850000.Idx → BitVec 32) (ix1 e) = srcW (mArg1 m c) e := by
  have h : (W1 m ρ c (Proc.devRef .tc main_v3) : S850000.Idx → BitVec 32)
      = concatenate S850000 0 [⟨S800000, shapeCast S800000 (extractStridedSlice S1x800000 ![0, 0]
            (W0 m ρ c (Proc.devRef .tc main_arg1) : S2x800000.Idx → BitVec 32) slices_S2x800000_S1x800000_0_0)
            shapeCasts_S1x800000_S800000⟩,
          ⟨S50000, (iotaInDim S50000 32 0 : IVec S50000 32)⟩] concatenates_S800000_S50000_S850000_d0 := by
    show StableHlo.after hostOps0 (W0 m ρ c) (Proc.devRef .tc main_v3) = _
    after_results
    rfl
  rw [h]
  exact words_apply 0 (by omega) _ _ _ _ e

/-- The destination words: row 1 of the edge array, then the self-loop words. -/
private theorem W1_v6_apply (c : Dev nD) (e : Fin 850000) :
    (W1 m ρ c (Proc.devRef .tc main_v6) : S850000.Idx → BitVec 32) (ix1 e) = dstW (mArg1 m c) e := by
  have h : (W1 m ρ c (Proc.devRef .tc main_v6) : S850000.Idx → BitVec 32)
      = concatenate S850000 0 [⟨S800000, shapeCast S800000 (extractStridedSlice S1x800000 ![1, 0]
            (W0 m ρ c (Proc.devRef .tc main_arg1) : S2x800000.Idx → BitVec 32) slices_S2x800000_S1x800000_1_0)
            shapeCasts_S1x800000_S800000⟩,
          ⟨S50000, (iotaInDim S50000 32 0 : IVec S50000 32)⟩] concatenates_S800000_S50000_S850000_d0 := by
    show StableHlo.after hostOps0 (W0 m ρ c) (Proc.devRef .tc main_v6) = _
    after_results
    rfl
  rw [h]
  exact words_apply 1 (by omega) _ _ _ _ e

private theorem W4_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by not_written hostOps0_2
    _ = W1 m ρ c (Proc.devRef .tc main_v3) := by not_written hostOps0_1

private theorem W4_v6 (c : Dev nD) : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := by not_written hostOps0_2
    _ = W1 m ρ c (Proc.devRef .tc main_v6) := by not_written hostOps0_1

private theorem W4_v3_apply (c : Dev nD) (e : Fin 850000) :
    (W4 m ρ c (Proc.devRef .tc main_v3) : S850000.Idx → BitVec 32) (ix1 e) = srcW (mArg1 m c) e := by
  rw [W4_v3]; exact W1_v3_apply m ρ c e

private theorem W4_v6_apply (c : Dev nD) (e : Fin 850000) :
    (W4 m ρ c (Proc.devRef .tc main_v6) : S850000.Idx → BitVec 32) (ix1 e) = dstW (mArg1 m c) e := by
  rw [W4_v6]; exact W1_v6_apply m ρ c e

/-! ## Region 1's entry -/

/-- The first aggregation: region 0's result rows gathered along the edges and summed where the edges land. -/
theorem h1_agg (c : Dev nD) (d : Fin 50000) (f : Fin 256) :
    vV26 (V5 (F := Ideal) m ρ) c (ix2 d f)
      = aggK (mArg1 m c) (fun i f => vV16 (V4 (F := Ideal) m ρ) c (ix2 i f)) d f := by
  have e : (W5 m ρ c (Proc.devRef .tc main_v26) : S50000x256.Idx → EReal)
      = aggTerm (W4 m ρ c (Proc.devRef .tc main_v16)) (W4 m ρ c (Proc.devRef .tc main_v3))
          (W4 m ρ c (Proc.devRef .tc main_v6)) := by
    show StableHlo.after hostOps1 (W4 m ρ c) (Proc.devRef .tc main_v26) = _
    after_results
    rfl
  exact (congrFun e (ix2 d f)).trans
    (aggTerm_eq_aggK _ _ _ (mArg1 m c) (W4_v3_apply m ρ c) (W4_v6_apply m ρ c) d f)
theorem h1_dinv (c : Dev nD) : vV15 (V5 (F := Ideal) m ρ) c = vV15 (V3 (F := Ideal) m ρ) c := by
  show W5 m ρ c (Proc.devRef .tc main_v15) = W3 m ρ c (Proc.devRef .tc main_v15)
  calc W5 m ρ c (Proc.devRef .tc main_v15)
    _ = W4 m ρ c (Proc.devRef .tc main_v15) := by not_written hostOps1
    _ = W3 m ρ c (Proc.devRef .tc main_v15) :=
        (W4_arr m ρ c 2).trans (((dat0 (V3 m ρ) c).arrAt_in 2 rfl _).trans (A_eq0 (V3 m ρ) c 2))

/-- An argument that no operation before region 1 writes and region 0 does not hold is as launched. -/
private theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by not_written hostOps0_2
    _ = W1 m ρ c (Proc.devRef .tc main_arg4) := by not_written hostOps0_1
    _ = W0 m ρ c (Proc.devRef .tc main_arg4) := by not_written hostOps0
    _ = m ((c : Thread nD τ).loc main_arg4) := rfl

theorem h1_bias (c : Dev nD) (k : Fin 256) :
    vV27 (V5 (F := Ideal) m ρ) c (ix2 (0 : Fin 1) k) = mArg4 m c (ix1 k) := by
  have e : (W5 m ρ c (Proc.devRef .tc main_v27) : S1x256.Idx → EReal)
      = shapeCast S1x256 (W4 m ρ c (Proc.devRef .tc main_arg4) : S256.Idx → EReal) shapeCasts_S256_S1x256 := by
    show StableHlo.after hostOps1 (W4 m ρ c) (Proc.devRef .tc main_v27) = _
    after_results
    rfl
  show (W5 m ρ c (Proc.devRef .tc main_v27) : S1x256.Idx → EReal) (ix2 (0 : Fin 1) k) = _
  rw [e, W4_main_arg4]
  exact shapeCast_a_1a_apply _ shapeCasts_S256_S1x256 0 k

theorem h1_arg5 (c : Dev nD) : vArg5 (V5 (F := Ideal) m ρ) c = mArg5 m c := by
  show W5 m ρ c (Proc.devRef .tc main_arg5) = m ((c : Thread nD τ).loc main_arg5)
  calc W5 m ρ c (Proc.devRef .tc main_arg5)
    _ = W4 m ρ c (Proc.devRef .tc main_arg5) := by not_written hostOps1
    _ = W3 m ρ c (Proc.devRef .tc main_arg5) := W4_of_ne m ρ c main_arg5 (by decide)
    _ = W2 m ρ c (Proc.devRef .tc main_arg5) := by not_written hostOps0_2
    _ = W1 m ρ c (Proc.devRef .tc main_arg5) := by not_written hostOps0_1
    _ = W0 m ρ c (Proc.devRef .tc main_arg5) := by not_written hostOps0
    _ = m ((c : Thread nD τ).loc main_arg5) := rfl

/-! ## Region 2's entry -/

private theorem W6_v3_apply (c : Dev nD) (e : Fin 850000) :
    (W6 m ρ c (Proc.devRef .tc main_v3) : S850000.Idx → BitVec 32) (ix1 e) = srcW (mArg1 m c) e := by
  have h : W6 m ρ c (Proc.devRef .tc main_v3) = W4 m ρ c (Proc.devRef .tc main_v3) :=
    calc W6 m ρ c (Proc.devRef .tc main_v3)
      _ = W5 m ρ c (Proc.devRef .tc main_v3) := W6_of_ne m ρ c main_v3 (by decide)
      _ = W4 m ρ c (Proc.devRef .tc main_v3) := by not_written hostOps1
  rw [h]; exact W4_v3_apply m ρ c e

private theorem W6_v6_apply (c : Dev nD) (e : Fin 850000) :
    (W6 m ρ c (Proc.devRef .tc main_v6) : S850000.Idx → BitVec 32) (ix1 e) = dstW (mArg1 m c) e := by
  have h : W6 m ρ c (Proc.devRef .tc main_v6) = W4 m ρ c (Proc.devRef .tc main_v6) :=
    calc W6 m ρ c (Proc.devRef .tc main_v6)
      _ = W5 m ρ c (Proc.devRef .tc main_v6) := W6_of_ne m ρ c main_v6 (by decide)
      _ = W4 m ρ c (Proc.devRef .tc main_v6) := by not_written hostOps1
  rw [h]; exact W4_v6_apply m ρ c e

/-- The second aggregation, of region 1's result rows. -/
theorem h2_agg (c : Dev nD) (d : Fin 50000) (f : Fin 256) :
    vV38 (V7 (F := Ideal) m ρ) c (ix2 d f)
      = aggK (mArg1 m c) (fun i f => vV28 (V6 (F := Ideal) m ρ) c (ix2 i f)) d f := by
  have e : (W7 m ρ c (Proc.devRef .tc main_v38) : S50000x256.Idx → EReal)
      = aggTerm (W6 m ρ c (Proc.devRef .tc main_v28)) (W6 m ρ c (Proc.devRef .tc main_v3))
          (W6 m ρ c (Proc.devRef .tc main_v6)) := by
    show StableHlo.after hostOps2 (W6 m ρ c) (Proc.devRef .tc main_v38) = _
    after_results
    rfl
  exact (congrFun e (ix2 d f)).trans
    (aggTerm_eq_aggK _ _ _ (mArg1 m c) (W6_v3_apply m ρ c) (W6_v6_apply m ρ c) d f)

theorem h2_dinv (c : Dev nD) : vV15 (V7 (F := Ideal) m ρ) c = vV15 (V3 (F := Ideal) m ρ) c := by
  show W7 m ρ c (Proc.devRef .tc main_v15) = W3 m ρ c (Proc.devRef .tc main_v15)
  calc W7 m ρ c (Proc.devRef .tc main_v15)
    _ = W6 m ρ c (Proc.devRef .tc main_v15) := by not_written hostOps2
    _ = W5 m ρ c (Proc.devRef .tc main_v15) :=
        (W6_arr m ρ c 1).trans (((dat1 (V5 m ρ) c).arrAt_in 1 rfl _).trans (A_eq1 (V5 m ρ) c 1))
    _ = W3 m ρ c (Proc.devRef .tc main_v15) := h1_dinv m ρ c

/-- An argument that no operation before region 2 writes and no earlier region holds is as launched. -/
private theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by not_written hostOps1
    _ = W3 m ρ c (Proc.devRef .tc main_arg6) := W4_of_ne m ρ c main_arg6 (by decide)
    _ = W2 m ρ c (Proc.devRef .tc main_arg6) := by not_written hostOps0_2
    _ = W1 m ρ c (Proc.devRef .tc main_arg6) := by not_written hostOps0_1
    _ = W0 m ρ c (Proc.devRef .tc main_arg6) := by not_written hostOps0
    _ = m ((c : Thread nD τ).loc main_arg6) := rfl

theorem h2_bias (c : Dev nD) (k : Fin 256) :
    vV39 (V7 (F := Ideal) m ρ) c (ix2 (0 : Fin 1) k) = mArg6 m c (ix1 k) := by
  have e : (W7 m ρ c (Proc.devRef .tc main_v39) : S1x256.Idx → EReal)
      = shapeCast S1x256 (W6 m ρ c (Proc.devRef .tc main_arg6) : S256.Idx → EReal) shapeCasts_S256_S1x256 := by
    show StableHlo.after hostOps2 (W6 m ρ c) (Proc.devRef .tc main_v39) = _
    after_results
    rfl
  show (W7 m ρ c (Proc.devRef .tc main_v39) : S1x256.Idx → EReal) (ix2 (0 : Fin 1) k) = _
  rw [e, W6_main_arg6]
  exact shapeCast_a_1a_apply _ shapeCasts_S256_S1x256 0 k

end Cert.KV

end
-- ==== Proof.KHostC.lean ====
import proofs.«404828_j12489764896775_3_alg».proof.Proof.KDefs
import proofs.«404828_j12489764896775_3_alg».proof.Proof.LibScatterAddVec
import Idealize.ShloMosaic.Lib.Pipeline.Value

/-! # The host operations before the last region: the graphs' means and the last bias -/

open scoped BigOperators

noncomputable section

namespace Cert.KV

open Idealize.ShloMosaic Idealize.ShloMosaic.TcCoe Idealize.ShloMosaic.ValueIdx Idealize.SL.Sem
open Cert.KernelIdeal Cert.KernelIdeal.Gen

open Cert.Spec

variable (m : Mem) (ρ : Dev nD → PrngReg)

/-- A column `[128, 1]` spread over `[128, 256]` reads, at `(g, k)`, the column's entry `g`. -/
private theorem spread_col_apply (y : (⟨S128x1, .f32⟩ : BufTy).Contents (Elt Ideal)) (g : Fin 128) (k : Fin 256) :
    broadcastInDim S128x256 ![0, 1] bcast_S128x1_S128x256_0_1 y (ix2 g k) = y (ix2 g (0 : Fin 1)) :=
  broadcastInDim_apply _ bcast_S128x1_S128x256_0_1 y (ix2 g k) (ix2 g (0 : Fin 1)) (fun a => match a with
    | ⟨0, _⟩ => by show g.val = if (128 : Nat) = 1 then 0 else g.val; rw [if_neg (by decide)]
    | ⟨1, _⟩ => by show 0 = if (1 : Nat) = 1 then 0 else k.val; rw [if_pos rfl])

/-- A vector `[128]` stood up as a column `[128, 1]` reads, at `(g, 0)`, the vector's entry `g`. -/
private theorem as_col_apply (y : (⟨S128, .f32⟩ : BufTy).Contents (Elt Ideal)) (g : Fin 128) :
    broadcastInDim S128x1 ![0] bcast_S128_S128x1_0 y (ix2 g (0 : Fin 1)) = y (ix1 g) :=
  broadcastInDim_apply _ bcast_S128_S128x1_0 y (ix2 g (0 : Fin 1)) (ix1 g) (fun a => match a with
    | ⟨0, _⟩ => by show g.val = if (128 : Nat) = 1 then 0 else g.val; rw [if_neg (by decide)])

/-- The graph words `[50000]` stood up as a column `[50000, 1]` read, at `(e, 0)`, the word of node `e`. -/
private theorem words_col_apply (bt : (⟨S50000, .i32⟩ : BufTy).Contents (Elt Ideal)) (e : Fin 50000) :
    broadcastInDim S50000x1 ![0] bcast_S50000_S50000x1_0 bt (ix2 e (0 : Fin 1)) = bt (ix1 e) :=
  broadcastInDim_apply _ bcast_S50000_S50000x1_0 bt (ix2 e (0 : Fin 1)) (ix1 e) (fun a => match a with
    | ⟨0, _⟩ => by show e.val = if (50000 : Nat) = 1 then 0 else e.val; rw [if_neg (by decide)])

/-- A scalar spread over `[128]` reads the scalar everywhere. -/
private theorem spread128_apply (y : (⟨S_, .f32⟩ : BufTy).Contents (Elt Ideal)) (g : Fin 128) :
    broadcastInDim S128 ![] bcast_S_S128 y (ix1 g) = y ix0 :=
  broadcastInDim_apply _ bcast_S_S128 y (ix1 g) ix0 (fun a => a.elim0)

/-- A scalar spread over `[50000]` reads the scalar everywhere. -/
private theorem spread50000_apply (y : (⟨S_, .f32⟩ : BufTy).Contents (Elt Ideal)) (e : Fin 50000) :
    broadcastInDim S50000 ![] bcast_S_S50000 y (ix1 e) = y ix0 :=
  broadcastInDim_apply _ bcast_S_S50000 y (ix1 e) ix0 (fun a => a.elim0)

/-- The host's size of graph `g`: one added per node whose word is `g`, from zero, then at least one. -/
private theorem size_eq (bt : (⟨S50000, .i32⟩ : BufTy).Contents (Elt Ideal)) (g : Fin 128) :
    maximumf
        (Host.scatterAdd scatter_S128_S50000x1_S50000_n_0_0_1
          (broadcastInDim S128 ![] bcast_S_S128 (constant (F := Ideal) S_ .f32 0x00000000#32))
          (broadcastInDim S50000x1 ![0] bcast_S50000_S50000x1_0 bt)
          (broadcastInDim S50000 ![] bcast_S_S50000 (constant (F := Ideal) S_ .f32 0x3F800000#32)))
        (broadcastInDim S128 ![] bcast_S_S128 (constant (F := Ideal) S_ .f32 0x3F800000#32)) (ix1 g)
      = den bt g := by
  rw [maximumf_apply, spread128_apply, constant_apply]
  unfold den members one32
  refine congrArg (fun z => max z (Ideal.ofBits .f32 0x3F800000#32)) ?_
  show Ideal.hostScatterAdd scatter_S128_S50000x1_S50000_n_0_0_1 _ _ _ (ix1 g) = _
  rw [ScatterAddVec.hostScatterAdd_vec_apply scatter_S128_S50000x1_S50000_n_0_0_1 rfl rfl rfl rfl,
    spread128_apply, constant_apply, Ideal.ofBits_zero_f32, zero_add]
  refine Finset.sum_congr (Finset.filter_congr fun e _ => by rw [words_col_apply]) fun e _ => ?_
  rw [spread50000_apply, constant_apply]

/-- The host's division read at an index is the ideal division of the operands there. -/
private theorem hostDivf_apply {s : Shape} {φ : FTy} (x y : FVec Ideal s φ) (i : s.Idx) :
    Host.divf x y i = Ideal.div (x i) (y i) := rfl

/-- The means: region 3's sums divided by the graphs' sizes. -/
theorem g4_mean (c : Dev nD) (g : Fin 128) (k : Fin 256) :
    vV51 (V11 (F := Ideal) m ρ) c (ix2 g k)
      = Ideal.div (vV42 (V10 (F := Ideal) m ρ) c (ix2 g k)) (den (mArg2 m c) g) := by
  have hbt : W10 (F := Ideal) m ρ c (Proc.devRef .tc main_arg2) = mArg2 m c :=
    calc W10 (F := Ideal) m ρ c (Proc.devRef .tc main_arg2)
      _ = W11 m ρ c (Proc.devRef .tc main_arg2) := (StableHlo.after_of_forall_not_mem (b := Proc.devRef .tc main_arg2) _ _ (List.forall_iff_forall_mem.mp (by
            simp only [hostOps4, List.flatten_cons, List.flatten_nil, List.append_nil, List.cons_append,
              List.nil_append, List.Forall, StableHlo.nullary_writes, StableHlo.unary_writes, StableHlo.binary_writes, StableHlo.ternary_writes, StableHlo.quaternary_writes, StableHlo.reshape_writes, StableHlo.binaryIndexed_writes, Finset.mem_singleton]
            repeat' apply And.intro
            all_goals exact StableHlo.devRef_ne_of_ne (by decide)))).symm
      _ = W12 m ρ c (Proc.devRef .tc main_arg2) := (W12_of_ne m ρ c main_arg2 (by decide)).symm
      _ = mArg2 m c := W12_main_arg2 m ρ c
  show StableHlo.after hostOps4 (W10 (F := Ideal) m ρ c) (Proc.devRef .tc main_v51) (ix2 g k) = _
  after_results
  rw [hostDivf_apply, spread_col_apply, as_col_apply, size_eq, hbt]

end Cert.KV

end
-- ==== Proof.KHostE.lean ====
import proofs.«404828_j12489764896775_3_alg».proof.Proof.KDefs
import Idealize.ShloMosaic.Lib.Pipeline.Value
import Idealize.ShloMosaic.Lib.IdealHost

/-! # The host operations before the pool region: the 0/1 weights of nodes in graphs -/

open scoped BigOperators

noncomputable section

namespace Cert.KV

open Idealize.ShloMosaic Idealize.ShloMosaic.TcCoe Idealize.ShloMosaic.ValueIdx Idealize.SL.Sem
open Cert.KernelIdeal Cert.KernelIdeal.Gen

open Cert.Spec

variable (m : Mem) (ρ : Dev nD → PrngReg)

/-- The nodes' graph words are never written: at the pool region's entry they are the launch memory's. -/
private theorem graphWord_at_pool (c : Dev nD) :
    W8 (F := Ideal) m ρ c (Proc.devRef .tc main_arg2) = m ((c : Thread nD τ).loc main_arg2) :=
  calc W8 (F := Ideal) m ρ c (Proc.devRef .tc main_arg2)
    _ = W9 m ρ c (Proc.devRef .tc main_arg2) := (StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = W10 m ρ c (Proc.devRef .tc main_arg2) := (W10_of_ne m ρ c main_arg2 (by decide)).symm
    _ = W11 m ρ c (Proc.devRef .tc main_arg2) := (StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = W12 m ρ c (Proc.devRef .tc main_arg2) := (W12_of_ne m ρ c main_arg2 (by decide)).symm
    _ = m ((c : Thread nD τ).loc main_arg2) := W12_main_arg2 m ρ c

/-- A vector of rows read as a column: entry `(i, 0)` is entry `i`. -/
private theorem rows_to_column_apply {α : Type} (h : S50000.BroadcastsInDim S50000x1 ![0]) (x : S50000.Idx → α)
    (i : Fin 50000) (u : Fin 1) : broadcastInDim S50000x1 ![0] h x (ix2 i u) = x (ix1 i) := by
  refine broadcastInDim_apply ![0] h x (ix2 i u) (ix1 i) fun a => ?_
  match a with
  | ⟨0, _⟩ => show i.val = if (50000 : ℕ) = 1 then 0 else i.val; rw [if_neg (by decide)]

/-- A column repeated along the lanes: entry `(i, g)` is the column's entry `(i, 0)`. -/
private theorem column_to_lanes_apply {α : Type} (h : S50000x1.BroadcastsInDim S50000x128 ![0, 1]) (x : S50000x1.Idx → α)
    (i : Fin 50000) (g : Fin 128) : broadcastInDim S50000x128 ![0, 1] h x (ix2 i g) = x (ix2 i (0 : Fin 1)) := by
  refine broadcastInDim_apply ![0, 1] h x (ix2 i g) (ix2 i (0 : Fin 1)) fun a => ?_
  match a with
  | ⟨0, _⟩ => show i.val = if (50000 : ℕ) = 1 then 0 else i.val; rw [if_neg (by decide)]
  | ⟨1, _⟩ => show (0 : ℕ) = if (1 : ℕ) = 1 then 0 else g.val; rw [if_pos rfl]

/-- A row repeated along the rows: entry `(i, g)` is the row's entry `(0, g)`. -/
private theorem row_to_rows_apply {α : Type} (h : S1x128.BroadcastsInDim S50000x128 ![0, 1]) (x : S1x128.Idx → α)
    (i : Fin 50000) (g : Fin 128) : broadcastInDim S50000x128 ![0, 1] h x (ix2 i g) = x (ix2 (0 : Fin 1) g) := by
  refine broadcastInDim_apply ![0, 1] h x (ix2 i g) (ix2 (0 : Fin 1) g) fun a => ?_
  match a with
  | ⟨0, _⟩ => show (0 : ℕ) = if (1 : ℕ) = 1 then 0 else i.val; rw [if_pos rfl]
  | ⟨1, _⟩ => show g.val = if (128 : ℕ) = 1 then 0 else g.val; rw [if_neg (by decide)]

/-- The one-bit word of "the graph word equals `g`", read as a number, is 1 when the word's integer is `g`, else 0. -/
private theorem eqWord_weight (w : BitVec 32) (g : Fin 128) :
    (((IntOp.cmpi .eq w (BitVec.ofNat 32 g.val)).toNat : ℝ) : EReal) = if w.toInt = (g.val : Int) then 1 else 0 := by
  have hg : g.val < 128 := g.isLt
  have hto : (BitVec.ofNat 32 g.val).toInt = (g.val : Int) := by
    rw [BitVec.toInt_eq_toNat_cond, BitVec.toNat_ofNat]
    split <;> omega
  by_cases h : w.toInt = (g.val : Int)
  · have hw : w = BitVec.ofNat 32 g.val := BitVec.eq_of_toInt_eq (h.trans hto.symm)
    rw [if_pos h, hw]
    show (((BitVec.ofBool (BitVec.ofNat 32 g.val == BitVec.ofNat 32 g.val)).toNat : ℝ) : EReal) = 1
    rw [beq_self_eq_true]
    simp
  · have hw : w ≠ BitVec.ofNat 32 g.val := fun e => h (by rw [e]; exact hto)
    rw [if_neg h]
    show (((BitVec.ofBool (w == BitVec.ofNat 32 g.val)).toNat : ℝ) : EReal) = 0
    rw [beq_eq_false_iff_ne.mpr hw]
    simp

/-- The weights are 0/1 by the graph word of the node. -/
theorem g3_hot (c : Dev nD) (i : Fin 50000) (g : Fin 128) :
    vV41 (V9 (F := Ideal) m ρ) c (ix2 i g) = hot (mArg2 m c) i g := by
  show StableHlo.after hostOps3 (W8 (F := Ideal) m ρ c) (Proc.devRef .tc main_v41) (ix2 i g) = _
  have e : StableHlo.after hostOps3 (W8 (F := Ideal) m ρ c) (Proc.devRef .tc main_v41)
      = uitofp (F := Ideal) .bf16 (cmpi .eq
          (broadcastInDim S50000x128 ![0, 1] bcast_S50000x1_S50000x128_0_1
            (broadcastInDim S50000x1 ![0] bcast_S50000_S50000x1_0 (W8 (F := Ideal) m ρ c (Proc.devRef .tc main_arg2))))
          (broadcastInDim S50000x128 ![0, 1] bcast_S1x128_S50000x128_0_1 (iotaInDim S1x128 32 1))) := by
    after_results
    rfl
  rw [e]
  show (((IntOp.cmpi .eq
      (broadcastInDim S50000x128 ![0, 1] bcast_S50000x1_S50000x128_0_1
        (broadcastInDim S50000x1 ![0] bcast_S50000_S50000x1_0 (W8 (F := Ideal) m ρ c (Proc.devRef .tc main_arg2))) (ix2 i g))
      (broadcastInDim S50000x128 ![0, 1] bcast_S1x128_S50000x128_0_1 (iotaInDim S1x128 32 1) (ix2 i g))).toNat : ℝ) : EReal) = _
  rw [column_to_lanes_apply, rows_to_column_apply, row_to_rows_apply, iotaInDim_apply, graphWord_at_pool]
  exact eqWord_weight _ g

end Cert.KV

end
-- ==== Proof.KVal.lean ====
import proofs.«404828_j12489764896775_3_alg».proof.Proof.KRun
import proofs.«404828_j12489764896775_3_alg».proof.Proof.KReg0
import proofs.«404828_j12489764896775_3_alg».proof.Proof.KReg1
import proofs.«404828_j12489764896775_3_alg».proof.Proof.KReg2
import proofs.«404828_j12489764896775_3_alg».proof.Proof.KReg3
import proofs.«404828_j12489764896775_3_alg».proof.Proof.KReg4
import proofs.«404828_j12489764896775_3_alg».proof.Proof.KHostA
import proofs.«404828_j12489764896775_3_alg».proof.Proof.KHostB
import proofs.«404828_j12489764896775_3_alg».proof.Proof.KHostC
import proofs.«404828_j12489764896775_3_alg».proof.Proof.KHostE

/-! # The idealized kernel's result as a function of the argument arrays

The run leaves the result array at what region 4 leaves; region 4 reads the means, which read region 3's sums, which
read region 2's activations, and so on back to the arguments. Each link is one region's value (what its grid of blocks
leaves, entry by entry) or one stretch of host operations read at an index; composed, the result is `Spec.outK` of the
argument arrays: rows scaled by the normalisation before and after each aggregation, the pool a weighted sum over all
nodes. -/

open scoped BigOperators

noncomputable section

namespace Cert.KV

open Idealize.ShloMosaic Idealize.ShloMosaic.TcCoe Idealize.ShloMosaic.ValueIdx Idealize.SL.Sem
open Cert.KernelIdeal Cert.KernelIdeal.Gen Cert.Spec

variable (m : Mem) (ρ : Dev nD → PrngReg)

/-! ## A region's result array, at the next boundary, is what the region leaves -/

theorem v16_eq (c : Dev nD) : vV16 (V4 (F := Ideal) m ρ) c = arr0 (V3 (F := Ideal) m ρ) c := W4_arr m ρ c 3
theorem v28_eq (c : Dev nD) : vV28 (V6 (F := Ideal) m ρ) c = arr1 (V5 (F := Ideal) m ρ) c := W6_arr m ρ c 4
theorem v40_eq (c : Dev nD) : vV40 (V8 (F := Ideal) m ρ) c = arr2 (V7 (F := Ideal) m ρ) c := W8_arr m ρ c 3
theorem v42_eq (c : Dev nD) : vV42 (V10 (F := Ideal) m ρ) c = arr3 (V9 (F := Ideal) m ρ) c := W10_arr m ρ c 2
theorem v53_eq (c : Dev nD) :
    (W12 (F := Ideal) m ρ c (Proc.devRef .tc main_v53) : FVec Ideal S128x128 .f32) = arr4 (V11 (F := Ideal) m ρ) c :=
  W12_arr m ρ c 3

/-! ## The chain, from the arguments to the result -/

/-- Region 0 leaves the first projection with its rows scaled by the normalisation. -/
theorem arr0_eq (c : Dev nD) (i : Fin 50000) (f : Fin 256) :
    arr0 (V3 (F := Ideal) m ρ) c (ix2 i f) = mm1 (mArg0 m c) (mArg3 m c) i f * dinv (mArg1 m c) i := by
  rw [reg0_val, h0_arg0, h0_arg3, h0_dinv]
  rfl

/-- The first aggregation, of those scaled rows. -/
theorem v26_eq (c : Dev nD) (d : Fin 50000) (f : Fin 256) :
    vV26 (V5 (F := Ideal) m ρ) c (ix2 d f)
      = aggK (mArg1 m c) (fun i f => mm1 (mArg0 m c) (mArg3 m c) i f * dinv (mArg1 m c) i) d f := by
  rw [h1_agg]
  refine congrArg (fun H => aggK (mArg1 m c) H d f) (funext fun i => funext fun f => ?_)
  rw [v16_eq, arr0_eq]

/-- Region 1 leaves the second projection of the first layer's activations, rows scaled. -/
theorem arr1_eq (c : Dev nD) (i : Fin 50000) (f : Fin 256) :
    arr1 (V5 (F := Ideal) m ρ) c (ix2 i f)
      = mm2 (h1K (mArg0 m c) (mArg1 m c) (mArg3 m c) (mArg4 m c)) (mArg5 m c) i f * dinv (mArg1 m c) i := by
  rw [reg1_val, h1_dinv, h0_dinv, h1_arg5]
  unfold mm2 h1K
  refine congrArg (· * dinv (mArg1 m c) i) (Finset.sum_congr rfl fun k _ => ?_)
  rw [v26_eq, h1_bias]

/-- The second aggregation. -/
theorem v38_eq (c : Dev nD) (d : Fin 50000) (f : Fin 256) :
    vV38 (V7 (F := Ideal) m ρ) c (ix2 d f)
      = aggK (mArg1 m c) (fun i f => mm2 (h1K (mArg0 m c) (mArg1 m c) (mArg3 m c) (mArg4 m c)) (mArg5 m c) i f
          * dinv (mArg1 m c) i) d f := by
  rw [h2_agg]
  refine congrArg (fun H => aggK (mArg1 m c) H d f) (funext fun i => funext fun f => ?_)
  rw [v28_eq, arr1_eq]

/-- Region 2 leaves the second layer's activations. -/
theorem arr2_eq (c : Dev nD) (i : Fin 50000) (f : Fin 256) :
    arr2 (V7 (F := Ideal) m ρ) c (ix2 i f)
      = h2K (mArg0 m c) (mArg1 m c) (mArg3 m c) (mArg4 m c) (mArg5 m c) (mArg6 m c) i f := by
  rw [reg2_val, h2_dinv, h0_dinv, v38_eq, h2_bias]
  rfl

/-- Region 3 leaves each graph's weighted sum of those activations. -/
theorem arr3_eq (c : Dev nD) (g : Fin 128) (f : Fin 256) :
    arr3 (V9 (F := Ideal) m ρ) c (ix2 g f)
      = sumsK (mArg2 m c) (h2K (mArg0 m c) (mArg1 m c) (mArg3 m c) (mArg4 m c) (mArg5 m c) (mArg6 m c)) g f := by
  rw [reg3_val]
  unfold sumsK
  refine Finset.sum_congr rfl fun i _ => ?_
  rw [g3_hot, h3_h2, v40_eq, arr2_eq]

/-- Region 4 leaves the linear layer of the means. -/
theorem arr4_eq (c : Dev nD) (g : Fin 128) (o : Fin 128) :
    arr4 (V11 (F := Ideal) m ρ) c (ix2 g o)
      = outK (mArg0 m c) (mArg1 m c) (mArg2 m c) (mArg3 m c) (mArg4 m c) (mArg5 m c) (mArg6 m c) (mArg7 m c) (mArg8 m c) g o := by
  rw [reg4_val, h4_arg7, h4_bias]
  unfold outK outOf
  refine congrArg (· + mArg8 m c (ix1 o)) (Finset.sum_congr rfl fun k _ => ?_)
  rw [g4_mean, v42_eq, arr3_eq]

/-- The idealized kernel's result array, as a function of the argument arrays as launched. -/
def result (c : Dev nD) : FVec Ideal S128x128 .f32 := fun idx =>
  outK (mArg0 m c) (mArg1 m c) (mArg2 m c) (mArg3 m c) (mArg4 m c) (mArg5 m c) (mArg6 m c) (mArg7 m c) (mArg8 m c)
    (idx 0) (idx 1)

theorem kernel_value (c : Dev nD) :
    (W12 (F := Ideal) m ρ c (Proc.devRef .tc main_v53) : FVec Ideal S128x128 .f32) = result m c := by
  rw [v53_eq]
  funext idx
  obtain ⟨g, o, rfl⟩ : ∃ (g : Fin 128) (o : Fin 128), idx = ix2 g o := ⟨idx 0, idx 1, eq_ix2 idx⟩
  exact arr4_eq m ρ c g o

end Cert.KV

end
-- ==== Proof.LibGather.lean ====
import Idealize.ShloMosaic.PureOps.ShapeOps
import Idealize.ShloMosaic.Lib.ValueIdx

/-! # A gather that takes entries of a flat array, read at an index

`Host.gather d x idx j = x (d.operandIdx j idx)`: the operand index has, on the gathered axis, the start index read as a SIGNED
integer and CLAMPED into the axis. Worked out here, at any extents, for entries of a flat array: operand `[N]`, start indices
`[K, 1]`, result `[K]` (`flatTakeDims`, `gather_flatTake_apply`), with the corollary for a start index already inside the array
(`gather_flatTake_apply_of_lt`): the clamp does nothing and the entry read is the one the index names. -/

namespace Idealize.ShloMosaic.GatherTake

open Idealize.ShloMosaic Idealize.ShloMosaic.ValueIdx

/-- A signed word that is non-negative and below `N`, clamped into `[0, N - 1]`, is its own value. -/
theorem clamp_of_lt {w : Nat} (v : BitVec w) {N : Nat} (h0 : 0 ≤ v.toInt) (hN : v.toInt < (N : Int)) :
    min v.toInt.toNat (N - 1) = v.toInt.toNat := by
  apply Nat.min_eq_left
  omega

section
variable {α : Type}

/-- Operand `[N]`, start indices `[K, 1]`, result `[K]`: the one axis is gathered (collapsed, one entry). -/
abbrev flatTakeDims (N K : Nat)
    (wf : GatherDims.WF ⟨1, ![N]⟩ ⟨2, ![K, 1]⟩ ⟨1, ![K]⟩ [] [0] [] [0] [] 1 ![1]) :
    GatherDims ⟨1, ![N]⟩ ⟨2, ![K, 1]⟩ ⟨1, ![K]⟩ where
  offsetDims := []
  collapsedSliceDims := [0]
  operandBatchingDims := []
  startIndicesBatchingDims := []
  startIndexMap := [0]
  indexVectorDim := 1
  sliceSizes := ![1]
  wf := wf

/-- THE GATHER READ AT `k`: the operand at the start index `idx[k, 0]`, read signed and clamped into `[0, N − 1]`. -/
theorem gather_flatTake_apply {N K w : Nat} (hN : 0 < N)
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ w) (k : Fin K) :
    Host.gather (flatTakeDims N K wf) x idx (ix1 k)
      = x (ix1 ⟨min (idx (ix2 k (0 : Fin 1))).toInt.toNat (N - 1), by omega⟩) := by
  unfold Host.gather
  congr 1
  funext c
  obtain rfl : c = 0 := Subsingleton.elim _ _
  refine Fin.ext ?_
  show (flatTakeDims N K wf).start (ix1 k) idx 0 + (flatTakeDims N K wf).batchCoord (ix1 k) 0
    + (flatTakeDims N K wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatTakeDims N K wf).startIndexMap from List.mem_singleton.mpr rfl)]
  have hsi : (flatTakeDims N K wf).siIdx (ix1 k) ⟨List.idxOf (0 : Fin 1) (flatTakeDims N K wf).startIndexMap,
      List.idxOf_lt_length_iff.2 (List.mem_singleton.mpr rfl)⟩ = ix2 k (0 : Fin 1) := by
    funext e; refine Fin.ext ?_
    match e with
    | ⟨0, _⟩ => rfl
    | ⟨1, _⟩ => rfl
  rw [hsi]
  rfl

/-- The same for a start index inside the array: the entry it names. -/
theorem gather_flatTake_apply_of_lt {N K w : Nat}
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ w) (k : Fin K)
    (h0 : 0 ≤ (idx (ix2 k (0 : Fin 1))).toInt) (hlt : (idx (ix2 k (0 : Fin 1))).toInt < (N : Int)) :
    Host.gather (flatTakeDims N K wf) x idx (ix1 k)
      = x (ix1 ⟨(idx (ix2 k (0 : Fin 1))).toInt.toNat, by omega⟩) := by
  rw [gather_flatTake_apply (by omega) wf x idx k]
  congr 2
  exact Fin.ext (clamp_of_lt _ h0 hlt)

end

end Idealize.ShloMosaic.GatherTake
-- ==== Proof.RefValA.lean ====
import proofs.«404828_j12489764896775_3_alg».proof.Proof.RefRead
import proofs.«404828_j12489764896775_3_alg».proof.Proof.Spec
import proofs.«404828_j12489764896775_3_alg».proof.Proof.LibScatterAddVec
import proofs.«404828_j12489764896775_3_alg».proof.Proof.LibScatterAddRows
import proofs.«404828_j12489764896775_3_alg».proof.Proof.LibGatherRow
import proofs.«404828_j12489764896775_3_alg».proof.Proof.LibGather
import Idealize.ShloMosaic.Lib.ValueIdx

/-! # The reference's two graph-convolution layers, entry by entry -/

open scoped BigOperators

noncomputable section

namespace Cert.RV

open Idealize.ShloMosaic Idealize.ShloMosaic.TcCoe Idealize.ShloMosaic.ValueIdx Idealize.SL.Sem
open Cert.ReferenceIdeal Cert.ReferenceIdeal.Read Cert.Spec

/-! ## The edge words -/

/-- The source words: row 0 of the edge array, then the self loops. -/
private theorem v3_at (x1 : I2 2 800000) (e : Fin 850000) :
    val_main_v3 (F := Ideal) x1 (ix1 e) = srcW x1 e := by
  unfold val_main_v3 srcW
  by_cases h : e.val < 800000
  · rw [dif_pos h,
      concatenate_pair_apply_left (t := S850000) (s₁ := S800000) (s₂ := S50000) 0 _ _ _ (ix1 e) rfl
        (ix1 (n := 800000) ⟨e.val, h⟩) (fun b => by match b with | ⟨0, _⟩ => rfl),
      val_main_v2_apply, val_main_v1_apply]
    congr 1
    funext a
    apply Fin.ext
    match a with
    | ⟨0, _⟩ => rfl
    | ⟨1, _⟩ => show e.val % 800000 = e.val; omega
  · rw [dif_neg h,
      concatenate_pair_apply_right (t := S850000) (s₁ := S800000) (s₂ := S50000) 0 _ _ _ (ix1 e) rfl rfl
        (ix1 (n := 50000) ⟨e.val - 800000, by have := e.isLt; omega⟩)
        (fun b hb => absurd (Subsingleton.elim _ _) hb)
        (by show e.val - 800000 + 800000 = e.val; omega),
      val_main_v0_apply]

/-- The destination words: row 1 of the edge array, then the self loops. -/
private theorem v6_at (x1 : I2 2 800000) (e : Fin 850000) :
    val_main_v6 (F := Ideal) x1 (ix1 e) = dstW x1 e := by
  unfold val_main_v6 dstW
  by_cases h : e.val < 800000
  · rw [dif_pos h,
      concatenate_pair_apply_left (t := S850000) (s₁ := S800000) (s₂ := S50000) 0 _ _ _ (ix1 e) rfl
        (ix1 (n := 800000) ⟨e.val, h⟩) (fun b => by match b with | ⟨0, _⟩ => rfl),
      val_main_v5_apply, val_main_v4_apply]
    congr 1
    funext a
    apply Fin.ext
    match a with
    | ⟨0, _⟩ => rfl
    | ⟨1, _⟩ => show e.val % 800000 = e.val; omega
  · rw [dif_neg h,
      concatenate_pair_apply_right (t := S850000) (s₁ := S800000) (s₂ := S50000) 0 _ _ _ (ix1 e) rfl rfl
        (ix1 (n := 50000) ⟨e.val - 800000, by have := e.isLt; omega⟩)
        (fun b hb => absurd (Subsingleton.elim _ _) hb)
        (by show e.val - 800000 + 800000 = e.val; omega),
      val_main_v0_apply]

/-- A one-bit word made from a boolean is one exactly when the boolean holds. -/
private theorem ofBool_one (b : Bool) : BitVec.ofBool b = 1 ↔ b = true := by cases b <;> decide

/-- The select of a word compare: a negative word gains 50000. -/
private theorem wrap_eq (w : BitVec 32) :
    Scalar.select (IntOp.cmpi .slt w 0#32) (IntOp.addi w 50000#32) w = wrapW w := by
  unfold Scalar.select IntOp.cmpi IntOp.addi wrapW
  by_cases h : w.toInt < 0
  · have hc : BitVec.ofBool (w.slt 0#32) = 1 := by
      rw [ofBool_one]
      simp only [BitVec.slt, BitVec.toInt_zero, decide_eq_true_eq]
      exact h
    rw [if_pos hc, if_pos h]
  · have hc : ¬ BitVec.ofBool (w.slt 0#32) = 1 := by
      rw [ofBool_one]
      simp only [BitVec.slt, BitVec.toInt_zero, decide_eq_true_eq]
      exact h
    rw [if_neg hc, if_neg h]

/-! ## Index bookkeeping: a column index `(e, 0)` names the flat index `e` -/

private theorem idx10 (e : Fin 850000) : idx_main_v10 (ix2 e (0 : Fin 1)) = ix1 e := by
  funext a; match a with | ⟨0, _⟩ => rfl
private theorem idx21 (e : Fin 850000) : idx_main_v21 (ix2 e (0 : Fin 1)) = ix1 e := by
  funext a; match a with | ⟨0, _⟩ => rfl
private theorem idx28 (e : Fin 850000) : idx_main_v28 (ix2 e (0 : Fin 1)) = ix1 e := by
  funext a; match a with | ⟨0, _⟩ => rfl
private theorem idx36 (e : Fin 850000) : idx_main_v36 (ix2 e (0 : Fin 1)) = ix1 e := by
  funext a; match a with | ⟨0, _⟩ => rfl
private theorem idx42 (e : Fin 850000) : idx_main_v42 (ix2 e (0 : Fin 1)) = ix1 e := by
  funext a; match a with | ⟨0, _⟩ => rfl
private theorem idx3839 (e : Fin 850000) (f : Fin 256) : idx_main_v38 (idx_main_v39 (ix2 e f)) = ix1 e := by
  funext a; match a with | ⟨0, _⟩ => rfl
private theorem idx4445 (i : Fin 50000) (k : Fin 256) : idx_main_v44 (idx_main_v45 (ix2 i k)) = ix1 k := by
  funext a; match a with | ⟨0, _⟩ => rfl

/-- The scatter index column is the destination words. -/
private theorem v10_at (x1 : I2 2 800000) (e : Fin 850000) :
    val_main_v10 (F := Ideal) x1 (ix2 e (0 : Fin 1)) = dstW x1 e := by
  rw [val_main_v10_apply, idx10, v6_at]

private theorem v42_at (x1 : I2 2 800000) (e : Fin 850000) :
    val_main_v42 (F := Ideal) x1 (ix2 e (0 : Fin 1)) = dstW x1 e := by
  rw [val_main_v42_apply, idx42, v6_at]

/-! ## The degree and its normalisation -/

private theorem v11_at (x1 : I2 2 800000) (d : Fin 50000) :
    val_main_v11 (F := Ideal) x1 (ix1 d) = deg x1 d := by
  unfold val_main_v11
  rw [Host.scatterAdd, Ideal.hostScatterAdd_def, ScatterAddVec.hostScatterAdd_vec_apply _ rfl rfl rfl rfl,
    val_main_v9_apply, val_main_cst_0_apply, Ideal.ofBits_def, Ideal.ofBits_zero_f32, zero_add]
  unfold deg lands
  refine Finset.sum_congr (Finset.ext fun e => ?_) fun e _ => ?_
  · simp only [Finset.mem_filter, Finset.mem_univ, true_and, v10_at]
  · rw [val_main_v8_apply, val_main_cst_apply, Ideal.ofBits_def]
    rfl

private theorem v15_at (x1 : I2 2 800000) (d : Fin 50000) :
    val_main_v15 (F := Ideal) x1 (ix1 d) = dinv x1 d := by
  rw [val_main_v15_apply, val_main_v13_apply, val_main_v14_apply, v11_at, val_main_v12_apply, val_main_cst_1_apply,
    val_main_call0_v1_apply, val_main_call0_v0_apply, val_main_cst_2_apply, Ideal.cmpf_def, Ideal.ofBits_def,
    Ideal.ofBits_zero_f32, Ideal.hostUnary_rsqrt_def]
  unfold dinv dinvOf Scalar.select
  by_cases h : 0 < deg x1 d
  · have hc : Ideal.cmp .ogt (deg x1 d) 0 = 1 := by
      simp only [Ideal.cmp, h, decide_true]; rfl
    rw [if_pos hc, if_pos h]
  · have hc : ¬ Ideal.cmp .ogt (deg x1 d) 0 = 1 := by
      simp only [Ideal.cmp, h, decide_false]; decide
    rw [if_neg hc, if_neg h]

/-! ## The wrapped words -/

private theorem v20_at (x1 : I2 2 800000) (e : Fin 850000) :
    val_main_v20 (F := Ideal) x1 (ix1 e) = wrapW (srcW x1 e) := by
  rw [val_main_v20_apply, val_main_v17_apply, val_main_v19_apply, v3_at, val_main_v16_apply, val_main_c_apply,
    val_main_v18_apply, val_main_c_3_apply, wrap_eq]

private theorem v27_at (x1 : I2 2 800000) (e : Fin 850000) :
    val_main_v27 (F := Ideal) x1 (ix1 e) = wrapW (dstW x1 e) := by
  rw [val_main_v27_apply, val_main_v24_apply, val_main_v26_apply, v6_at, val_main_v23_apply, val_main_c_4_apply,
    val_main_v25_apply, val_main_c_5_apply, wrap_eq]

private theorem v35_at (x1 : I2 2 800000) (e : Fin 850000) :
    val_main_v35 (F := Ideal) x1 (ix1 e) = wrapW (srcW x1 e) := by
  rw [val_main_v35_apply, val_main_v32_apply, val_main_v34_apply, v3_at, val_main_v31_apply, val_main_c_6_apply,
    val_main_v33_apply, val_main_c_7_apply, wrap_eq]

private theorem v21_at (x1 : I2 2 800000) (e : Fin 850000) :
    val_main_v21 (F := Ideal) x1 (ix2 e (0 : Fin 1)) = wrapW (srcW x1 e) := by
  rw [val_main_v21_apply, idx21, v20_at]

private theorem v28_at (x1 : I2 2 800000) (e : Fin 850000) :
    val_main_v28 (F := Ideal) x1 (ix2 e (0 : Fin 1)) = wrapW (dstW x1 e) := by
  rw [val_main_v28_apply, idx28, v27_at]

private theorem v36_at (x1 : I2 2 800000) (e : Fin 850000) :
    val_main_v36 (F := Ideal) x1 (ix2 e (0 : Fin 1)) = wrapW (srcW x1 e) := by
  rw [val_main_v36_apply, idx36, v35_at]

/-! ## The gathers -/

/-- The clamped row a gather reads at a wrapped word is `rowOf` of the word. -/
private theorem clamp_row (v w : BitVec 32) (hv : v = wrapW w) (p : min v.toInt.toNat (50000 - 1) < 50000) :
    (⟨min v.toInt.toNat (50000 - 1), p⟩ : Fin 50000) = rowOf w := by
  subst hv; rfl

private theorem v22_at (x1 : I2 2 800000) (e : Fin 850000) :
    val_main_v22 (F := Ideal) x1 (ix1 e) = dinv x1 (rowOf (srcW x1 e)) := by
  rw [val_main_v22,
    show gather_S50000_S850000x1_S850000_n_0_n_n_0_1_1
      = GatherTake.flatTakeDims 50000 850000 Facts₀.gather_S50000_S850000x1_S850000_n_0_n_n_0_1_1_wf from rfl,
    GatherTake.gather_flatTake_apply (by decide), clamp_row _ _ (v21_at x1 e), v15_at]

private theorem v29_at (x1 : I2 2 800000) (e : Fin 850000) :
    val_main_v29 (F := Ideal) x1 (ix1 e) = dinv x1 (rowOf (dstW x1 e)) := by
  rw [val_main_v29,
    show gather_S50000_S850000x1_S850000_n_0_n_n_0_1_1
      = GatherTake.flatTakeDims 50000 850000 Facts₀.gather_S50000_S850000x1_S850000_n_0_n_n_0_1_1_wf from rfl,
    GatherTake.gather_flatTake_apply (by decide), clamp_row _ _ (v28_at x1 e), v15_at]

/-- The edge factor: the product of the two ends' normalisations. -/
private theorem v30_at (x1 : I2 2 800000) (e : Fin 850000) :
    val_main_v30 (F := Ideal) x1 (ix1 e) = dinv x1 (rowOf (srcW x1 e)) * dinv x1 (rowOf (dstW x1 e)) := by
  rw [val_main_v30_apply, v22_at, v29_at, Ideal.mulf_def]

private theorem lidx7 (r : Fin 50000) (f : Fin 256) (k : Fin 128) : lidx_main_v7 (ix2 r f) k = ix2 r k := by
  funext a; match a with | ⟨0, _⟩ => rfl | ⟨1, _⟩ => rfl
private theorem ridx7 (r : Fin 50000) (f : Fin 256) (k : Fin 128) : ridx_main_v7 (ix2 r f) k = ix2 k f := by
  funext a; match a with | ⟨0, _⟩ => rfl | ⟨1, _⟩ => rfl

/-- The projected features `x0 · x3`. -/
private theorem v7_at (x0 : A2 50000 128) (x3 : A2 128 256) (r : Fin 50000) (f : Fin 256) :
    val_main_v7 (F := Ideal) x0 x3 (ix2 r f) = mm1 x0 x3 r f := by
  rw [val_main_v7_apply, mm1]
  refine Finset.sum_congr rfl fun k _ => ?_
  rw [lidx7, ridx7]

/-- The rows of the projected features gathered at the source words. -/
private theorem v37_at (x0 : A2 50000 128) (x1 : I2 2 800000) (x3 : A2 128 256) (e : Fin 850000) (f : Fin 256) :
    val_main_v37 (F := Ideal) x0 x1 x3 (ix2 e f) = mm1 x0 x3 (rowOf (srcW x1 e)) f := by
  rw [val_main_v37, GatherRow.gather_rowTake_apply (N := 50000) (K := 850000) (C := 256) (by decide)
      gather_S50000x256_S850000x1_S850000x256_1_0_n_n_0_1_1256 rfl rfl rfl rfl rfl rfl rfl, clamp_row _ _ (v36_at x1 e), v7_at]

/-- The message of edge `e` at feature `f`. -/
private theorem v40_at (x0 : A2 50000 128) (x1 : I2 2 800000) (x3 : A2 128 256) (e : Fin 850000) (f : Fin 256) :
    val_main_v40 (F := Ideal) x0 x1 x3 (ix2 e f)
      = mm1 x0 x3 (rowOf (srcW x1 e)) f * (dinv x1 (rowOf (srcW x1 e)) * dinv x1 (rowOf (dstW x1 e))) := by
  rw [val_main_v40_apply, v37_at, val_main_v39_apply, val_main_v38_apply, idx3839, v30_at, Ideal.mulf_def]

/-! ## The aggregate -/

private theorem v43_at (x0 : A2 50000 128) (x1 : I2 2 800000) (x3 : A2 128 256) (d : Fin 50000) (f : Fin 256) :
    val_main_v43 (F := Ideal) x0 x1 x3 (ix2 d f) = aggR x1 (mm1 x0 x3) d f := by
  rw [val_main_v43, Host.scatterAdd, Ideal.hostScatterAdd_def,
    ScatterAddRows.hostScatterAdd_rows_apply _ rfl rfl rfl rfl, val_main_v41_apply, val_main_cst_8_apply,
    Ideal.ofBits_def, Ideal.ofBits_zero_f32, zero_add]
  unfold aggR lands
  refine Finset.sum_congr (Finset.ext fun e => ?_) fun e _ => ?_
  · simp only [Finset.mem_filter, Finset.mem_univ, true_and, v42_at]
  · rw [v40_at]

/-- The first layer of the reference is `h1R`. -/
theorem ref_h1 (x0 : A2 50000 128) (x1 : I2 2 800000) (x3 : A2 128 256) (x4 : A1 256) (i : Fin 50000) (k : Fin 256) :
    val_main_v47 (F := Ideal) x0 x1 x3 x4 (ix2 i k) = h1R x0 x1 x3 x4 i k := by
  rw [val_main_v47_apply, val_main_v46_apply, v43_at, val_main_v45_apply, val_main_v44_apply, idx4445,
    val_main_call1_v0_apply, val_main_call1_cst_apply, Ideal.ofBits_def, Ideal.ofBits_zero_f32,
    Ideal.maximumf_def, Ideal.addf_def, h1R]

end Cert.RV

end
-- ==== Proof.RefValA2.lean ====
import proofs.«404828_j12489764896775_3_alg».proof.Proof.RefValA
import proofs.«404828_j12489764896775_3_alg».proof.Proof.LibScatterAddVec
import proofs.«404828_j12489764896775_3_alg».proof.Proof.LibScatterAddRows
import proofs.«404828_j12489764896775_3_alg».proof.Proof.LibGather
import proofs.«404828_j12489764896775_3_alg».proof.Proof.LibGatherRow
import Idealize.ShloMosaic.Lib.Pipeline.Value
import Idealize.ShloMosaic.Lib.ValueIdx

/-! # The reference's second graph-convolution layer, entry by entry -/

open scoped BigOperators

noncomputable section

namespace Cert.RV

open Idealize.ShloMosaic Idealize.ShloMosaic.TcCoe Idealize.ShloMosaic.ValueIdx Idealize.SL.Sem
open Cert.ReferenceIdeal Cert.ReferenceIdeal.Read Cert.Spec

/-! ## The edge words -/

/-- The source word of edge `e`: row 0 of the edge list, then the self loops. -/
private theorem l2_src_at (x1 : I2 2 800000) (e : Fin 850000) :
    val_main_v3 (F := Ideal) x1 (ix1 e) = srcW x1 e := by
  unfold val_main_v3 srcW
  by_cases h : e.val < 800000
  · rw [dif_pos h]
    refine (concatenate_pair_apply_left (t := S850000) (s₁ := S800000) (s₂ := S50000) _ _ _ _ (ix1 e) rfl
      (ix1 (n := 800000) ⟨e.val, h⟩) (fun b => by match b with | ⟨0, _⟩ => rfl)).trans ?_
    rw [val_main_v2_apply, val_main_v1_apply]
    exact congrArg x1 (funext fun a => Fin.ext (by
      match a with
      | ⟨0, _⟩ => rfl
      | ⟨1, _⟩ => exact Nat.mod_eq_of_lt h))
  · rw [dif_neg h]
    refine (concatenate_pair_apply_right (t := S850000) (s₁ := S800000) (s₂ := S50000) _ _ _ _ (ix1 e) rfl rfl
      (ix1 (n := 50000) ⟨e.val - 800000, by omega⟩)
      (fun b hb => absurd (Subsingleton.elim _ _) hb)
      (by show (e.val - 800000) + 800000 = e.val; omega)).trans ?_
    rw [val_main_v0_apply]

/-- The destination word of edge `e`: row 1 of the edge list, then the self loops. -/
private theorem l2_dst_at (x1 : I2 2 800000) (e : Fin 850000) :
    val_main_v6 (F := Ideal) x1 (ix1 e) = dstW x1 e := by
  unfold val_main_v6 dstW
  by_cases h : e.val < 800000
  · rw [dif_pos h]
    refine (concatenate_pair_apply_left (t := S850000) (s₁ := S800000) (s₂ := S50000) _ _ _ _ (ix1 e) rfl
      (ix1 (n := 800000) ⟨e.val, h⟩) (fun b => by match b with | ⟨0, _⟩ => rfl)).trans ?_
    rw [val_main_v5_apply, val_main_v4_apply]
    exact congrArg x1 (funext fun a => Fin.ext (by
      match a with
      | ⟨0, _⟩ => rfl
      | ⟨1, _⟩ => exact Nat.mod_eq_of_lt h))
  · rw [dif_neg h]
    refine (concatenate_pair_apply_right (t := S850000) (s₁ := S800000) (s₂ := S50000) _ _ _ _ (ix1 e) rfl rfl
      (ix1 (n := 50000) ⟨e.val - 800000, by omega⟩)
      (fun b hb => absurd (Subsingleton.elim _ _) hb)
      (by show (e.val - 800000) + 800000 = e.val; omega)).trans ?_
    rw [val_main_v0_apply]

/-- A negative word is wrapped by the node count, another word is kept. -/
private theorem l2_wrap_sel (v : BitVec 32) :
    Scalar.select (IntOp.cmpi .slt v 0#32) (IntOp.addi v 50000#32) v = wrapW v := by
  have h0 : (0#32 : BitVec 32).toInt = 0 := by decide
  unfold Scalar.select IntOp.cmpi IntOp.addi wrapW
  simp only [BitVec.slt, h0]
  by_cases h : v.toInt < 0
  · rw [if_pos h, decide_eq_true h]; rfl
  · rw [if_neg h, decide_eq_false h]; rfl

/-- The wrapped source word of edge `e`. -/
private theorem l2_wsrc_at (x1 : I2 2 800000) (e : Fin 850000) :
    val_main_v61 (F := Ideal) x1 (ix1 e) = wrapW (srcW x1 e) := by
  rw [val_main_v61_apply, val_main_v58_apply, val_main_v60_apply, val_main_v57_apply, val_main_c_13_apply,
    val_main_v59_apply, val_main_c_14_apply, l2_src_at]
  exact l2_wrap_sel _

/-- The wrapped destination word of edge `e`. -/
private theorem l2_wdst_at (x1 : I2 2 800000) (e : Fin 850000) :
    val_main_v68 (F := Ideal) x1 (ix1 e) = wrapW (dstW x1 e) := by
  rw [val_main_v68_apply, val_main_v65_apply, val_main_v67_apply, val_main_v64_apply, val_main_c_15_apply,
    val_main_v66_apply, val_main_c_16_apply, l2_dst_at]
  exact l2_wrap_sel _

/-- The wrapped source word of edge `e`, as the row gather reads it. -/
private theorem l2_wsrc_at' (x1 : I2 2 800000) (e : Fin 850000) :
    val_main_v76 (F := Ideal) x1 (ix1 e) = wrapW (srcW x1 e) := by
  rw [val_main_v76_apply, val_main_v73_apply, val_main_v75_apply, val_main_v72_apply, val_main_c_17_apply,
    val_main_v74_apply, val_main_c_18_apply, l2_src_at]
  exact l2_wrap_sel _

/-! ## The degree and its inverse square root -/

/-- The column of destination words read at edge `e`. -/
private theorem l2_dstcol_at (x1 : I2 2 800000) (e : Fin 850000) :
    val_main_v51 (F := Ideal) x1 (ix2 e (0 : Fin 1)) = dstW x1 e := by
  rw [val_main_v51_apply]
  have h : idx_main_v51 (ix2 e (0 : Fin 1)) = ix1 e :=
    funext fun a => Fin.ext (by match a with | ⟨0, _⟩ => rfl)
  rw [h, l2_dst_at]

/-- A scatter-add of a flat array at a column of words, read at `i`: the operand's entry plus the updates whose word is `i`. -/
private theorem l2_scatter_vec {N K : Nat} (d : ScatterDims ⟨1, ![N]⟩ ⟨2, ![K, 1]⟩ ⟨1, ![K]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![K, 1]⟩ 32) (upd : (⟨1, ![K]⟩ : Shape).Idx → EReal)
    (i : Fin N) :
    Host.scatterAdd (F := Ideal) (φ := .f32) d x idx upd (ix1 i)
      = x (ix1 i) + ∑ e ∈ Finset.univ.filter (fun e : Fin K => (idx (ix2 e (0 : Fin 1))).toInt = (i.val : Int)), upd (ix1 e) :=
  ScatterAddVec.hostScatterAdd_vec_apply d hu hi hs hv x idx upd i

/-- The degree of node `d`: a one for every edge landing on it. -/
private theorem l2_deg_at (x1 : I2 2 800000) (d : Fin 50000) :
    val_main_v52 (F := Ideal) x1 (ix1 d) = deg x1 d := by
  unfold val_main_v52
  rw [l2_scatter_vec _ rfl rfl rfl rfl]
  rw [val_main_v50_apply, val_main_cst_10_apply]
  rw [show (FloatOps.ofBits .f32 0x00000000#32 : Ideal .f32) = (0 : EReal) from Ideal.ofBits_zero_f32, zero_add]
  unfold deg lands
  refine Finset.sum_congr (Finset.filter_congr fun e _ => ?_) fun e _ => ?_
  · rw [l2_dstcol_at]
  · rw [val_main_v49_apply, val_main_cst_9_apply]
    rfl

/-- The guarded inverse square root, on any value. -/
private theorem l2_dinv_sel (D : EReal) :
    Scalar.select (Ideal.cmp .ogt D 0) (Ideal.rsqrt D) 0 = dinvOf D := by
  unfold dinvOf Scalar.select Ideal.cmp
  by_cases h : 0 < D
  · rw [if_pos h]
    simp only [decide_eq_true h]
    exact if_pos rfl
  · rw [if_neg h]
    simp only [decide_eq_false h]
    exact if_neg (by decide)

/-- The inverse square root of the degree of node `d`, zero where the degree is not positive. -/
private theorem l2_dinv_at (x1 : I2 2 800000) (d : Fin 50000) :
    val_main_v56 (F := Ideal) x1 (ix1 d) = dinv x1 d := by
  rw [val_main_v56_apply, val_main_v54_apply, val_main_v55_apply, val_main_v53_apply, val_main_cst_11_apply,
    val_main_call2_v1_apply, val_main_call2_v0_apply, val_main_cst_12_apply, l2_deg_at]
  unfold dinv
  generalize deg x1 d = D
  change Scalar.select (Ideal.cmp .ogt D (Ideal.ofBits .f32 0x00000000#32)) (Ideal.rsqrt D)
    (Ideal.ofBits .f32 0x00000000#32) = _
  rw [Ideal.ofBits_zero_f32]
  exact l2_dinv_sel D

/-! ## The edge factor -/

/-- A gather of a per-node array at a column of words reads the entry of the clamped word. -/
private theorem l2_flat_gather (x : (⟨1, ![50000]⟩ : Shape).Idx → EReal) (idx : IVec ⟨2, ![850000, 1]⟩ 32)
    (e : Fin 850000) (r : Fin 50000) (hr : min (idx (ix2 e (0 : Fin 1))).toInt.toNat 49999 = r.val) :
    Host.gather gather_S50000_S850000x1_S850000_n_0_n_n_0_1_1 x idx (ix1 e) = x (ix1 r) := by
  refine (GatherTake.gather_flatTake_apply (N := 50000) (K := 850000) (by decide)
    gather_S50000_S850000x1_S850000_n_0_n_n_0_1_1.wf x idx e).trans ?_
  exact congrArg x (congrArg ix1 (Fin.ext hr))

/-- The column of wrapped source words read at edge `e`. -/
private theorem l2_wsrccol_at (x1 : I2 2 800000) (e : Fin 850000) :
    val_main_v62 (F := Ideal) x1 (ix2 e (0 : Fin 1)) = wrapW (srcW x1 e) := by
  rw [val_main_v62_apply]
  have h : idx_main_v62 (ix2 e (0 : Fin 1)) = ix1 e :=
    funext fun a => Fin.ext (by match a with | ⟨0, _⟩ => rfl)
  rw [h, l2_wsrc_at]

/-- The column of wrapped destination words read at edge `e`. -/
private theorem l2_wdstcol_at (x1 : I2 2 800000) (e : Fin 850000) :
    val_main_v69 (F := Ideal) x1 (ix2 e (0 : Fin 1)) = wrapW (dstW x1 e) := by
  rw [val_main_v69_apply]
  have h : idx_main_v69 (ix2 e (0 : Fin 1)) = ix1 e :=
    funext fun a => Fin.ext (by match a with | ⟨0, _⟩ => rfl)
  rw [h, l2_wdst_at]

/-- The source end's factor of edge `e`. -/
private theorem l2_srcfac_at (x1 : I2 2 800000) (e : Fin 850000) :
    val_main_v63 (F := Ideal) x1 (ix1 e) = dinv x1 (rowOf (srcW x1 e)) := by
  unfold val_main_v63
  rw [l2_flat_gather _ _ e (rowOf (srcW x1 e)) (by rw [l2_wsrccol_at]; rfl), l2_dinv_at]

/-- The destination end's factor of edge `e`. -/
private theorem l2_dstfac_at (x1 : I2 2 800000) (e : Fin 850000) :
    val_main_v70 (F := Ideal) x1 (ix1 e) = dinv x1 (rowOf (dstW x1 e)) := by
  unfold val_main_v70
  rw [l2_flat_gather _ _ e (rowOf (dstW x1 e)) (by rw [l2_wdstcol_at]; rfl), l2_dinv_at]

/-- The factor of edge `e`: the product of its two ends' factors. -/
private theorem l2_fac_at (x1 : I2 2 800000) (e : Fin 850000) :
    val_main_v71 (F := Ideal) x1 (ix1 e) = dinv x1 (rowOf (srcW x1 e)) * dinv x1 (rowOf (dstW x1 e)) := by
  rw [val_main_v71_apply, Ideal.mulf_def, l2_srcfac_at, l2_dstfac_at]

/-! ## The messages and their sum -/

/-- The transformed rows: the first layer's row `i` times the second weight, at column `f`. -/
private theorem l2_mm_at (x0 : A2 50000 128) (x1 : I2 2 800000) (x3 : A2 128 256) (x4 : A1 256) (x5 : A2 256 256)
    (i : Fin 50000) (f : Fin 256) :
    val_main_v48 (F := Ideal) x0 x1 x3 x4 x5 (ix2 i f) = mm2 (h1R x0 x1 x3 x4) x5 i f := by
  rw [val_main_v48_apply]
  unfold mm2
  refine Finset.sum_congr rfl fun k _ => ?_
  have el : lidx_main_v48 (ix2 i f) k = ix2 i k :=
    funext fun a => Fin.ext (by match a with | ⟨0, _⟩ => rfl | ⟨1, _⟩ => rfl)
  have er : ridx_main_v48 (ix2 i f) k = ix2 k f :=
    funext fun a => Fin.ext (by match a with | ⟨0, _⟩ => rfl | ⟨1, _⟩ => rfl)
  rw [el, er, ref_h1]

/-- A gather of the rows of a per-node table at a column of words reads the row of the clamped word. -/
private theorem l2_row_gather (x : (⟨2, ![50000, 256]⟩ : Shape).Idx → EReal) (idx : IVec ⟨2, ![850000, 1]⟩ 32)
    (e : Fin 850000) (j : Fin 256) (r : Fin 50000) (hr : min (idx (ix2 e (0 : Fin 1))).toInt.toNat 49999 = r.val) :
    Host.gather gather_S50000x256_S850000x1_S850000x256_1_0_n_n_0_1_1256 x idx (ix2 e j) = x (ix2 r j) := by
  refine (GatherRow.gather_rowTake_apply (N := 50000) (K := 850000) (C := 256) (by decide)
    gather_S50000x256_S850000x1_S850000x256_1_0_n_n_0_1_1256 rfl rfl rfl rfl rfl rfl rfl x idx e j).trans ?_
  exact congrArg x (congrArg (fun r => ix2 r j) (Fin.ext hr))

/-- The column of wrapped source words the row gather reads at edge `e`. -/
private theorem l2_wsrccol_at' (x1 : I2 2 800000) (e : Fin 850000) :
    val_main_v77 (F := Ideal) x1 (ix2 e (0 : Fin 1)) = wrapW (srcW x1 e) := by
  rw [val_main_v77_apply]
  have h : idx_main_v77 (ix2 e (0 : Fin 1)) = ix1 e :=
    funext fun a => Fin.ext (by match a with | ⟨0, _⟩ => rfl)
  rw [h, l2_wsrc_at']

/-- The message of edge `e` at column `f`: the source node's transformed row times the edge factor. -/
private theorem l2_msg_at (x0 : A2 50000 128) (x1 : I2 2 800000) (x3 : A2 128 256) (x4 : A1 256) (x5 : A2 256 256)
    (e : Fin 850000) (f : Fin 256) :
    val_main_v81 (F := Ideal) x0 x1 x3 x4 x5 (ix2 e f)
      = mm2 (h1R x0 x1 x3 x4) x5 (rowOf (srcW x1 e)) f
        * (dinv x1 (rowOf (srcW x1 e)) * dinv x1 (rowOf (dstW x1 e))) := by
  rw [val_main_v81_apply, Ideal.mulf_def, val_main_v80_apply, val_main_v79_apply]
  have h : idx_main_v79 (idx_main_v80 (ix2 e f)) = ix1 e :=
    funext fun a => Fin.ext (by match a with | ⟨0, _⟩ => rfl)
  rw [h, l2_fac_at]
  unfold val_main_v78
  rw [l2_row_gather _ _ e f (rowOf (srcW x1 e)) (by rw [l2_wsrccol_at']; rfl), l2_mm_at]

/-- A scatter-add of rows at a column of words, read at `(i, j)`: the operand's entry plus the updates whose word is `i`. -/
private theorem l2_scatter_rows {N K C : Nat} (d : ScatterDims ⟨2, ![N, C]⟩ ⟨2, ![K, 1]⟩ ⟨2, ![K, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![K, 1]⟩ 32) (upd : (⟨2, ![K, C]⟩ : Shape).Idx → EReal)
    (i : Fin N) (j : Fin C) :
    Host.scatterAdd (F := Ideal) (φ := .f32) d x idx upd (ix2 i j)
      = x (ix2 i j) + ∑ e ∈ Finset.univ.filter (fun e : Fin K => (idx (ix2 e (0 : Fin 1))).toInt = (i.val : Int)),
          upd (ix2 e j) :=
  ScatterAddRows.hostScatterAdd_rows_apply d hu hi hs hv x idx upd i j

/-- The column of destination words the last scatter reads at edge `e`. -/
private theorem l2_dstcol_at' (x1 : I2 2 800000) (e : Fin 850000) :
    val_main_v83 (F := Ideal) x1 (ix2 e (0 : Fin 1)) = dstW x1 e := by
  rw [val_main_v83_apply]
  have h : idx_main_v83 (ix2 e (0 : Fin 1)) = ix1 e :=
    funext fun a => Fin.ext (by match a with | ⟨0, _⟩ => rfl)
  rw [h, l2_dst_at]

/-- The aggregate at node `d`, column `f`: the sum of the messages of the edges landing on `d`. -/
private theorem l2_agg_at (x0 : A2 50000 128) (x1 : I2 2 800000) (x3 : A2 128 256) (x4 : A1 256) (x5 : A2 256 256)
    (d : Fin 50000) (f : Fin 256) :
    val_main_v84 (F := Ideal) x0 x1 x3 x4 x5 (ix2 d f) = aggR x1 (mm2 (h1R x0 x1 x3 x4) x5) d f := by
  unfold val_main_v84
  rw [l2_scatter_rows _ rfl rfl rfl rfl]
  rw [val_main_v82_apply, val_main_cst_19_apply]
  rw [show (FloatOps.ofBits .f32 0x00000000#32 : Ideal .f32) = (0 : EReal) from Ideal.ofBits_zero_f32, zero_add]
  unfold aggR lands
  refine Finset.sum_congr (Finset.filter_congr fun e _ => ?_) fun e _ => ?_
  · rw [l2_dstcol_at']
  · rw [l2_msg_at]

/-- The second layer of the reference is `h2R`. -/
theorem ref_layer2 (x0 : A2 50000 128) (x1 : I2 2 800000) (x3 : A2 128 256) (x4 : A1 256) (x5 : A2 256 256) (x6 : A1 256)
    (i : Fin 50000) (f : Fin 256) :
    val_main_v88 (F := Ideal) x0 x1 x3 x4 x5 x6 (ix2 i f) = h2R x0 x1 x3 x4 x5 x6 i f := by
  have h2 : val_main_v86 (F := Ideal) x6 (ix2 i f) = x6 (ix1 f) := by
    rw [val_main_v86_apply, val_main_v85_apply]
    exact congrArg x6 (funext fun a => Fin.ext (by match a with | ⟨0, _⟩ => rfl))
  have h3 : val_main_call3_v0 (F := Ideal) (ix2 i f) = (0 : EReal) := by
    rw [val_main_call3_v0_apply, val_main_call3_cst_apply]
    exact Ideal.ofBits_zero_f32
  unfold h2R
  rw [val_main_v88_apply, val_main_v87_apply, l2_agg_at, h2, h3]
  rfl

end Cert.RV

end
-- ==== Proof.RefValB.lean ====
import proofs.«404828_j12489764896775_3_alg».proof.Proof.RefRead
import proofs.«404828_j12489764896775_3_alg».proof.Proof.Spec
import proofs.«404828_j12489764896775_3_alg».proof.Proof.LibScatterAddVec
import proofs.«404828_j12489764896775_3_alg».proof.Proof.LibScatterAddRows
import Idealize.ShloMosaic.Lib.ValueIdx

/-! # The reference's pool and last linear layer, entry by entry -/

open scoped BigOperators

noncomputable section

namespace Cert.RV

open Idealize.ShloMosaic Idealize.ShloMosaic.TcCoe Idealize.ShloMosaic.ValueIdx Idealize.SL.Sem
open Cert.ReferenceIdeal Cert.ReferenceIdeal.Read Cert.Spec

/-- The column of graph ids read at node `e` is the graph id of `e`. -/
private theorem batch_col_at (x2 : I1 50000) (e : Fin 50000) :
    val_main_v90 (F := Ideal) x2 (ix2 e (0 : Fin 1)) = x2 (ix1 e) := by
  rw [val_main_v90_apply]
  exact congrArg x2 (funext fun a => Fin.ext (by match a with | ⟨0, _⟩ => rfl))

/-- The same column, as the second scatter reads it. -/
private theorem batch_col_at' (x2 : I1 50000) (e : Fin 50000) :
    val_main_v94 (F := Ideal) x2 (ix2 e (0 : Fin 1)) = x2 (ix1 e) := by
  rw [val_main_v94_apply]
  exact congrArg x2 (funext fun a => Fin.ext (by match a with | ⟨0, _⟩ => rfl))

/-- The pooled sums: entry `(g, f)` is the sum of the rows of the nodes of graph `g`. -/
private theorem sums_at (x0 : A2 50000 128) (x1 : I2 2 800000) (x2 : I1 50000) (x3 : A2 128 256) (x4 : A1 256) (x5 : A2 256 256)
    (x6 : A1 256) (h2 : Fin 50000 → Fin 256 → EReal)
    (hh : ∀ (i : Fin 50000) (f : Fin 256), val_main_v88 (F := Ideal) x0 x1 x3 x4 x5 x6 (ix2 i f) = h2 i f)
    (g : Fin 128) (f : Fin 256) :
    val_main_v91 (F := Ideal) x0 x1 x2 x3 x4 x5 x6 (ix2 g f) = sumsR x2 h2 g f := by
  unfold val_main_v91
  show Ideal.hostScatterAdd _ _ _ _ (ix2 g f) = _
  rw [ScatterAddRows.hostScatterAdd_rows_apply _ rfl rfl rfl rfl]
  rw [val_main_v89_apply, val_main_cst_20_apply]
  change Ideal.ofBits .f32 0x00000000#32 + _ = _
  rw [Ideal.ofBits_zero_f32, zero_add]
  unfold sumsR members
  refine Finset.sum_congr (Finset.filter_congr fun e _ => ?_) fun i _ => hh i f
  rw [batch_col_at]

/-- The node counts: entry `g` is a one for every node of graph `g`. -/
private theorem count_at (x2 : I1 50000) (g : Fin 128) :
    val_main_v95 (F := Ideal) x2 (ix1 g) = ∑ _i ∈ members x2 g, one32 := by
  unfold val_main_v95
  show Ideal.hostScatterAdd _ _ _ _ (ix1 g) = _
  rw [ScatterAddVec.hostScatterAdd_vec_apply _ rfl rfl rfl rfl]
  rw [val_main_v93_apply, val_main_cst_22_apply]
  change Ideal.ofBits .f32 0x00000000#32 + _ = _
  rw [Ideal.ofBits_zero_f32, zero_add]
  unfold members
  refine Finset.sum_congr (Finset.filter_congr fun e _ => ?_) fun i _ => ?_
  · rw [batch_col_at']
  · rw [val_main_v92_apply, val_main_cst_21_apply]
    rfl

/-- The divisor: entry `(g, f)` is the larger of the node count of graph `g` and one. -/
private theorem den_at (x2 : I1 50000) (g : Fin 128) (f : Fin 256) :
    val_main_v99 (F := Ideal) x2 (ix2 g f) = den x2 g := by
  rw [val_main_v99_apply, val_main_v98_apply, val_main_v97_apply, Ideal.maximumf_def]
  have e : idx_main_v98 (idx_main_v99 (ix2 g f)) = ix1 g :=
    funext fun a => Fin.ext (by match a with | ⟨0, _⟩ => rfl)
  rw [e, count_at, val_main_v96_apply, val_main_cst_23_apply]
  rfl

/-- Over any reading `h2` of the second layer's rows, the reference's result is the mean pool and the linear layer. -/
theorem ref_out (x0 : A2 50000 128) (x1 : I2 2 800000) (x2 : I1 50000) (x3 : A2 128 256) (x4 : A1 256) (x5 : A2 256 256)
    (x6 : A1 256) (x7 : A2 256 128) (x8 : A1 128) (h2 : Fin 50000 → Fin 256 → EReal)
    (hh : ∀ (i : Fin 50000) (f : Fin 256), val_main_v88 (F := Ideal) x0 x1 x3 x4 x5 x6 (ix2 i f) = h2 i f)
    (g : Fin 128) (o : Fin 128) :
    val_main_v104 (F := Ideal) x0 x1 x2 x3 x4 x5 x6 x7 x8 (ix2 g o) = outOf x2 x7 x8 (sumsR x2 h2) g o := by
  rw [val_main_v104_apply, Ideal.addf_def, val_main_v101_apply, val_main_v103_apply, val_main_v102_apply]
  unfold outOf
  have hs : ∑ k : Fin 256, val_main_v100 (F := Ideal) x0 x1 x2 x3 x4 x5 x6 (lidx_main_v101 (ix2 g o) k)
        * x7 (ridx_main_v101 (ix2 g o) k)
      = ∑ k : Fin 256, Ideal.div (sumsR x2 h2 g k) (den x2 g) * x7 (ix2 k o) := by
    refine Finset.sum_congr rfl fun k _ => ?_
    have el : lidx_main_v101 (ix2 g o) k = ix2 g k :=
      funext fun a => Fin.ext (by match a with | ⟨0, _⟩ => rfl | ⟨1, _⟩ => rfl)
    have er : ridx_main_v101 (ix2 g o) k = ix2 k o :=
      funext fun a => Fin.ext (by match a with | ⟨0, _⟩ => rfl | ⟨1, _⟩ => rfl)
    rw [el, er, val_main_v100_apply, Ideal.hostDivf_def, sums_at x0 x1 x2 x3 x4 x5 x6 h2 hh, den_at]
  have hb : x8 (idx_main_v102 (idx_main_v103 (ix2 g o))) = x8 (ix1 o) :=
    congrArg x8 (funext fun a => Fin.ext (by match a with | ⟨0, _⟩ => rfl))
  exact congrArg₂ (fun a b : EReal => a + b) hs hb

end Cert.RV

end
-- ==== Proof.RefVal.lean ====
import proofs.«404828_j12489764896775_3_alg».proof.Proof.RefValA2
import proofs.«404828_j12489764896775_3_alg».proof.Proof.RefValB

/-! # The reference's result as a function of the argument arrays

The run's composed term is its last stage; the last stage is the mean pool and the linear layer over the second
layer's rows, and those rows are `Spec.h2R`: the reference's result is `Spec.outR` of the argument arrays. -/

open scoped BigOperators

noncomputable section

namespace Cert.RV

open Idealize.ShloMosaic Idealize.ShloMosaic.TcCoe Idealize.ShloMosaic.ValueIdx Idealize.SL.Sem
open Cert.ReferenceIdeal Cert.ReferenceIdeal.Read Cert.Spec

/-- The reference's result array, as a function of the argument arrays as launched. -/
def result (m : (ℓ : Loc nD τ sig) → Buf (Elt Ideal) ℓ) (c : Dev nD) : FVec Ideal S128x128 .f32 := fun idx =>
  outR (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (idx 0) (idx 1)

theorem ref_value (m : (ℓ : Loc nD τ sig) → Buf (Elt Ideal) ℓ) (c : Dev nD) :
    (Cert.ReferenceIdeal.Value.res_main_v104 (F := Ideal) m c : FVec Ideal S128x128 .f32) = result m c := by
  rw [val_main_v104_eq]
  funext idx
  obtain ⟨g, o, rfl⟩ : ∃ (g : Fin 128) (o : Fin 128), idx = ix2 g o := ⟨idx 0, idx 1, eq_ix2 idx⟩
  exact ref_out _ _ _ _ _ _ _ _ _ _ (fun i f => ref_layer2 _ _ _ _ _ _ i f) g o

end Cert.RV

end
-- ==== Proof.lean ====
/- Two graph-convolution layers, a mean pool and a linear layer: the Pallas program against its jnp reference.

   The three frames: the two kernel programs' are the generated ones; the reference's is its generated run with the
   result dropped. No operation was rewritten when the idealized kernel was printed, so `preserves` is trivial.
   The value claim: the idealized kernel's result array is `Spec.outK` of the argument arrays (Proof/KVal.lean: each
   region's value and each stretch of host operations, read entry by entry and composed), the reference's is
   `Spec.outR` (Proof/RefVal.lean), and the two are one function (Proof/Spec.lean): the kernel scales the projected rows
   by 1/√deg before each aggregation and the aggregated rows after it, the reference scales each edge's message by
   both ends' factors, and a finite sum of extended reals may be multiplied through by a non-negative real; the
   kernel pools by a 0/1-weighted sum over all nodes, the reference by a sum over each graph's nodes. -/
import proofs.«404828_j12489764896775_3_alg».proof.Defs
import proofs.«404828_j12489764896775_3_alg».proof.Proof.Gen.Kernel
import proofs.«404828_j12489764896775_3_alg».proof.Proof.Gen.Kernel.Frame
import proofs.«404828_j12489764896775_3_alg».proof.Proof.Gen.KernelIdeal
import proofs.«404828_j12489764896775_3_alg».proof.Proof.Gen.ReferenceIdeal
import proofs.«404828_j12489764896775_3_alg».proof.Proof.Gen.Pre_finite_inputs
import proofs.«404828_j12489764896775_3_alg».proof.Proof.KVal
import proofs.«404828_j12489764896775_3_alg».proof.Proof.RefVal
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at one function of the argument arrays: the kernel's at `Spec.outK`, the
    reference's at `Spec.outR` of arguments that agree, and `Spec.outK_eq_outR` joins them. -/
theorem algebraic : Cert.algebraic_KernelIdeal_ReferenceIdeal := by
  intro m ρ m' ρ' _ hagree
  refine ⟨fun c => Cert.KV.result m c, ?_, ?_⟩
  · exact (θ_run Cert.KernelIdeal.defs _ _).mono
      (fun _ h c => ⟨(h c).1.trans (Cert.KV.kernel_value m ρ c), (h c).2⟩) (Cert.KernelIdeal.Gen.run (F := Ideal) m ρ)
  · refine (θ_run Cert.ReferenceIdeal.defs _ _).mono (fun _ h c => ⟨(h c).1.trans ?_, (h c).2⟩)
      (Cert.ReferenceIdeal.Value.run (F := Ideal) m' ρ')
    rw [Cert.RV.ref_value]
    unfold Cert.RV.result Cert.KV.result
    obtain ⟨h0, h1, h2, h3, h4, h5, h6, h7, h8⟩ := hagree c
    rw [h0, h1, h2, h3, h4, h5, h6, h7, h8]
    funext idx
    exact (Cert.Spec.outK_eq_outR _ _ _ _ _ _ _ _ _).symm ▸ rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
